-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x2 : Shape := ⟨2, ![65536, 2]⟩
abbrev S400000 : Shape := ⟨1, ![400000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S400000 : S_.BroadcastsInDim S400000 (![] : Fin 0 → Fin S400000.rank)
  reducesTo_S400000_S_d0 : S400000.ReducesTo [0] S_

variable [Facts]

def fn_part7 {F : FTy → Type} [FloatOps F] (main_arg5 : IVec S400000 32) (main_v116 : IVec S_ 1) (main_v118 : IVec S400000 1) : IVec S_ 1 :=
  let main_c_47 : IVec S_ 1 := constantI S_ 1 1#1
  let main_v119 : IVec S_ 1 := (fun x v => Host.reduce IntOp.andi x v reducesTo_S400000_S_d0 h_S_) main_v118 main_c_47
  let main_v120 : IVec S_ 1 := andi main_v116 main_v119
  let main_c_48 : IVec S_ 32 := constantI S_ 32 65536#32
  let main_v121 : IVec S400000 32 := broadcastInDim S400000 ![] bcast_S_S400000 main_c_48
  let main_v122 : IVec S400000 1 := cmpi .slt main_arg5 main_v121
  let main_c_49 : IVec S_ 1 := constantI S_ 1 1#1
  let main_v123 : IVec S_ 1 := (fun x v => Host.reduce IntOp.andi x v reducesTo_S400000_S_d0 h_S_) main_v122 main_c_49
  let main_v124 : IVec S_ 1 := andi main_v120 main_v123
  main_v124

def fn_part6 {F : FTy → Type} [FloatOps F] (main_arg4 : IVec S400000 32) (main_arg5 : IVec S400000 32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S400000 32 := broadcastInDim S400000 ![] bcast_S_S400000 main_c_42
  let main_v110 : IVec S400000 1 := cmpi .sge main_arg4 main_v109
  let main_c_43 : IVec S_ 1 := constantI S_ 1 1#1
  let main_v111 : IVec S_ 1 := (fun x v => Host.reduce IntOp.andi x v reducesTo_S400000_S_d0 h_S_) main_v110 main_c_43
  let main_v112 : IVec S_ 1 := andi main_v108 main_v111
  let main_c_44 : IVec S_ 32 := constantI S_ 32 65536#32
  let main_v113 : IVec S400000 32 := broadcastInDim S400000 ![] bcast_S_S400000 main_c_44
  let main_v114 : IVec S400000 1 := cmpi .slt main_arg4 main_v113
  let main_c_45 : IVec S_ 1 := constantI S_ 1 1#1
  let main_v115 : IVec S_ 1 := (fun x v => Host.reduce IntOp.andi x v reducesTo_S400000_S_d0 h_S_) main_v114 main_c_45
  let main_v116 : IVec S_ 1 := andi main_v112 main_v115
  let main_c_46 : IVec S_ 32 := constantI S_ 32 0#32
  let main_v117 : IVec S400000 32 := broadcastInDim S400000 ![] bcast_S_S400000 main_c_46
  let main_v118 : IVec S400000 1 := cmpi .sge main_arg5 main_v117
  fn_part7 (F := F) main_arg5 main_v116 main_v118

def fn_part5 {F : FTy → Type} [FloatOps F] (main_arg4 : IVec S400000 32) (main_arg5 : IVec S400000 32) (main_arg20 : FVec F S128 .f32) (main_arg21 : FVec F S128x128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg4 main_arg5 main_arg23 main_v98 main_v101 main_c_39

def fn_part4 {F : FTy → Type} [FloatOps F] (main_arg4 : IVec S400000 32) (main_arg5 : IVec S400000 32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg4 main_arg5 main_arg20 main_arg21 main_arg22 main_arg23 main_v83 main_v84 main_cst_32

def fn_part3 {F : FTy → Type} [FloatOps F] (main_arg4 : IVec S400000 32) (main_arg5 : IVec S400000 32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S384x128 .f32 := Host.absf main_arg14
  let main_cst_22 : FVec F S_ .f32 := constant S_ .f32 0x7F800000#32
  let main_v60 : FVec F S384x128 .f32 := broadcastInDim S384x128 ![] bcast_S_S384x128 main_cst_22
  let main_v61 : IVec S384x128 1 := cmpf .olt main_v59 main_v60
  let main_c_23 : IVec S_ 1 := constantI S_ 1 1#1
  let main_v62 : IVec S_ 1 := (fun x v => Host.reduce IntOp.andi x v reducesTo_S384x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg5 main_arg16 main_arg17 main_arg18 main_arg19 main_arg20 main_arg21 main_arg22 main_arg23 main_v63 main_v67

def fn_part2 {F : FTy → Type} [FloatOps F] (main_arg4 : IVec S400000 32) (main_arg5 : IVec S400000 32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg4 main_arg5 main_arg13 main_arg14 main_arg15 main_arg16 main_arg17 main_arg18 main_arg19 main_arg20 main_arg21 main_arg22 main_arg23 main_v48 main_v49 main_v50

def fn_part1 {F : FTy → Type} [FloatOps F] (main_arg4 : IVec S400000 32) (main_arg5 : IVec S400000 32) (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v13 : IVec S_ 1) (main_v16 : IVec S65536x2 1) : IVec S_ 1 :=
  let main_c_5 : IVec S_ 1 := constantI S_ 1 1#1
  let main_v17 : IVec S_ 1 := (fun x v => Host.reduce IntOp.andi x v reducesTo_S65536x2_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg5 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S65536x128 .f32) (main_arg1 : FVec F S65536x128 .f32) (main_arg2 : FVec F S65536x2 .f32) (main_arg3 : FVec F S65536x2 .f32) (main_arg4 : IVec S400000 32) (main_arg5 : IVec S400000 32) (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  let main_v14 : FVec F S65536x2 .f32 := Host.absf main_arg3
  let main_cst_4 : FVec F S_ .f32 := constant S_ .f32 0x7F800000#32
  let main_v15 : FVec F S65536x2 .f32 := broadcastInDim S65536x2 ![] bcast_S_S65536x2 main_cst_4
  let main_v16 : IVec S65536x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S65536x128 : Shape := ⟨2, ![65536, 128]⟩
abbrev S65536x2 : Shape := ⟨2, ![65536, 2]⟩
abbrev S400000 : Shape := ⟨1, ![400000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S400000x2 : Shape := ⟨2, ![400000, 2]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S4000x384 : Shape := ⟨2, ![4000, 384]⟩
abbrev S4096x128 : Shape := ⟨2, ![4096, 128]⟩
abbrev S4096 : Shape := ⟨1, ![4096]⟩
abbrev S4096x1 : Shape := ⟨2, ![4096, 1]⟩

abbrev nBuf : Space → Nat
  | .hbm => 140
  | .vmem => 30
  | .smem => 0
  | _ => 0

abbrev hbmTy0_0 (i : Nat) : BufTy := match i % 128 with
  | 0 => ⟨S65536x128, .f32⟩
  | 1 => ⟨S65536x128, .f32⟩
  | 2 => ⟨S65536x2, .f32⟩
  | 3 => ⟨S65536x2, .f32⟩
  | 4 => ⟨S400000, .i32⟩
  | 5 => ⟨S400000, .i32⟩
  | 6 => ⟨S2x128, .f32⟩
  | 7 => ⟨S128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S384x128, .f32⟩
  | 15 => ⟨S128, .f32⟩
  | 16 => ⟨S128, .f32⟩
  | 17 => ⟨S128x128, .f32⟩
  | 18 => ⟨S128x128, .f32⟩
  | 19 => ⟨S128, .f32⟩
  | 20 => ⟨S128, .f32⟩
  | 21 => ⟨S128x128, .f32⟩
  | 22 => ⟨S128, .f32⟩
  | 23 => ⟨S128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S1, .i32⟩
  | 33 => ⟨S_, .i32⟩
  | 34 => ⟨S400000x1, .i32⟩
  | 35 => ⟨S400000x1, .i1⟩
  | 36 => ⟨S1x1, .i32⟩
  | 37 => ⟨S400000x1, .i32⟩
  | 38 => ⟨S400000x1, .i1⟩
  | 39 => ⟨S400000x1, .i1⟩
  | 40 => ⟨S_, .i1⟩
  | 41 => ⟨S400000, .i1⟩
  | 42 => ⟨S400000x128, .f32⟩
  | 43 => ⟨S400000x128, .i1⟩
  | 44 => ⟨S_, .f32⟩
  | 45 => ⟨S400000x128, .f32⟩
  | 46 => ⟨S400000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S1, .i32⟩
  | 56 => ⟨S_, .i32⟩
  | 57 => ⟨S400000x1, .i32⟩
  | 58 => ⟨S400000x1, .i1⟩
  | 59 => ⟨S1x1, .i32⟩
  | 60 => ⟨S400000x1, .i32⟩
  | 61 => ⟨S400000x1, .i1⟩
  | 62 => ⟨S400000x1, .i1⟩
  | 63 => ⟨S_, .i1⟩
  | 64 => ⟨S400000, .i1⟩
  | 65 => ⟨S400000x128, .f32⟩
  | 66 => ⟨S400000x128, .i1⟩
  | 67 => ⟨S_, .f32⟩
  | 68 => ⟨S400000x128, .f32⟩
  | 69 => ⟨S400000x128, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S1, .i32⟩
  | 79 => ⟨S_, .i32⟩
  | 80 => ⟨S400000x1, .i32⟩
  | 81 => ⟨S400000x1, .i1⟩
  | 82 => ⟨S1x1, .i32⟩
  | 83 => ⟨S400000x1, .i32⟩
  | 84 => ⟨S400000x1, .i1⟩
  | 85 => ⟨S400000x1, .i1⟩
  | 86 => ⟨S_, .i1⟩
  | 87 => ⟨S400000, .i1⟩
  | 88 => ⟨S400000x2, .f32⟩
  | 89 => ⟨S400000x2, .i1⟩
  | 90 => ⟨S_, .f32⟩
  | 91 => ⟨S400000x2, .f32⟩
  | 92 => ⟨S400000x2, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S1, .i32⟩
  | 102 => ⟨S_, .i32⟩
  | 103 => ⟨S400000x1, .i32⟩
  | 104 => ⟨S400000x1, .i1⟩
  | 105 => ⟨S1x1, .i32⟩
  | 106 => ⟨S400000x1, .i32⟩
  | 107 => ⟨S400000x1, .i1⟩
  | 108 => ⟨S400000x1, .i1⟩
  | 109 => ⟨S_, .i1⟩
  | 110 => ⟨S400000, .i1⟩
  | 111 => ⟨S400000x2, .f32⟩
  | 112 => ⟨S400000x2, .i1⟩
  | 113 => ⟨S_, .f32⟩
  | 114 => ⟨S400000x2, .f32⟩
  | 115 => ⟨S400000x2, .f32⟩
  | 116 => ⟨S400000x2, .f32⟩
  | 117 => ⟨S400000x128, .f32⟩
  | 118 => ⟨S1x128, .f32⟩
  | 119 => ⟨S400000x128, .f32⟩
  | 120 => ⟨S400000x128, .f32⟩
  | 121 => ⟨S_, .f32⟩
  | 122 => ⟨S400000x128, .f32⟩
  | 123 => ⟨S400000x128, .f32⟩
  | 124 => ⟨S1x128, .f32⟩
  | 125 => ⟨S1x128, .f32⟩
  | 126 => ⟨S1x128, .f32⟩
  | 127 => ⟨S1x128, .f32⟩
  | _ => ⟨S65536x128, .f32⟩

abbrev hbmTy0_1 (i : Nat) : BufTy := match i % 128 with
  | 0 => ⟨S1x128, .f32⟩
  | 1 => ⟨S1x128, .f32⟩
  | 2 => ⟨S400000x128, .f32⟩
  | 3 => ⟨S_, .f32⟩
  | 4 => ⟨S65536x128, .f32⟩
  | 5 => ⟨S400000x1, .i32⟩
  | 6 => ⟨S65536x128, .f32⟩
  | 7 => ⟨S1x128, .f32⟩
  | 8 => ⟨S1x128, .f32⟩
  | 9 => ⟨S1x128, .f32⟩
  | 10 => ⟨S1x128, .f32⟩
  | 11 => ⟨S65536x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S384x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S4096x128, .f32⟩
  | .local _ .vmem, ⟨29, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v2 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v3 : Ref sig .tc := ⟨.hbm, 115, rfl⟩
abbrev main_v4 : Ref sig .tc := ⟨.hbm, 116, rfl⟩
abbrev main_v5 : Ref sig .tc := ⟨.hbm, 117, rfl⟩
abbrev main_v6 : Ref sig .tc := ⟨.hbm, 118, rfl⟩
abbrev main_v7 : Ref sig .tc := ⟨.hbm, 119, rfl⟩
abbrev main_v8 : Ref sig .tc := ⟨.hbm, 120, rfl⟩
abbrev main_call4_cst : Ref sig .tc := ⟨.hbm, 121, rfl⟩
abbrev main_call4_v0 : Ref sig .tc := ⟨.hbm, 122, rfl⟩
abbrev main_v9 : Ref sig .tc := ⟨.hbm, 123, rfl⟩
abbrev main_v10 : Ref sig .tc := ⟨.hbm, 124, rfl⟩
abbrev main_v11 : Ref sig .tc := ⟨.hbm, 125, rfl⟩
abbrev main_v12 : Ref sig .tc := ⟨.hbm, 126, rfl⟩
abbrev main_v13 : Ref sig .tc := ⟨.hbm, 127, rfl⟩
abbrev main_v14 : Ref sig .tc := ⟨.hbm, 128, rfl⟩
abbrev main_v15 : Ref sig .tc := ⟨.hbm, 129, rfl⟩
abbrev main_v16 : Ref sig .tc := ⟨.hbm, 130, rfl⟩
abbrev main_cst : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_v20 : Ref sig .tc := ⟨.hbm, 135, rfl⟩
abbrev main_v21 : Ref sig .tc := ⟨.hbm, 136, rfl⟩
abbrev main_v22 : Ref sig .tc := ⟨.hbm, 137, rfl⟩
abbrev main_v23 : Ref sig .tc := ⟨.hbm, 138, rfl⟩
abbrev main_v24 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S400000_S400000x2_0 : S400000.BroadcastsInDim S400000x2 (![0] : Fin 1 → Fin S400000x2.rank)
  bcast_S_S400000x2 : S_.BroadcastsInDim S400000x2 (![] : Fin 0 → Fin S400000x2.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4000x128_S4000 : S4000x128.Reduces [1] S4000
  shapeCasts_S4000_S4000x1 : S4000.ShapeCasts S4000x1
  broadcasts_S4000x1_S4000x128 : S4000x1.Broadcasts S4000x128
  broadcasts_S1x128_S4000x128 : S1x128.Broadcasts S4000x128
  concatenates_S4000x128_S4000x128_S4000x128_S4000x384_d1 : Shape.Concatenates [S4000x128, S4000x128, S4000x128] S4000x384 1
  inb_S384x128_S384x128_0_0 : ∀ a, (![0, 0] : Fin 2 → Nat) a + S384x128.size a ≤ S384x128.size a
  h_S384x128 : 0 < S384x128.numel
  bcast_S_S65536x128 : S_.BroadcastsInDim S65536x128 (![] : Fin 0 → Fin S65536x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  broadcasts_S1x128_S4096x128 : S1x128.Broadcasts S4096x128
  gather_S65536x128_S400000x1_S400000x128_1_0_n_n_0_1_1128_wf : GatherDims.WF S65536x128 S400000x1 S400000x128 [1] [0] [] [0] [] 1 ![1, 128]
  gather_S65536x2_S400000x1_S400000x2_1_0_n_n_0_1_12_wf : GatherDims.WF S65536x2 S400000x1 S400000x2 [1] [0] [] [0] [] 1 ![1, 2]
  dot_S400000x2_S2x128_S400000x128_1_0_0_1_n_n_wf : DotDims.WF S400000x2 S2x128 S400000x128 [1] [0] [0] [1] [] []
  dot_S4000x128_S128x128_S4000x128_1_0_0_1_n_n_wf : DotDims.WF S4000x128 S128x128 S4000x128 [1] [0] [0] [1] [] []
  dot_S4000x384_S384x128_S4000x128_1_0_0_1_n_n_wf : DotDims.WF S4000x384 S384x128 S4000x128 [1] [0] [0] [1] [] []
  scatter_S65536x128_S400000x1_S400000x128_1_0_0_1_wf : ScatterDims.WF S65536x128 S400000x1 S400000x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x128.size a ≤ S384x128.size a
  hwx0_9 : ∀ i : grid0.Coords, EltTy.bits .f32 = 32 ∨ (Rect.block (s := S384x128) S384x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S400000x128.size a
  hwx0_13 : ∀ i : grid0.Coords, EltTy.bits .f32 = 32 ∨ (Rect.block (s := S400000x128) S4000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .f32 = 32 ∨ (Rect.block (s := S65536x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096x128.size a ≤ S65536x128.size a
  hwx1_8 : ∀ i : grid1.Coords, EltTy.bits .f32 = 32 ∨ (Rect.block (s := S65536x128) S4096x128.size (cc1_transform_8 i) (hinb1_8 i)).WholeWords (EltTy.packing .f32)

variable [Facts₀]

def gather_S65536x128_S400000x1_S400000x128_1_0_n_n_0_1_1128 : GatherDims S65536x128 S400000x1 S400000x128 where
  offsetDims := [1]
  collapsedSliceDims := [0]
  operandBatchingDims := []
  startIndicesBatchingDims := []
  startIndexMap := [0]
  indexVectorDim := 1
  sliceSizes := ![1, 128]
  wf := gather_S65536x128_S400000x1_S400000x128_1_0_n_n_0_1_1128_wf
def gather_S65536x2_S400000x1_S400000x2_1_0_n_n_0_1_12 : GatherDims S65536x2 S400000x1 S400000x2 where
  offsetDims := [1]
  collapsedSliceDims := [0]
  operandBatchingDims := []
  startIndicesBatchingDims := []
  startIndexMap := [0]
  indexVectorDim := 1
  sliceSizes := ![1, 2]
  wf := gather_S65536x2_S400000x1_S400000x2_1_0_n_n_0_1_12_wf
def dot_S400000x2_S2x128_S400000x128_1_0_0_1_n_n : DotDims S400000x2 S2x128 S400000x128 where
  lhsContracting := [1]
  rhsContracting := [0]
  lhsNonContracting := [0]
  rhsNonContracting := [1]
  lhsBatch := []
  rhsBatch := []
  wf := dot_S400000x2_S2x128_S400000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S65536x128_S400000x1_S400000x128_1_0_0_1 : ScatterDims S65536x128 S400000x1 S400000x128 where
  updateWindowDims := [1]
  insertedWindowDims := [0]
  scatterDimsToOperandDims := [0]
  indexVectorDim := 1
  wf := scatter_S65536x128_S400000x1_S400000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S4096x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S65536x128 : Shape := ⟨2, ![65536, 128]⟩
abbrev S65536x2 : Shape := ⟨2, ![65536, 2]⟩
abbrev S400000 : Shape := ⟨1, ![400000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S400000x1 : Shape := ⟨2, ![400000, 1]⟩
abbrev S400000x2 : Shape := ⟨2, ![400000, 2]⟩
abbrev S400000x128 : Shape := ⟨2, ![400000, 128]⟩
abbrev S1x128 : Shape := ⟨2, ![1, 128]⟩
abbrev S400000x384 : Shape := ⟨2, ![400000, 384]⟩
abbrev S65536 : Shape := ⟨1, ![65536]⟩
abbrev S65536x1 : Shape := ⟨2, ![65536, 1]⟩

abbrev nBuf : Space → Nat
  | .hbm => 245
  | .vmem => 0
  | .smem => 0
  | _ => 0

abbrev hbmTy0_0 (i : Nat) : BufTy := match i % 128 with
  | 0 => ⟨S65536x128, .f32⟩
  | 1 => ⟨S65536x128, .f32⟩
  | 2 => ⟨S65536x2, .f32⟩
  | 3 => ⟨S65536x2, .f32⟩
  | 4 => ⟨S400000, .i32⟩
  | 5 => ⟨S400000, .i32⟩
  | 6 => ⟨S2x128, .f32⟩
  | 7 => ⟨S128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S384x128, .f32⟩
  | 15 => ⟨S128, .f32⟩
  | 16 => ⟨S128, .f32⟩
  | 17 => ⟨S128x128, .f32⟩
  | 18 => ⟨S128x128, .f32⟩
  | 19 => ⟨S128, .f32⟩
  | 20 => ⟨S128, .f32⟩
  | 21 => ⟨S128x128, .f32⟩
  | 22 => ⟨S128, .f32⟩
  | 23 => ⟨S128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x2, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x2, .f32⟩
  | 42 => ⟨S400000x2, .f32⟩
  | 43 => ⟨S400000x128, .f32⟩
  | 44 => ⟨S1x128, .f32⟩
  | 45 => ⟨S400000x128, .f32⟩
  | 46 => ⟨S400000x128, .f32⟩
  | 47 => ⟨S_, .f32⟩
  | 48 => ⟨S400000x128, .f32⟩
  | 49 => ⟨S400000x128, .f32⟩
  | 50 => ⟨S400000x128, .f32⟩
  | 51 => ⟨S_, .f32⟩
  | 52 => ⟨S400000, .f32⟩
  | 53 => ⟨S400000x1, .f32⟩
  | 54 => ⟨S_, .f32⟩
  | 55 => ⟨S400000x1, .f32⟩
  | 56 => ⟨S400000x1, .f32⟩
  | 57 => ⟨S400000x128, .f32⟩
  | 58 => ⟨S400000x128, .f32⟩
  | 59 => ⟨S400000x128, .f32⟩
  | 60 => ⟨S_, .f32⟩
  | 61 => ⟨S400000, .f32⟩
  | 62 => ⟨S400000x1, .f32⟩
  | 63 => ⟨S_, .f32⟩
  | 64 => ⟨S400000x1, .f32⟩
  | 65 => ⟨S400000x1, .f32⟩
  | 66 => ⟨S400000x128, .f32⟩
  | 67 => ⟨S400000x128, .f32⟩
  | 68 => ⟨S_, .f32⟩
  | 69 => ⟨S400000x1, .f32⟩
  | 70 => ⟨S400000x1, .f32⟩
  | 71 => ⟨S400000x1, .f32⟩
  | 72 => ⟨S400000x128, .f32⟩
  | 73 => ⟨S400000x128, .f32⟩
  | 74 => ⟨S1x128, .f32⟩
  | 75 => ⟨S400000x128, .f32⟩
  | 76 => ⟨S400000x128, .f32⟩
  | 77 => ⟨S1x128, .f32⟩
  | 78 => ⟨S400000x128, .f32⟩
  | 79 => ⟨S400000x128, .f32⟩
  | 80 => ⟨S_, .f32⟩
  | 81 => ⟨S400000x128, .f32⟩
  | 82 => ⟨S400000x128, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x128, .f32⟩
  | 92 => ⟨S400000x128, .f32⟩
  | 93 => ⟨S_, .f32⟩
  | 94 => ⟨S400000, .f32⟩
  | 95 => ⟨S400000x1, .f32⟩
  | 96 => ⟨S_, .f32⟩
  | 97 => ⟨S400000x1, .f32⟩
  | 98 => ⟨S400000x1, .f32⟩
  | 99 => ⟨S400000x128, .f32⟩
  | 100 => ⟨S400000x128, .f32⟩
  | 101 => ⟨S400000x128, .f32⟩
  | 102 => ⟨S_, .f32⟩
  | 103 => ⟨S400000, .f32⟩
  | 104 => ⟨S400000x1, .f32⟩
  | 105 => ⟨S_, .f32⟩
  | 106 => ⟨S400000x1, .f32⟩
  | 107 => ⟨S400000x1, .f32⟩
  | 108 => ⟨S400000x128, .f32⟩
  | 109 => ⟨S400000x128, .f32⟩
  | 110 => ⟨S_, .f32⟩
  | 111 => ⟨S400000x1, .f32⟩
  | 112 => ⟨S400000x1, .f32⟩
  | 113 => ⟨S400000x1, .f32⟩
  | 114 => ⟨S400000x128, .f32⟩
  | 115 => ⟨S400000x128, .f32⟩
  | 116 => ⟨S1x128, .f32⟩
  | 117 => ⟨S400000x128, .f32⟩
  | 118 => ⟨S400000x128, .f32⟩
  | 119 => ⟨S1x128, .f32⟩
  | 120 => ⟨S400000x128, .f32⟩
  | 121 => ⟨S400000x128, .f32⟩
  | 122 => ⟨S_, .f32⟩
  | 123 => ⟨S400000x128, .f32⟩
  | 124 => ⟨S400000x128, .f32⟩
  | 125 => ⟨S_, .i32⟩
  | 126 => ⟨S400000, .i32⟩
  | 127 => ⟨S400000, .i1⟩
  | _ => ⟨S65536x128, .f32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S400000x384, .f32⟩
  | 7 => ⟨S400000x128, .f32⟩
  | 8 => ⟨S_, .f32⟩
  | 9 => ⟨S400000, .f32⟩
  | 10 => ⟨S400000x1, .f32⟩
  | 11 => ⟨S_, .f32⟩
  | 12 => ⟨S400000x1, .f32⟩
  | 13 => ⟨S400000x1, .f32⟩
  | 14 => ⟨S400000x128, .f32⟩
  | 15 => ⟨S400000x128, .f32⟩
  | 16 => ⟨S400000x128, .f32⟩
  | 17 => ⟨S_, .f32⟩
  | 18 => ⟨S400000, .f32⟩
  | 19 => ⟨S400000x1, .f32⟩
  | 20 => ⟨S_, .f32⟩
  | 21 => ⟨S400000x1, .f32⟩
  | 22 => ⟨S400000x1, .f32⟩
  | 23 => ⟨S400000x128, .f32⟩
  | 24 => ⟨S400000x128, .f32⟩
  | 25 => ⟨S_, .f32⟩
  | 26 => ⟨S400000x1, .f32⟩
  | 27 => ⟨S400000x1, .f32⟩
  | 28 => ⟨S400000x1, .f32⟩
  | 29 => ⟨S400000x128, .f32⟩
  | 30 => ⟨S400000x128, .f32⟩
  | 31 => ⟨S1x128, .f32⟩
  | 32 => ⟨S400000x128, .f32⟩
  | 33 => ⟨S400000x128, .f32⟩
  | 34 => ⟨S1x128, .f32⟩
  | 35 => ⟨S400000x128, .f32⟩
  | 36 => ⟨S400000x128, .f32⟩
  | 37 => ⟨S_, .f32⟩
  | 38 => ⟨S400000x128, .f32⟩
  | 39 => ⟨S400000x128, .f32⟩
  | 40 => ⟨S400000x128, .f32⟩
  | 41 => ⟨S65536x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S65536x128, .f32⟩
  | 51 => ⟨S_, .f32⟩
  | 52 => ⟨S65536, .f32⟩
  | 53 => ⟨S65536x1, .f32⟩
  | 54 => ⟨S_, .f32⟩
  | 55 => ⟨S65536x1, .f32⟩
  | 56 => ⟨S65536x1, .f32⟩
  | 57 => ⟨S65536x128, .f32⟩
  | 58 => ⟨S65536x128, .f32⟩
  | 59 => ⟨S65536x128, .f32⟩
  | 60 => ⟨S_, .f32⟩
  | 61 => ⟨S65536, .f32⟩
  | 62 => ⟨S65536x1, .f32⟩
  | 63 => ⟨S_, .f32⟩
  | 64 => ⟨S65536x1, .f32⟩
  | 65 => ⟨S65536x1, .f32⟩
  | 66 => ⟨S65536x128, .f32⟩
  | 67 => ⟨S65536x128, .f32⟩
  | 68 => ⟨S_, .f32⟩
  | 69 => ⟨S65536x1, .f32⟩
  | 70 => ⟨S65536x1, .f32⟩
  | 71 => ⟨S65536x1, .f32⟩
  | 72 => ⟨S65536x128, .f32⟩
  | 73 => ⟨S65536x128, .f32⟩
  | 74 => ⟨S1x128, .f32⟩
  | 75 => ⟨S65536x128, .f32⟩
  | 76 => ⟨S65536x128, .f32⟩
  | 77 => ⟨S1x128, .f32⟩
  | 78 => ⟨S65536x128, .f32⟩
  | 79 => ⟨S65536x128, .f32⟩
  | 80 => ⟨S_, .f32⟩
  | 81 => ⟨S65536x128, .f32⟩
  | 82 => ⟨S65536x128, .f32⟩
  | 83 => ⟨S65536x128, .f32⟩
  | 84 => ⟨S_, .f32⟩
  | 85 => ⟨S65536, .f32⟩
  | 86 => ⟨S65536x1, .f32⟩
  | 87 => ⟨S_, .f32⟩
  | 88 => ⟨S65536x1, .f32⟩
  | 89 => ⟨S65536x1, .f32⟩
  | 90 => ⟨S65536x128, .f32⟩
  | 91 => ⟨S65536x128, .f32⟩
  | 92 => ⟨S65536x128, .f32⟩
  | 93 => ⟨S_, .f32⟩
  | 94 => ⟨S65536, .f32⟩
  | 95 => ⟨S65536x1, .f32⟩
  | 96 => ⟨S_, .f32⟩
  | 97 => ⟨S65536x1, .f32⟩
  | 98 => ⟨S65536x1, .f32⟩
  | 99 => ⟨S65536x128, .f32⟩
  | 100 => ⟨S65536x128, .f32⟩
  | 101 => ⟨S_, .f32⟩
  | 102 => ⟨S65536x1, .f32⟩
  | 103 => ⟨S65536x1, .f32⟩
  | 104 => ⟨S65536x1, .f32⟩
  | 105 => ⟨S65536x128, .f32⟩
  | 106 => ⟨S65536x128, .f32⟩
  | 107 => ⟨S1x128, .f32⟩
  | 108 => ⟨S65536x128, .f32⟩
  | 109 => ⟨S65536x128, .f32⟩
  | 110 => ⟨S1x128, .f32⟩
  | 111 => ⟨S65536x128, .f32⟩
  | 112 => ⟨S65536x128, .f32⟩
  | 113 => ⟨S65536x128, .f32⟩
  | 114 => ⟨S_, .f32⟩
  | 115 => ⟨S65536x128, .f32⟩
  | 116 => ⟨S65536x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call1_cst : Ref sig .tc := ⟨.hbm, 80, rfl⟩
abbrev main_call1_v0 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call2_cst : Ref sig .tc := ⟨.hbm, 122, rfl⟩
abbrev main_call2_v0 : Ref sig .tc := ⟨.hbm, 123, rfl⟩
abbrev main_v78 : Ref sig .tc := ⟨.hbm, 124, rfl⟩
abbrev main_c_14 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_16 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_18 : Ref sig .tc := ⟨.hbm, 145, rfl⟩
abbrev main_v95 : Ref sig .tc := ⟨.hbm, 146, rfl⟩
abbrev main_v96 : Ref sig .tc := ⟨.hbm, 147, rfl⟩
abbrev main_cst_19 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_cst : Ref sig .tc := ⟨.hbm, 165, rfl⟩
abbrev main_call3_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_21 : Ref sig .tc := ⟨.hbm, 170, rfl⟩
abbrev main_v115 : Ref sig .tc := ⟨.hbm, 171, rfl⟩
abbrev main_v116 : Ref sig .tc := ⟨.hbm, 172, rfl⟩
abbrev main_c_22 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_23 : Ref sig .tc := ⟨.hbm, 179, rfl⟩
abbrev main_v122 : Ref sig .tc := ⟨.hbm, 180, rfl⟩
abbrev main_v123 : Ref sig .tc := ⟨.hbm, 181, rfl⟩
abbrev main_cst_24 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_25 : Ref sig .tc := ⟨.hbm, 188, rfl⟩
abbrev main_v129 : Ref sig .tc := ⟨.hbm, 189, rfl⟩
abbrev main_v130 : Ref sig .tc := ⟨.hbm, 190, rfl⟩
abbrev main_cst_26 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_27 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call4_cst : Ref sig .tc := ⟨.hbm, 208, rfl⟩
abbrev main_call4_v0 : Ref sig .tc := ⟨.hbm, 209, rfl⟩
abbrev main_v146 : Ref sig .tc := ⟨.hbm, 210, rfl⟩
abbrev main_v147 : Ref sig .tc := ⟨.hbm, 211, rfl⟩
abbrev main_cst_28 : Ref sig .tc := ⟨.hbm, 212, rfl⟩
abbrev main_v148 : Ref sig .tc := ⟨.hbm, 213, rfl⟩
abbrev main_v149 : Ref sig .tc := ⟨.hbm, 214, rfl⟩
abbrev main_cst_29 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_30 : Ref sig .tc := ⟨.hbm, 221, rfl⟩
abbrev main_v155 : Ref sig .tc := ⟨.hbm, 222, rfl⟩
abbrev main_v156 : Ref sig .tc := ⟨.hbm, 223, rfl⟩
abbrev main_cst_31 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_32 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_call5_cst : Ref sig .tc := ⟨.hbm, 242, rfl⟩
abbrev main_call5_v0 : Ref sig .tc := ⟨.hbm, 243, rfl⟩
abbrev main_v173 : Ref sig .tc := ⟨.hbm, 244, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  concatenates_S400000x128_S400000x128_S400000x128_S400000x384_d1 : Shape.Concatenates [S400000x128, S400000x128, S400000x128] S400000x384 1
  reducesTo_S65536x128_S65536_d1 : S65536x128.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  gather_S65536x2_S400000x1_S400000x2_1_0_n_n_0_1_12_wf : GatherDims.WF S65536x2 S400000x1 S400000x2 [1] [0] [] [0] [] 1 ![1, 2]
  dot_S400000x2_S2x128_S400000x128_1_0_0_1_n_n_wf : DotDims.WF S400000x2 S2x128 S400000x128 [1] [0] [0] [1] [] []
  dot_S400000x128_S128x128_S400000x128_1_0_0_1_n_n_wf : DotDims.WF S400000x128 S128x128 S400000x128 [1] [0] [0] [1] [] []
  gather_S65536x128_S400000x1_S400000x128_1_0_n_n_0_1_1128_wf : GatherDims.WF S65536x128 S400000x1 S400000x128 [1] [0] [] [0] [] 1 ![1, 128]
  dot_S400000x384_S384x128_S400000x128_1_0_0_1_n_n_wf : DotDims.WF S400000x384 S384x128 S400000x128 [1] [0] [0] [1] [] []
  dot_S65536x128_S128x128_S65536x128_1_0_0_1_n_n_wf : DotDims.WF S65536x128 S128x128 S65536x128 [1] [0] [0] [1] [] []
  scatter_S65536x128_S400000x1_S400000x128_1_0_0_1_wf : ScatterDims.WF S65536x128 S400000x1 S400000x128 [1] [0] [0] 1

variable [Facts₀]

def gather_S65536x2_S400000x1_S400000x2_1_0_n_n_0_1_12 : GatherDims S65536x2 S400000x1 S400000x2 where
  offsetDims := [1]
  collapsedSliceDims := [0]
  operandBatchingDims := []
  startIndicesBatchingDims := []
  startIndexMap := [0]
  indexVectorDim := 1
  sliceSizes := ![1, 2]
  wf := gather_S65536x2_S400000x1_S400000x2_1_0_n_n_0_1_12_wf
def dot_S400000x2_S2x128_S400000x128_1_0_0_1_n_n : DotDims S400000x2 S2x128 S400000x128 where
  lhsContracting := [1]
  rhsContracting := [0]
  lhsNonContracting := [0]
  rhsNonContracting := [1]
  lhsBatch := []
  rhsBatch := []
  wf := dot_S400000x2_S2x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S65536x128_S400000x1_S400000x128_1_0_n_n_0_1_1128 : GatherDims S65536x128 S400000x1 S400000x128 where
  offsetDims := [1]
  collapsedSliceDims := [0]
  operandBatchingDims := []
  startIndicesBatchingDims := []
  startIndexMap := [0]
  indexVectorDim := 1
  sliceSizes := ![1, 128]
  wf := gather_S65536x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S65536x128_S400000x1_S400000x128_1_0_0_1 : ScatterDims S65536x128 S400000x1 S400000x128 where
  updateWindowDims := [1]
  insertedWindowDims := [0]
  scatterDimsToOperandDims := [0]
  indexVectorDim := 1
  wf := scatter_S65536x128_S400000x1_S400000x128_1_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The message-passing layer, row by row, over the extended reals

One edge `e` of the graph joins agent `hi e` to context node `wi e`.  Its message is a function of three rows of
width 128 — the distance features `d1 e`, the agent row `agts (hi e)` and the context row `ctx (wi e)` — and of
the layer's weights:

  d  = relu (gn (d1 · dist_w2))            (a linear map, a group norm over the row, a relu)
  q  = relu (gn (agts_row · q_w))
  m₁ = relu (gn ([d, q, ctx_row] · ctx_w1))   (the three rows side by side, width 384)
  msg = m₁ · ctx_w2

A node `n` then adds the messages of the edges that point at it to `agts n · agt_w`, and the result goes through a
group norm, a relu, a linear map, a second group norm, the residual `+ agts n` and a last relu.

Everything here is a function of ROWS: `gn` normalises one row by its own mean and variance (divisor 128, the
constant `ε` under the reciprocal square root), so a row of the result depends on one row of each operand.  The
sums are the exact sums of the extended reals; no rounding and no order of summation is left in them.
-/

noncomputable section

namespace Cert.Spec

open Idealize.ShloMosaic Idealize.ShloMosaic.ValueIdx

/-- A row of 128 channels. -/
abbrev Row := Fin 128 → EReal

/-- The channel count as the float both programs divide by. -/
def c128 : EReal := Ideal.ofBits .f32 0x43000000#32
/-- The group norm's `ε` (the f32 nearest to 1e-5, the same word in both programs). -/
def epsv : EReal := Ideal.ofBits .f32 0x3727C5AC#32
/-- The float zero a relu compares with. -/
def zerov : EReal := Ideal.ofBits .f32 0x00000000#32

/-- A row times a `K × 128` matrix: channel `c` is `∑ k, x k * w k c`. -/
def lin {K : Nat} (x : Fin K → EReal) (w : Fin K → Fin 128 → EReal) : Row := fun c => ∑ k : Fin K, x k * w k c

/-- The mean of a row. -/
def mean (x : Row) : EReal := Ideal.div (∑ j : Fin 128, x j) c128
/-- The (biased) variance of a row. -/
def var (x : Row) : EReal := Ideal.div (∑ j : Fin 128, (x j - mean x) * (x j - mean x)) c128
/-- Group norm with one group over a row: centre, scale by `(var + ε)^(-1/2)`, then the affine map `· w + b`. -/
def gn (x w b : Row) : Row := fun c => (x c - mean x) * Ideal.rsqrt (var x + epsv) * w c + b c
/-- relu, channel by channel. -/
def relu (x : Row) : Row := fun c => max (x c) zerov

/-- Three rows side by side. -/
def cat3 (a b c : Row) : Fin 384 → EReal := fun k =>
  if h : k.val < 128 then a ⟨k.val, h⟩
  else if h2 : k.val < 256 then b ⟨k.val - 128, by omega⟩
  else c ⟨k.val - 256, by omega⟩

/-- The message of one edge from its three rows and the weights. -/
def edgeMsg (d1 ag cx : Row) (dist_w2 : Fin 128 → Fin 128 → EReal) (dist_gw dist_gb : Row)
    (q_w : Fin 128 → Fin 128 → EReal) (q_gw q_gb : Row) (ctx_w1 : Fin 384 → Fin 128 → EReal) (ctx_gw ctx_gb : Row)
    (ctx_w2 : Fin 128 → Fin 128 → EReal) : Row :=
  lin (relu (gn (lin (cat3 (relu (gn (lin d1 dist_w2) dist_gw dist_gb)) (relu (gn (lin ag q_w) q_gw q_gb)) cx) ctx_w1)
    ctx_gw ctx_gb)) ctx_w2

/-- The updated row of one node from its own row `ag`, the sum `sm` of the messages that reach it, and the weights. -/
def nodeOut (ag sm : Row) (agt_w : Fin 128 → Fin 128 → EReal) (norm_w norm_b : Row)
    (lin_w : Fin 128 → Fin 128 → EReal) (lin_gw lin_gb : Row) : Row :=
  relu (fun c => gn (lin (relu (gn (fun c' => lin ag agt_w c' + sm c') norm_w norm_b)) lin_w) lin_gw lin_gb c + ag c)

/-! ## Arrays of literal shape read as rows and matrices -/

/-- Row `r` of an `R × C` array. -/
abbrev rowOf {R C : Nat} (x : (⟨2, ![R, C]⟩ : Shape).Idx → EReal) (r : Fin R) : Fin C → EReal := fun k => x (ix2 r k)
/-- An `R × C` array as a matrix. -/
abbrev matOf {R C : Nat} (x : (⟨2, ![R, C]⟩ : Shape).Idx → EReal) : Fin R → Fin C → EReal := fun k c => x (ix2 k c)
/-- A `1 × C` array as a row. -/
abbrev vecOf1 {C : Nat} (x : (⟨2, ![1, C]⟩ : Shape).Idx → EReal) : Fin C → EReal := fun c => x (ix2 0 c)
/-- A length-`C` array as a row. -/
abbrev vecOf {C : Nat} (x : (⟨1, ![C]⟩ : Shape).Idx → EReal) : Fin C → EReal := fun c => x (ix1 c)

/-- The row of a 65536-row table an index word selects: the word read signed, clamped into the table. -/
def rowIx (h : BitVec 32) : Fin 65536 := ⟨min h.toInt.toNat 65535, by omega⟩

/-! ## The distance features of an edge -/

/-- `relu ((agt_ctrs (hi e) - ctx_ctrs (wi e)) · dist_w1 + dist_b1)`: the first, 2 → 128, layer. -/
def d1Row (ac cc : Fin 2 → EReal) (dist_w1 : Fin 2 → Fin 128 → EReal) (dist_b1 : Row) : Row :=
  relu (fun c => lin (fun j => ac j - cc j) dist_w1 c + dist_b1 c)

/-! ## The whole layer on the argument arrays -/

/-- The twenty-four argument arrays, at their literal shapes. -/
structure Args where
  agts : (⟨2, ![65536, 128]⟩ : Shape).Idx → EReal
  ctx : (⟨2, ![65536, 128]⟩ : Shape).Idx → EReal
  agt_ctrs : (⟨2, ![65536, 2]⟩ : Shape).Idx → EReal
  ctx_ctrs : (⟨2, ![65536, 2]⟩ : Shape).Idx → EReal
  hi : (⟨1, ![400000]⟩ : Shape).Idx → BitVec 32
  wi : (⟨1, ![400000]⟩ : Shape).Idx → BitVec 32
  dist_w1 : (⟨2, ![2, 128]⟩ : Shape).Idx → EReal
  dist_b1 : (⟨1, ![128]⟩ : Shape).Idx → EReal
  dist_w2 : (⟨2, ![128, 128]⟩ : Shape).Idx → EReal
  dist_gw : (⟨1, ![128]⟩ : Shape).Idx → EReal
  dist_gb : (⟨1, ![128]⟩ : Shape).Idx → EReal
  q_w : (⟨2, ![128, 128]⟩ : Shape).Idx → EReal
  q_gw : (⟨1, ![128]⟩ : Shape).Idx → EReal
  q_gb : (⟨1, ![128]⟩ : Shape).Idx → EReal
  ctx_w1 : (⟨2, ![384, 128]⟩ : Shape).Idx → EReal
  ctx_gw : (⟨1, ![128]⟩ : Shape).Idx → EReal
  ctx_gb : (⟨1, ![128]⟩ : Shape).Idx → EReal
  ctx_w2 : (⟨2, ![128, 128]⟩ : Shape).Idx → EReal
  agt_w : (⟨2, ![128, 128]⟩ : Shape).Idx → EReal
  norm_w : (⟨1, ![128]⟩ : Shape).Idx → EReal
  norm_b : (⟨1, ![128]⟩ : Shape).Idx → EReal
  lin_w : (⟨2, ![128, 128]⟩ : Shape).Idx → EReal
  lin_gw : (⟨1, ![128]⟩ : Shape).Idx → EReal
  lin_gb : (⟨1, ![128]⟩ : Shape).Idx → EReal

/-- Every edge's two endpoints are rows of their tables: `0 ≤ hi e < 65536` and `0 ≤ wi e < 65536`. -/
def Args.InRange (a : Args) : Prop :=
  ∀ e : Fin 400000, (0 ≤ (a.hi (ix1 e)).toInt ∧ (a.hi (ix1 e)).toInt < 65536)
    ∧ (0 ≤ (a.wi (ix1 e)).toInt ∧ (a.wi (ix1 e)).toInt < 65536)

/-- The distance features of edge `e`. -/
def Args.d1 (a : Args) (e : Fin 400000) : Row :=
  d1Row (rowOf a.agt_ctrs (rowIx (a.hi (ix1 e)))) (rowOf a.ctx_ctrs (rowIx (a.wi (ix1 e)))) (matOf a.dist_w1) (vecOf a.dist_b1)

/-- The message of edge `e`. -/
def Args.msg (a : Args) (e : Fin 400000) : Row :=
  edgeMsg (a.d1 e) (rowOf a.agts (rowIx (a.hi (ix1 e)))) (rowOf a.ctx (rowIx (a.wi (ix1 e))))
    (matOf a.dist_w2) (vecOf a.dist_gw) (vecOf a.dist_gb) (matOf a.q_w) (vecOf a.q_gw) (vecOf a.q_gb)
    (matOf a.ctx_w1) (vecOf a.ctx_gw) (vecOf a.ctx_gb) (matOf a.ctx_w2)

/-- The `400000 × 128` array of all messages. -/
def msgArr (a : Args) : (⟨2, ![400000, 128]⟩ : Shape).Idx → EReal :=
  fun i => a.msg ⟨(i 0).val, (i 0).isLt⟩ ⟨(i 1).val, (i 1).isLt⟩

/-- The layer's result from the array `sm` of summed messages (row `n`: the sum of the messages of the edges that
    point at node `n`). -/
def outArr (a : Args) (sm : (⟨2, ![65536, 128]⟩ : Shape).Idx → EReal) : (⟨2, ![65536, 128]⟩ : Shape).Idx → EReal :=
  fun i => nodeOut (rowOf a.agts ⟨(i 0).val, (i 0).isLt⟩) (rowOf sm ⟨(i 0).val, (i 0).isLt⟩) (matOf a.agt_w)
    (vecOf a.norm_w) (vecOf a.norm_b) (matOf a.lin_w) (vecOf a.lin_gw) (vecOf a.lin_gb) ⟨(i 1).val, (i 1).isLt⟩

theorem msgArr_apply (a : Args) (e : Fin 400000) (k : Fin 128) : msgArr a (ix2 e k) = a.msg e k := rfl

theorem outArr_apply (a : Args) (sm : (⟨2, ![65536, 128]⟩ : Shape).Idx → EReal) (n : Fin 65536) (k : Fin 128) :
    outArr a sm (ix2 n k) = nodeOut (rowOf a.agts n) (rowOf sm n) (matOf a.agt_w) (vecOf a.norm_w) (vecOf a.norm_b)
      (matOf a.lin_w) (vecOf a.lin_gw) (vecOf a.lin_gb) k := rfl

end Cert.Spec

end
-- ==== Proof.KArr.lean ====
import proofs.«430932_j23313082483285_1_alg».proof.Proof.Gen.KernelIdeal.Frame
import proofs.«430932_j23313082483285_1_alg».proof.Proof.Spec
import Idealize.ShloMosaic.Lib.ValueIdx
/-!
# The idealized kernel's arrays read as the layer's operands

`args` collects the twenty-four argument arrays of a launch memory.  `msgOf V` is the edge-message array as a
function of the buffer contents `V` the first kernel region is entered with (its thirteen operands read as rows,
matrices and vectors); `nodeOf V` is the node-update array as a function of the contents the second region is
entered with.
-/

noncomputable section

namespace Cert.KernelIdeal.KArr

open Idealize.ShloMosaic Idealize.ShloMosaic.TcCoe Idealize.ShloMosaic.ValueIdx Idealize.SL.Sem
open Cert.KernelIdeal Cert.KernelIdeal.Gen Cert.Spec

/-- The argument arrays of a launch memory, on core `c`. -/
def args (m : (ℓ : Loc nD τ sig) → Buf (Elt Ideal) ℓ) (c : Dev nD) : Spec.Args where
  agts := m ((c.tc : Thread nD τ).loc main_arg0)
  ctx := m ((c.tc : Thread nD τ).loc main_arg1)
  agt_ctrs := m ((c.tc : Thread nD τ).loc main_arg2)
  ctx_ctrs := m ((c.tc : Thread nD τ).loc main_arg3)
  hi := m ((c.tc : Thread nD τ).loc main_arg4)
  wi := m ((c.tc : Thread nD τ).loc main_arg5)
  dist_w1 := m ((c.tc : Thread nD τ).loc main_arg6)
  dist_b1 := m ((c.tc : Thread nD τ).loc main_arg7)
  dist_w2 := m ((c.tc : Thread nD τ).loc main_arg8)
  dist_gw := m ((c.tc : Thread nD τ).loc main_arg9)
  dist_gb := m ((c.tc : Thread nD τ).loc main_arg10)
  q_w := m ((c.tc : Thread nD τ).loc main_arg11)
  q_gw := m ((c.tc : Thread nD τ).loc main_arg12)
  q_gb := m ((c.tc : Thread nD τ).loc main_arg13)
  ctx_w1 := m ((c.tc : Thread nD τ).loc main_arg14)
  ctx_gw := m ((c.tc : Thread nD τ).loc main_arg15)
  ctx_gb := m ((c.tc : Thread nD τ).loc main_arg16)
  ctx_w2 := m ((c.tc : Thread nD τ).loc main_arg17)
  agt_w := m ((c.tc : Thread nD τ).loc main_arg18)
  norm_w := m ((c.tc : Thread nD τ).loc main_arg19)
  norm_b := m ((c.tc : Thread nD τ).loc main_arg20)
  lin_w := m ((c.tc : Thread nD τ).loc main_arg21)
  lin_gw := m ((c.tc : Thread nD τ).loc main_arg22)
  lin_gb := m ((c.tc : Thread nD τ).loc main_arg23)

variable (V : (c : Dev nD) → (b : Ref sig .tc) → Buf (Elt Ideal) ((c : Thread nD τ).loc b))

/-- The edge kernel's result array from its operands as the region finds them: row `e` is the message of the rows
    `e` of the distance features, the gathered agent rows and the gathered context rows. -/
def msgOf (c : Dev nD) : Vec Ideal S400000x128 .f32 := fun i =>
  edgeMsg (rowOf (V c main_v9 : Vec Ideal S400000x128 .f32) ⟨(i 0).val, (i 0).isLt⟩)
    (rowOf (V c main_v0 : Vec Ideal S400000x128 .f32) ⟨(i 0).val, (i 0).isLt⟩)
    (rowOf (V c main_v1 : Vec Ideal S400000x128 .f32) ⟨(i 0).val, (i 0).isLt⟩)
    (matOf (V c main_arg8 : Vec Ideal S128x128 .f32)) (vecOf1 (V c main_v10 : Vec Ideal S1x128 .f32))
    (vecOf1 (V c main_v11 : Vec Ideal S1x128 .f32)) (matOf (V c main_arg11 : Vec Ideal S128x128 .f32))
    (vecOf1 (V c main_v12 : Vec Ideal S1x128 .f32)) (vecOf1 (V c main_v13 : Vec Ideal S1x128 .f32))
    (matOf (V c main_arg14 : Vec Ideal S384x128 .f32)) (vecOf1 (V c main_v14 : Vec Ideal S1x128 .f32))
    (vecOf1 (V c main_v15 : Vec Ideal S1x128 .f32)) (matOf (V c main_arg17 : Vec Ideal S128x128 .f32))
    ⟨(i 1).val, (i 1).isLt⟩

/-- The node kernel's result array from its operands as the region finds them: row `n` from row `n` of the agent
    table and row `n` of the summed messages. -/
def nodeOf (c : Dev nD) : Vec Ideal S65536x128 .f32 := fun i =>
  nodeOut (rowOf (V c main_arg0 : Vec Ideal S65536x128 .f32) ⟨(i 0).val, (i 0).isLt⟩)
    (rowOf (V c main_v19 : Vec Ideal S65536x128 .f32) ⟨(i 0).val, (i 0).isLt⟩)
    (matOf (V c main_arg18 : Vec Ideal S128x128 .f32)) (vecOf1 (V c main_v20 : Vec Ideal S1x128 .f32))
    (vecOf1 (V c main_v21 : Vec Ideal S1x128 .f32)) (matOf (V c main_arg21 : Vec Ideal S128x128 .f32))
    (vecOf1 (V c main_v22 : Vec Ideal S1x128 .f32)) (vecOf1 (V c main_v23 : Vec Ideal S1x128 .f32))
    ⟨(i 1).val, (i 1).isLt⟩

end Cert.KernelIdeal.KArr

end
-- ==== Proof.Seg.lean ====
import proofs.«430932_j23313082483285_1_alg».proof.Proof.Gen.KernelIdeal
import proofs.«430932_j23313082483285_1_alg».proof.Proof.Spec

/-!
# The sum of the messages that reach a node, and the layer's result

The scatter-add of the message array at the index vector `hi` adds message row `e` into row `hi e` of its
operand.  At the extended reals the value at an element is the operand there plus the sum of the update elements
whose result index is that element; `segSum` is that sum alone, and `G` the layer's result over it.
-/

noncomputable section

namespace Cert.KernelIdeal.Seg

open Idealize.ShloMosaic Idealize.ShloMosaic.ValueIdx Cert.KernelIdeal Cert.KernelIdeal.Gen Cert.KernelIdeal.Facts Cert.Spec

/-- The index vector as the scatter takes it: one start index per edge. -/
def idxOf (hi : IVec S400000 32) : IVec S400000x1 32 := broadcastInDim S400000x1 ![0] bcast_S400000_S400000x1_0 hi

/-- Element `i` of the summed messages: the sum of the elements `M j` whose scatter index lands on `i`. -/
def segSum (hi : IVec S400000 32) (M : Vec Ideal S400000x128 .f32) : Vec Ideal S65536x128 .f32 := fun i =>
  ∑ j ∈ Finset.univ.filter (fun j => scatter_S65536x128_S400000x1_S400000x128_1_0_0_1.resultIdx? j (idxOf hi) = some i), M j

/-- The layer's result on the argument arrays. -/
def G (a : Spec.Args) : Vec Ideal S65536x128 .f32 := outArr a (segSum a.hi (msgArr a))

end Cert.KernelIdeal.Seg

end
-- ==== Proof.KBody0.lean ====
import proofs.«430932_j23313082483285_1_alg».proof.Proof.Gen.KernelIdeal.Frame
import proofs.«430932_j23313082483285_1_alg».proof.Proof.Spec
import Idealize.ShloMosaic.Lib.ValueIdx
import Idealize.ShloMosaic.Lib.ValueLayout
import Idealize.ShloMosaic.Lib.Pipeline.Value
import Idealize.ShloMosaic.PureOps.Ideal.Laws
/-!
# What the edge kernel's body leaves at one element of its output block

The body handles a block of 4000 edges at once.  Every operation in it acts on rows independently — a matrix product
contracts a row with a weight matrix, a group norm reduces along the row, the concatenation lays three rows side by
side, the rest is pointwise — so element `(r, k)` of the stored block is channel `k` of the message
`Spec.edgeMsg` of row `r` of the three edge blocks.
-/

noncomputable section

namespace Cert.KernelIdeal.KBody0

open Idealize.ShloMosaic Idealize.ShloMosaic.TcCoe Idealize.ShloMosaic.ValueIdx Idealize.SL.Sem
open Cert.KernelIdeal Cert.KernelIdeal.Gen Cert.Spec

variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A product with a weight matrix into the zero accumulator, at an element

Element `(r, k)` of `x · w` is the contraction of row `r` of `x` with column `k` of `w`: the operand indices of
the contraction along the one contracted axis are `(r, j)` and `(j, k)`. -/

private theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The 128-wide product at `(r, k)`. -/
private theorem matmul128_apply {φ₁ φ₂ : FTy} (x : FVec Ideal S4000x128 φ₁) (w : FVec Ideal S128x128 φ₂) (r : Fin 4000) (k : Fin 128) :
    matmul dot_S4000x128_S128x128_S4000x128_1_0_0_1_n_n none x w (constant (F := Ideal) S4000x128 .f32 0x00000000#32) (ix2 r k)
      = lin (fun j : Fin 128 => x (ix2 r j)) (fun (j : Fin 128) (c : Fin 128) => w (ix2 j c)) k := by
  simp only [matmul]
  rw [Ideal.matmul_constant_zero_apply, ← Equiv.sum_comp (ValueIdx.contrEquiv1 dot_S4000x128_S128x128_S4000x128_1_0_0_1_n_n 128 rfl rfl).symm]
  unfold lin
  refine Finset.sum_congr rfl fun j _ => ?_
  have hj := ValueIdx.contrEquiv1_symm_val dot_S4000x128_S128x128_S4000x128_1_0_0_1_n_n 128 rfl rfl j
  have el : dot_S4000x128_S128x128_S4000x128_1_0_0_1_n_n.lhsIdx (ix2 r k) ((ValueIdx.contrEquiv1 dot_S4000x128_S128x128_S4000x128_1_0_0_1_n_n 128 rfl rfl).symm j) = ix2 r j := funext fun a => Fin.ext (by
    match a with
    | ⟨0, _⟩ => exact lhs128_0 _ _
    | ⟨1, _⟩ => exact (lhs128_1 _ _).trans hj)
  have er : dot_S4000x128_S128x128_S4000x128_1_0_0_1_n_n.rhsIdx (ix2 r k) ((ValueIdx.contrEquiv1 dot_S4000x128_S128x128_S4000x128_1_0_0_1_n_n 128 rfl rfl).symm j) = ix2 j k := funext fun a => Fin.ext (by
    match a with
    | ⟨0, _⟩ => exact (rhs128_0 _ _).trans hj
    | ⟨1, _⟩ => exact rhs128_1 _ _)
  rw [el, er]

private theorem lhs384_0 (i : S4000x128.Idx) (q : dot_S4000x384_S384x128_S4000x128_1_0_0_1_n_n.contr.Idx) :
    (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
private theorem lhs384_1 (i : S4000x128.Idx) (q : dot_S4000x384_S384x128_S4000x128_1_0_0_1_n_n.contr.Idx) :
    (dot_S4000x384_S384x128_S4000x128_1_0_0_1_n_n.lhsIdx i q 1).val = (q ⟨0, by decide⟩).val :=
  dot_S4000x384_S384x128_S4000x128_1_0_0_1_n_n.lhsIdx_val_of_single rfl i q
private theorem rhs384_0 (i : S4000x128.Idx) (q : dot_S4000x384_S384x128_S4000x128_1_0_0_1_n_n.contr.Idx) :
    (dot_S4000x384_S384x128_S4000x128_1_0_0_1_n_n.rhsIdx i q 0).val = (q ⟨0, by decide⟩).val :=
  dot_S4000x384_S384x128_S4000x128_1_0_0_1_n_n.rhsIdx_val_of_single rfl i q
private theorem rhs384_1 (i : S4000x128.Idx) (q : dot_S4000x384_S384x128_S4000x128_1_0_0_1_n_n.contr.Idx) :
    (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The 384-wide product at `(r, k)`. -/
private theorem matmul384_apply {φ₁ φ₂ : FTy} (x : FVec Ideal S4000x384 φ₁) (w : FVec Ideal S384x128 φ₂) (r : Fin 4000) (k : Fin 128) :
    matmul dot_S4000x384_S384x128_S4000x128_1_0_0_1_n_n none x w (constant (F := Ideal) S4000x128 .f32 0x00000000#32) (ix2 r k)
      = lin (fun j : Fin 384 => x (ix2 r j)) (fun (j : Fin 384) (c : Fin 128) => w (ix2 j c)) k := by
  simp only [matmul]
  rw [Ideal.matmul_constant_zero_apply, ← Equiv.sum_comp (ValueIdx.contrEquiv1 dot_S4000x384_S384x128_S4000x128_1_0_0_1_n_n 384 rfl rfl).symm]
  unfold lin
  refine Finset.sum_congr rfl fun j _ => ?_
  have hj := ValueIdx.contrEquiv1_symm_val dot_S4000x384_S384x128_S4000x128_1_0_0_1_n_n 384 rfl rfl j
  have el : dot_S4000x384_S384x128_S4000x128_1_0_0_1_n_n.lhsIdx (ix2 r k) ((ValueIdx.contrEquiv1 dot_S4000x384_S384x128_S4000x128_1_0_0_1_n_n 384 rfl rfl).symm j) = ix2 r j := funext fun a => Fin.ext (by
    match a with
    | ⟨0, _⟩ => exact lhs384_0 _ _
    | ⟨1, _⟩ => exact (lhs384_1 _ _).trans hj)
  have er : dot_S4000x384_S384x128_S4000x128_1_0_0_1_n_n.rhsIdx (ix2 r k) ((ValueIdx.contrEquiv1 dot_S4000x384_S384x128_S4000x128_1_0_0_1_n_n 384 rfl rfl).symm j) = ix2 j k := funext fun a => Fin.ext (by
    match a with
    | ⟨0, _⟩ => exact (rhs384_0 _ _).trans hj
    | ⟨1, _⟩ => exact rhs384_1 _ _)
  rw [el, er]

/-! ## The group norm and relu of a block, at an element

The body normalises every row of a `4000 × 128` block at once: the lane sums are columns `[4000, 1]`, divided by 128
and laid back over the lanes.  Element `(r, k)` therefore sees only row `r` of the block. -/

/-- A reciprocal square root at an index is the element's. -/
private theorem rsqrt_apply {s : Shape} {φ : FTy} (a : FVec Ideal s φ) (i : s.Idx) : rsqrt a i = Ideal.rsqrt (a i) := rfl

/-- The normalisation chain of the body, as a function of the block and the two `1 × 128` parameter rows. -/
private def gnBlock (y : FVec Ideal S4000x128 .f32) (w b : FVec Ideal S1x128 .f32) : FVec Ideal S4000x128 .f32 :=
  have s1 : FVec Ideal S4000 .f32 := multiReduction .add [1] S4000 y 0x00000000#32 reduces_S4000x128_S4000 (.inl rfl) rfl
  have s1c : FVec Ideal S4000x1 .f32 := shapeCast S4000x1 s1 shapeCasts_S4000_S4000x1
  have n1 : FVec Ideal S4000x1 .f32 := broadcast S4000x1 (Scalar.ofBits .f32 0x43000000#32)
  have m : FVec Ideal S4000x1 .f32 := divf s1c n1
  have mb : FVec Ideal S4000x128 .f32 := broadcastTo S4000x128 m broadcasts_S4000x1_S4000x128
  have d : FVec Ideal S4000x128 .f32 := subf y mb
  have dd : FVec Ideal S4000x128 .f32 := mulf d d
  have s2 : FVec Ideal S4000 .f32 := multiReduction .add [1] S4000 dd 0x00000000#32 reduces_S4000x128_S4000 (.inl rfl) rfl
  have s2c : FVec Ideal S4000x1 .f32 := shapeCast S4000x1 s2 shapeCasts_S4000_S4000x1
  have n2 : FVec Ideal S4000x1 .f32 := broadcast S4000x1 (Scalar.ofBits .f32 0x43000000#32)
  have v : FVec Ideal S4000x1 .f32 := divf s2c n2
  have mb' : FVec Ideal S4000x128 .f32 := broadcastTo S4000x128 m broadcasts_S4000x1_S4000x128
  have d' : FVec Ideal S4000x128 .f32 := subf y mb'
  have e : FVec Ideal S4000x1 .f32 := broadcast S4000x1 (Scalar.ofBits .f32 0x3727C5AC#32)
  have ve : FVec Ideal S4000x1 .f32 := addf v e
  have rs : FVec Ideal S4000x1 .f32 := rsqrt ve
  have rsb : FVec Ideal S4000x128 .f32 := broadcastTo S4000x128 rs broadcasts_S4000x1_S4000x128
  have t : FVec Ideal S4000x128 .f32 := mulf d' rsb
  have wb : FVec Ideal S4000x128 .f32 := broadcastTo S4000x128 w broadcasts_S1x128_S4000x128
  have tw : FVec Ideal S4000x128 .f32 := mulf t wb
  have bb : FVec Ideal S4000x128 .f32 := broadcastTo S4000x128 b broadcasts_S1x128_S4000x128
  have twb : FVec Ideal S4000x128 .f32 := addf tw bb
  have z : FVec Ideal S4000x128 .f32 := broadcast S4000x128 (Scalar.ofBits .f32 0x00000000#32)
  maximumf twb z

/-- A lane sum of a block, at row `r`, is the sum of that row. -/
private theorem laneSum_apply (z : FVec Ideal S4000x128 .f32) (h : S4000x128.Reduces [1] S4000) (hφ : FKind.Formats .f32)
    (hacc : (0x00000000#32 : BitVec 32) = 0x00000000#32) (r : Fin 4000) :
    multiReduction (F := Ideal) .add [1] S4000 z 0x00000000#32 h hφ hacc (ix1 r) = ∑ j : Fin 128, z (ix2 r j) := by
  refine (Ideal.multiReduction_add_single z 0x00000000#32 h hφ hacc (ix1 r)).trans ?_
  refine Finset.sum_congr rfl fun j _ => ?_
  exact congrArg z (funext fun a => Fin.ext (by match a with | ⟨0, _⟩ => rfl | ⟨1, _⟩ => rfl))

private theorem gnBlock_apply (y : FVec Ideal S4000x128 .f32) (w b : FVec Ideal S1x128 .f32) (r : Fin 4000) (k : Fin 128) :
    gnBlock y w b (ix2 r k) = relu (gn (fun j : Fin 128 => y (ix2 r j)) (fun c : Fin 128 => w (ix2 0 c)) (fun c : Fin 128 => b (ix2 0 c))) k := by
  unfold gnBlock
  simp only [maximumf_apply, addf_apply, mulf_apply, subf_apply, divf_apply, rsqrt_apply, broadcast_apply,
    broadcastTo_1b_ab_apply, broadcastTo_a1_ab_apply, shapeCast_a_a1_apply, laneSum_apply]
  rw [laneSum_apply, laneSum_apply]
  simp only [mulf_apply, subf_apply, divf_apply, broadcast_apply, broadcastTo_a1_ab_apply, shapeCast_a_a1_apply]
  rw [laneSum_apply]
  rfl

/-! ## Three blocks side by side, at an element -/

/-- Column `j` of row `r` of the concatenation along the lanes is column `j`, `j - 128` or `j - 256` of row `r` of
    the first, second or third block. -/
private theorem concat3_apply (a b c : FVec Ideal S4000x128 .f32)
    (h : Shape.Concatenates [S4000x128, S4000x128, S4000x128] S4000x384 1) (r : Fin 4000) (j : Fin 384) :
    concatenate S4000x384 1 [⟨S4000x128, a⟩, ⟨S4000x128, b⟩, ⟨S4000x128, c⟩] h (ix2 r j)
      = cat3 (fun q : Fin 128 => a (ix2 r q)) (fun q : Fin 128 => b (ix2 r q)) (fun q : Fin 128 => c (ix2 r q)) j := by
  unfold cat3
  split
  · next h1 =>
    exact concatenate_apply_piece (1 : Fin S4000x384.rank)
        ([⟨S4000x128, a⟩, ⟨S4000x128, b⟩, ⟨S4000x128, c⟩] : List ((s : Shape) × (s.Idx → Ideal .f32))) h (ix2 r j) 0 (by show 0 < 3; omega) S4000x128 a rfl rfl 0 rfl
      (ix2 r (⟨j.val, h1⟩ : Fin 128))
      (fun ax hax => by
        match ax with
        | ⟨0, _⟩ => rfl
        | ⟨1, _⟩ => exact absurd rfl hax)
      (by show 0 + j.val = j.val; omega)
  · next h1 =>
    split
    · next h2 =>
      exact concatenate_apply_piece (1 : Fin S4000x384.rank)
        ([⟨S4000x128, a⟩, ⟨S4000x128, b⟩, ⟨S4000x128, c⟩] : List ((s : Shape) × (s.Idx → Ideal .f32))) h (ix2 r j) 1 (by show 1 < 3; omega) S4000x128 b rfl rfl 128 rfl
        (ix2 r (⟨j.val - 128, by omega⟩ : Fin 128))
        (fun ax hax => by
          match ax with
          | ⟨0, _⟩ => rfl
          | ⟨1, _⟩ => exact absurd rfl hax)
        (by show 128 + (j.val - 128) = j.val; omega)
    · next h2 =>
      exact concatenate_apply_piece (1 : Fin S4000x384.rank)
        ([⟨S4000x128, a⟩, ⟨S4000x128, b⟩, ⟨S4000x128, c⟩] : List ((s : Shape) × (s.Idx → Ideal .f32))) h (ix2 r j) 2 (by show 2 < 3; omega) S4000x128 c rfl rfl 256 rfl
        (ix2 r (⟨j.val - 256, by omega⟩ : Fin 128))
        (fun ax hax => by
          match ax with
          | ⟨0, _⟩ => rfl
          | ⟨1, _⟩ => exact absurd rfl hax)
        (by show 256 + (j.val - 256) = j.val; omega)

/-! ## The payloads as compositions of the pieces above

A shape cast to the same shape is the identity and a narrowing of the format is the identity on the extended reals,
so each payload is the product, the normalisation and the concatenation composed. -/

private theorem pay2_eq (x0 : Vec Ideal S4000x128 .f32) (x3 : Vec Ideal S128x128 .f32) (x4 x5 : Vec Ideal S1x128 .f32) :
    k0_pay2 (F := Ideal) x0 x3 x4 x5
      = gnBlock (matmul dot_S4000x128_S128x128_S4000x128_1_0_0_1_n_n none (truncf .bf16 x0 bitsLt_bf16_f32)
          (truncf .bf16 x3 bitsLt_bf16_f32) (constant (F := Ideal) S4000x128 .f32 0x00000000#32)) x4 x5 := by
  unfold k0_pay2
  simp only [shapeCast_self]
  rfl

private theorem pay5_eq (A : FVec Ideal S4000x128 .f32) (x6 : Vec Ideal S128x128 .f32) (x1 : Vec Ideal S4000x128 .f32)
    (x7 x8 : Vec Ideal S1x128 .f32) (x2 : Vec Ideal S4000x128 .f32) (x9 : Vec Ideal S384x128 .f32) :
    k0_pay5 (F := Ideal) A (k0_pay3 x6) (k0_pay4 x1) (constant (F := Ideal) S4000x128 .f32 0x00000000#32) x7 x8 x2 x9
      = matmul dot_S4000x384_S384x128_S4000x128_1_0_0_1_n_n none
          (truncf .bf16 (concatenate S4000x384 1 [⟨S4000x128, A⟩,
            ⟨S4000x128, gnBlock (matmul dot_S4000x128_S128x128_S4000x128_1_0_0_1_n_n none (truncf .bf16 x1 bitsLt_bf16_f32)
              (truncf .bf16 x6 bitsLt_bf16_f32) (constant (F := Ideal) S4000x128 .f32 0x00000000#32)) x7 x8⟩,
            ⟨S4000x128, x2⟩] concatenates_S4000x128_S4000x128_S4000x128_S4000x384_d1) bitsLt_bf16_f32)
          (truncf .bf16 x9 bitsLt_bf16_f32) (constant (F := Ideal) S4000x128 .f32 0x00000000#32) := by
  unfold k0_pay5 k0_pay3 k0_pay4
  rw [shapeCast_self x1, shapeCast_self x2, shapeCast_self x7, shapeCast_self x8]
  rfl

private theorem pay1_eq (B : FVec Ideal S4000x128 .f32) (x10 x11 : Vec Ideal S1x128 .f32) (x12 : Vec Ideal S128x128 .f32) :
    k0_pay1 (F := Ideal) B (k0_pay6 x10) (k0_pay7 x11) x12
      = matmul dot_S4000x128_S128x128_S4000x128_1_0_0_1_n_n none (truncf .bf16 (gnBlock B x10 x11) bitsLt_bf16_f32)
          (truncf .bf16 x12 bitsLt_bf16_f32) (constant (F := Ideal) S4000x128 .f32 0x00000000#32) := by
  unfold k0_pay1 k0_pay6 k0_pay7
  simp only [shapeCast_self]
  rfl

/-- Row `r` of a normalised product is the normalised product of row `r`. -/
private theorem gnLin_row {φ₁ φ₂ : FTy} (x : FVec Ideal S4000x128 φ₁) (wm : FVec Ideal S128x128 φ₂) (w b : FVec Ideal S1x128 .f32)
    (r : Fin 4000) :
    (fun q : Fin 128 => gnBlock (matmul dot_S4000x128_S128x128_S4000x128_1_0_0_1_n_n none x wm
        (constant (F := Ideal) S4000x128 .f32 0x00000000#32)) w b (ix2 r q))
      = relu (gn (lin (rowOf x r) (matOf wm)) (vecOf1 w) (vecOf1 b)) := by
  funext q
  refine (gnBlock_apply _ w b r q).trans ?_
  refine congrFun (congrArg (fun row : Row => relu (gn row (vecOf1 w) (vecOf1 b))) ?_) q
  funext j
  exact matmul128_apply x wm r j

/-! ## The stored block at an element -/

theorem out0_13_apply (x0 x1 x2 : Vec Ideal S4000x128 .f32) (x3 : Vec Ideal S128x128 .f32) (x4 x5 : Vec Ideal S1x128 .f32)
    (x6 : Vec Ideal S128x128 .f32) (x7 x8 : Vec Ideal S1x128 .f32) (x9 : Vec Ideal S384x128 .f32) (x10 x11 : Vec Ideal S1x128 .f32)
    (x12 : Vec Ideal S128x128 .f32) (r : Fin 4000) (k : Fin 128) :
    out0_13 (F := Ideal) x0 x1 x2 x3 x4 x5 x6 x7 x8 x9 x10 x11 x12 (ix2 r k)
      = edgeMsg (rowOf x0 r) (rowOf x1 r) (rowOf x2 r) (matOf x3) (vecOf1 x4) (vecOf1 x5) (matOf x6) (vecOf1 x7) (vecOf1 x8)
          (matOf x9) (vecOf1 x10) (vecOf1 x11) (matOf x12) k := by
  have hz : (![0, 0] : Fin 2 → Nat) = fun _ => 0 := funext fun a => by match a with | ⟨0, _⟩ => rfl | ⟨1, _⟩ => rfl
  -- the one store covers the block and every load reads a whole buffer
  unfold out0_13
  rw [View.canon_unit_zero hz]
  simp only [View.ld_unit_zero (S := S4000x128) hz, View.ld_unit_zero (S := S128x128) hz, View.ld_unit_zero (S := S1x128) hz,
    View.ld_unit_zero (S := S384x128) hz]
  -- the last product: row `r` of its left operand against the last weight matrix
  refine (congrFun (pay1_eq _ x10 x11 x12) (ix2 r k)).trans ?_
  refine (matmul128_apply _ _ r k).trans ?_
  unfold edgeMsg
  refine congrFun (congrArg (fun row : Row => lin row (matOf x12)) ?_) k
  -- row `r` of the third normalisation
  funext j
  refine (gnBlock_apply _ x10 x11 r j).trans ?_
  refine congrFun (congrArg (fun row : Row => relu (gn row (vecOf1 x10) (vecOf1 x11))) ?_) j
  -- row `r` of the 384-wide product
  funext c
  refine (congrFun (pay5_eq _ x6 x1 x7 x8 x2 x9) (ix2 r c)).trans ?_
  refine (matmul384_apply _ _ r c).trans ?_
  refine congrFun (congrArg (fun row : Fin 384 → EReal => lin row (matOf x9)) ?_) c
  -- row `r` of the three blocks side by side
  funext q
  rw [truncf_apply]
  refine (concat3_apply _ _ _ concatenates_S4000x128_S4000x128_S4000x128_S4000x384_d1 r q).trans ?_
  rw [pay2_eq]
  have ea := gnLin_row (truncf .bf16 x0 bitsLt_bf16_f32) (truncf .bf16 x3 bitsLt_bf16_f32) x4 x5 r
  have eb := gnLin_row (truncf .bf16 x1 bitsLt_bf16_f32) (truncf .bf16 x6 bitsLt_bf16_f32) x7 x8 r
  exact congrFun (congrArg₂ (fun a b : Row => cat3 a b (rowOf x2 r)) ea eb) q

end Cert.KernelIdeal.KBody0

end
-- ==== Proof.KReg0.lean ====
import proofs.«430932_j23313082483285_1_alg».proof.Proof.Gen.KernelIdeal.Frame
import proofs.«430932_j23313082483285_1_alg».proof.Proof.Spec
import proofs.«430932_j23313082483285_1_alg».proof.Proof.KArr
import proofs.«430932_j23313082483285_1_alg».proof.Proof.KBody0
import Idealize.ShloMosaic.Lib.Pipeline.Value
/-!
# The edge kernel's result array

The grid has 100 points; point `t` reads rows `4000 t … 4000 t + 3999` of the three edge arrays and the whole of
the ten weight arrays, and writes back rows `4000 t … 4000 t + 3999` of the result.  The blocks tile the result, so
after the run it is `KArr.msgOf` of the arrays the region was entered with.
-/

noncomputable section

namespace Cert.KernelIdeal.KReg0

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- The message of a row is a function of its operands: equal operands and channel, equal message. -/
private theorem edgeMsg_congr {d1 d1' ag ag' cx cx' : Row} {w2 w2' : Fin 128 → Fin 128 → EReal} {gw gw' gb gb' : Row}
    {qw qw' : Fin 128 → Fin 128 → EReal} {qgw qgw' qgb qgb' : Row} {c1 c1' : Fin 384 → Fin 128 → EReal}
    {cgw cgw' cgb cgb' : Row} {c2 c2' : Fin 128 → Fin 128 → EReal} {k k' : Fin 128}
    (h0 : d1 = d1') (h1 : ag = ag') (h2 : cx = cx') (h3 : w2 = w2') (h4 : gw = gw') (h5 : gb = gb') (h6 : qw = qw')
    (h7 : qgw = qgw') (h8 : qgb = qgb') (h9 : c1 = c1') (h10 : cgw = cgw') (h11 : cgb = cgb') (h12 : c2 = c2')
    (hk : k = k') :
    edgeMsg d1 ag cx w2 gw gb qw qgw qgb c1 cgw cgb c2 k = edgeMsg d1' ag' cx' w2' gw' gb' qw' qgw' qgb' c1' cgw' cgb' c2' k' := by
  subst h0 h1 h2 h3 h4 h5 h6 h7 h8 h9 h10 h11 h12 hk; rfl

/-- The block indices of the row windows at grid point `t`: block `t` of the rows, the one block of the channels. -/
private theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The weight windows stay on their one block at every grid point. -/
private theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Row `r` of window 0's block at point `t` is row `4000 t + r` of its array. -/
private theorem blk0 (c : Dev nD) (t : Fin cfg0.N) (r : Fin 4000) (k : Fin 128) (R : Fin 400000)
    (hR : R.val = t.val * 4000 + r.val) :
    (iblk0 (F := Ideal) V c 0 t : Vec Ideal S4000x128 .f32) (ix2 r k) = (V c main_v9 : Vec Ideal S400000x128 .f32) (ix2 R k) := by
  obtain ⟨e0, e1, -⟩ := idx_rows t
  unfold iblk0
  rw [View.read_apply]
  show (V c main_v9 : Vec Ideal S400000x128 .f32) (((cfg0.win 0).blk t).view.emb (ix2 r k)) = _
  refine congrArg _ (funext fun a => Fin.ext ?_)
  match a with
  | ⟨0, _⟩ => show win0_0.index t (0 : Fin 2) * 4000 + 1 * r.val = R.val; omega
  | ⟨1, _⟩ => show win0_0.index t (1 : Fin 2) * 128 + 1 * k.val = k.val; omega

/-- Row `r` of window 1's block at point `t` is row `4000 t + r` of its array. -/
private theorem blk1 (c : Dev nD) (t : Fin cfg0.N) (r : Fin 4000) (k : Fin 128) (R : Fin 400000)
    (hR : R.val = t.val * 4000 + r.val) :
    (iblk0 (F := Ideal) V c 1 t : Vec Ideal S4000x128 .f32) (ix2 r k) = (V c main_v0 : Vec Ideal S400000x128 .f32) (ix2 R k) := by
  obtain ⟨-, -, e0, e1, -⟩ := idx_rows t
  unfold iblk0
  rw [View.read_apply]
  show (V c main_v0 : Vec Ideal S400000x128 .f32) (((cfg0.win 1).blk t).view.emb (ix2 r k)) = _
  refine congrArg _ (funext fun a => Fin.ext ?_)
  match a with
  | ⟨0, _⟩ => show win0_1.index t (0 : Fin 2) * 4000 + 1 * r.val = R.val; omega
  | ⟨1, _⟩ => show win0_1.index t (1 : Fin 2) * 128 + 1 * k.val = k.val; omega

/-- Row `r` of window 2's block at point `t` is row `4000 t + r` of its array. -/
private theorem blk2 (c : Dev nD) (t : Fin cfg0.N) (r : Fin 4000) (k : Fin 128) (R : Fin 400000)
    (hR : R.val = t.val * 4000 + r.val) :
    (iblk0 (F := Ideal) V c 2 t : Vec Ideal S4000x128 .f32) (ix2 r k) = (V c main_v1 : Vec Ideal S400000x128 .f32) (ix2 R k) := by
  obtain ⟨-, -, -, -, e0, e1, -⟩ := idx_rows t
  unfold iblk0
  rw [View.read_apply]
  show (V c main_v1 : Vec Ideal S400000x128 .f32) (((cfg0.win 2).blk t).view.emb (ix2 r k)) = _
  refine congrArg _ (funext fun a => Fin.ext ?_)
  match a with
  | ⟨0, _⟩ => show win0_2.index t (0 : Fin 2) * 4000 + 1 * r.val = R.val; omega
  | ⟨1, _⟩ => show win0_2.index t (1 : Fin 2) * 128 + 1 * k.val = k.val; omega

/-- Window 3's block at any point is its whole array. -/
private theorem blk3 (c : Dev nD) (t : Fin cfg0.N) :
    (iblk0 (F := Ideal) V c 3 t : Vec Ideal S128x128 .f32) = (V c main_arg8 : Vec Ideal S128x128 .f32) := by
  obtain ⟨e0, e1, -⟩ := idx_whole t
  funext j
  unfold iblk0
  rw [View.read_apply]
  show (V c main_arg8 : Vec Ideal S128x128 .f32) (((cfg0.win 3).blk t).view.emb j) = _
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Window 4's block at any point is its whole array. -/
private theorem blk4 (c : Dev nD) (t : Fin cfg0.N) :
    (iblk0 (F := Ideal) V c 4 t : Vec Ideal S1x128 .f32) = (V c main_v10 : Vec Ideal S1x128 .f32) := by
  obtain ⟨-, -, e0, e1, -⟩ := idx_whole t
  funext j
  unfold iblk0
  rw [View.read_apply]
  show (V c main_v10 : Vec Ideal S1x128 .f32) (((cfg0.win 4).blk t).view.emb j) = _
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Window 5's block at any point is its whole array. -/
private theorem blk5 (c : Dev nD) (t : Fin cfg0.N) :
    (iblk0 (F := Ideal) V c 5 t : Vec Ideal S1x128 .f32) = (V c main_v11 : Vec Ideal S1x128 .f32) := by
  obtain ⟨-, -, -, -, e0, e1, -⟩ := idx_whole t
  funext j
  unfold iblk0
  rw [View.read_apply]
  show (V c main_v11 : Vec Ideal S1x128 .f32) (((cfg0.win 5).blk t).view.emb j) = _
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- Window 6's block at any point is its whole array. -/
private theorem blk6 (c : Dev nD) (t : Fin cfg0.N) :
    (iblk0 (F := Ideal) V c 6 t : Vec Ideal S128x128 .f32) = (V c main_arg11 : Vec Ideal S128x128 .f32) := by
  obtain ⟨-, -, -, -, -, -, e0, e1, -⟩ := idx_whole t
  funext j
  unfold iblk0
  rw [View.read_apply]
  show (V c main_arg11 : Vec Ideal S128x128 .f32) (((cfg0.win 6).blk t).view.emb j) = _
  refine congrArg _ (funext fun a => Fin.ext ?_)
  match a with
  | ⟨0, _⟩ => show win0_6.index t (0 : Fin 2) * 128 + 1 * (j 0).val = (j 0).val; omega
  | ⟨1, _⟩ => show win0_6.index t (1 : Fin 2) * 128 + 1 * (j 1).val = (j 1).val; omega

/-- Window 7's block at any point is its whole array. -/
private theorem blk7 (c : Dev nD) (t : Fin cfg0.N) :
    (iblk0 (F := Ideal) V c 7 t : Vec Ideal S1x128 .f32) = (V c main_v12 : Vec Ideal S1x128 .f32) := by
  obtain ⟨-, -, -, -, -, -, -, -, e0, e1, -⟩ := idx_whole t
  funext j
  unfold iblk0
  rw [View.read_apply]
  show (V c main_v12 : Vec Ideal S1x128 .f32) (((cfg0.win 7).blk t).view.emb j) = _
  refine congrArg _ (funext fun a => Fin.ext ?_)
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Window 8's block at any point is its whole array. -/
private theorem blk8 (c : Dev nD) (t : Fin cfg0.N) :
    (iblk0 (F := Ideal) V c 8 t : Vec Ideal S1x128 .f32) = (V c main_v13 : Vec Ideal S1x128 .f32) := by
  obtain ⟨-, -, -, -, -, -, -, -, -, -, e0, e1, -⟩ := idx_whole t
  funext j
  unfold iblk0
  rw [View.read_apply]
  show (V c main_v13 : Vec Ideal S1x128 .f32) (((cfg0.win 8).blk t).view.emb j) = _
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- Window 9's block at any point is its whole array. -/
private theorem blk9 (c : Dev nD) (t : Fin cfg0.N) :
    (iblk0 (F := Ideal) V c 9 t : Vec Ideal S384x128 .f32) = (V c main_arg14 : Vec Ideal S384x128 .f32) := by
  obtain ⟨-, -, -, -, -, -, -, -, -, -, -, -, e0, e1, -⟩ := idx_whole t
  funext j
  unfold iblk0
  rw [View.read_apply]
  show (V c main_arg14 : Vec Ideal S384x128 .f32) (((cfg0.win 9).blk t).view.emb j) = _
  refine congrArg _ (funext fun a => Fin.ext ?_)
  match a with
  | ⟨0, _⟩ => show win0_9.index t (0 : Fin 2) * 384 + 1 * (j 0).val = (j 0).val; omega
  | ⟨1, _⟩ => show win0_9.index t (1 : Fin 2) * 128 + 1 * (j 1).val = (j 1).val; omega

/-- Window 10's block at any point is its whole array. -/
private theorem blk10 (c : Dev nD) (t : Fin cfg0.N) :
    (iblk0 (F := Ideal) V c 10 t : Vec Ideal S1x128 .f32) = (V c main_v14 : Vec Ideal S1x128 .f32) := by
  obtain ⟨-, -, -, -, -, -, -, -, -, -, -, -, -, -, e0, e1, -⟩ := idx_whole t
  funext j
  unfold iblk0
  rw [View.read_apply]
  show (V c main_v14 : Vec Ideal S1x128 .f32) (((cfg0.win 10).blk t).view.emb j) = _
  refine congrArg _ (funext fun a => Fin.ext ?_)
  match a with
  | ⟨0, _⟩ => show win0_10.index t (0 : Fin 2) * 1 + 1 * (j 0).val = (j 0).val; omega
  | ⟨1, _⟩ => show win0_10.index t (1 : Fin 2) * 128 + 1 * (j 1).val = (j 1).val; omega

/-- Window 11's block at any point is its whole array. -/
private theorem blk11 (c : Dev nD) (t : Fin cfg0.N) :
    (iblk0 (F := Ideal) V c 11 t : Vec Ideal S1x128 .f32) = (V c main_v15 : Vec Ideal S1x128 .f32) := by
  obtain ⟨-, -, -, -, -, -, -, -, -, -, -, -, -, -, -, -, e0, e1, -⟩ := idx_whole t
  funext j
  unfold iblk0
  rw [View.read_apply]
  show (V c main_v15 : Vec Ideal S1x128 .f32) (((cfg0.win 11).blk t).view.emb j) = _
  refine congrArg _ (funext fun a => Fin.ext ?_)
  match a with
  | ⟨0, _⟩ => show win0_11.index t (0 : Fin 2) * 1 + 1 * (j 0).val = (j 0).val; omega
  | ⟨1, _⟩ => show win0_11.index t (1 : Fin 2) * 128 + 1 * (j 1).val = (j 1).val; omega

/-- Window 12's block at any point is its whole array. -/
private theorem blk12 (c : Dev nD) (t : Fin cfg0.N) :
    (iblk0 (F := Ideal) V c 12 t : Vec Ideal S128x128 .f32) = (V c main_arg17 : Vec Ideal S128x128 .f32) := by
  obtain ⟨-, -, -, -, -, -, -, -, -, -, -, -, -, -, -, -, -, -, e0, e1⟩ := idx_whole t
  funext j
  unfold iblk0
  rw [View.read_apply]
  show (V c main_arg17 : Vec Ideal S128x128 .f32) (((cfg0.win 12).blk t).view.emb j) = _
  refine congrArg _ (funext fun a => Fin.ext ?_)
  match a with
  | ⟨0, _⟩ => show win0_12.index t (0 : Fin 2) * 128 + 1 * (j 0).val = (j 0).val; omega
  | ⟨1, _⟩ => show win0_12.index t (1 : Fin 2) * 128 + 1 * (j 1).val = (j 1).val; omega

/-- What point `t` writes back is block `t` of the message array of the operands as the region finds them. -/
private theorem flushed_eq (c : Dev nD) (t : Fin cfg0.N) :
    (dat0 (F := Ideal) V c).flushed 13 t = ((cfg0.win 13).blk t).view.read (Elt Ideal) (KArr.msgOf V c) := by
  show (cfg0.win 13).cut (grid0.coords t) ((dat0 (F := Ideal) V c).after 13 t) = _
  rw [after0_13]
  funext y
  obtain ⟨r, k, rfl⟩ : ∃ (r : Fin 4000) (k : Fin 128), y = ix2 r k := ⟨y 0, y 1, eq_ix2 y⟩
  refine (KBody0.out0_13_apply (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t) (iblk0 (F := Ideal) V c 11 t) (iblk0 (F := Ideal) V c 12 t) r k).trans ?_
  show _ = KArr.msgOf V c (((cfg0.win 13).blk t).view.emb (ix2 r k))
  obtain ⟨-, -, -, -, -, -, e0, e1⟩ := idx_rows t
  have hR : ((((cfg0.win 13).blk t).view.emb (ix2 r k)) 0).val = t.val * 4000 + r.val := by
    show win0_13.index t (0 : Fin 2) * 4000 + 1 * r.val = _; omega
  have hK : ((((cfg0.win 13).blk t).view.emb (ix2 r k)) 1).val = k.val := by
    show win0_13.index t (1 : Fin 2) * 128 + 1 * k.val = _; omega
  unfold KArr.msgOf
  refine edgeMsg_congr (funext fun q => blk0 V c t r q _ hR) (funext fun q => blk1 V c t r q _ hR)
    (funext fun q => blk2 V c t r q _ hR) ?_ ?_ ?_ ?_ ?_ ?_ ?_ ?_ ?_ ?_ (Fin.ext hK.symm)
  · rw [blk3 V c t]
  · rw [blk4 V c t]
  · rw [blk5 V c t]
  · rw [blk6 V c t]
  · rw [blk7 V c t]
  · rw [blk8 V c t]
  · rw [blk9 V c t]
  · rw [blk10 V c t]
  · rw [blk11 V c t]
  · rw [blk12 V c t]

/-- An index of the result array is in point `t`'s block iff each coordinate is in the block's range on its axis. -/
private theorem mem_blk (t : Fin cfg0.N) (i : S400000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v16).slice (win0_13.rect t)).set ↔ _
  rw [View.set_slice_whole, Rect.mem_set_unit]
  exact Iff.rfl

/-- Every index of the result array is in the block of the point its row falls in: row `e` in block `e / 4000`. -/
private theorem cover (i : S400000x128.Idx) :
    ∃ t : Fin cfg0.N, (cfg0.win 13).flush t = true ∧ i ∈ ((cfg0.win 13).blk t).view.set := by
  have hi0 : (i 0).val < 400000 := (i 0).isLt
  have hi1 : (i 1).val < 128 := (i 1).isLt
  have hN : cfg0.N = 100 := N_0
  have ht : (i 0).val / 4000 < cfg0.N := by rw [hN]; omega
  refine ⟨⟨(i 0).val / 4000, ht⟩, flush0_13 _, ?_⟩
  rw [mem_blk]
  obtain ⟨-, -, -, -, -, -, e0, e1⟩ := idx_rows ⟨(i 0).val / 4000, ht⟩
  intro a
  match a with
  | ⟨0, _⟩ =>
    show win0_13.index ⟨(i 0).val / 4000, ht⟩ (0 : Fin 2) * 4000 ≤ (i 0).val ∧ (i 0).val < win0_13.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_13.index ⟨(i 0).val / 4000, ht⟩ (1 : Fin 2) * 128 ≤ (i 1).val ∧ (i 1).val < win0_13.index ⟨(i 0).val / 4000, ht⟩ (1 : Fin 2) * 128 + 128
    rw [e1]; omega

theorem arr13 (c : Dev nD) :
    ((dat0 (F := Ideal) V c).arrAt 13 cfg0.N : Vec Ideal S400000x128 .f32) = KArr.msgOf V c :=
  (dat0 (F := Ideal) V c).arrAt_eq_of_cover 13 (KArr.msgOf V c) (fun t _ => flushed_eq V c t) cover

end Cert.KernelIdeal.KReg0

end
-- ==== Proof.KBody1.lean ====
import proofs.«430932_j23313082483285_1_alg».proof.Proof.Gen.KernelIdeal.Frame
import proofs.«430932_j23313082483285_1_alg».proof.Proof.Spec
import Idealize.ShloMosaic.Lib.ValueIdx
import Idealize.ShloMosaic.Lib.ValueLayout
import Idealize.ShloMosaic.Lib.Pipeline.Value
import Idealize.ShloMosaic.PureOps.Ideal.Laws
/-!
# What the node kernel's body leaves at one element of its output block

The body handles a block of 4096 nodes at once, row by row: element `(r, k)` of the stored block is channel `k`
of `Spec.nodeOut` of row `r` of the agent block and row `r` of the summed-message block.
-/

noncomputable section

namespace Cert.KernelIdeal.KBody1

open Idealize.ShloMosaic Idealize.ShloMosaic.TcCoe Idealize.ShloMosaic.ValueIdx Idealize.SL.Sem
open Cert.KernelIdeal Cert.KernelIdeal.Gen Cert.Spec

private theorem hz : (![0, 0] : Fin 2 → Nat) = fun _ => 0 := funext fun a => by fin_cases a <;> rfl

/-- A lane sum of a 4096 × 128 block at row r is the sum over the row. -/
private theorem laneSum_apply (y : FVec Ideal S4096x128 .f32) (r : Fin 4096) :
    multiReduction (F := Ideal) .add [1] S4096 y 0x00000000#32 reduces_S4096x128_S4096 (.inl rfl) rfl (ix1 r)
      = ∑ c : Fin 128, y (ix2 r c) := by
  refine (Ideal.multiReduction_add_single y 0x00000000#32 reduces_S4096x128_S4096 (.inl rfl) rfl (ix1 r)).trans ?_
  refine Finset.sum_congr rfl fun c _ => ?_
  exact congrArg y (funext fun a => Fin.ext (by match a with | ⟨0, _⟩ => rfl | ⟨1, _⟩ => rfl))

/-- A length-4096 vector cast to a column reads its entry r at (r, u). -/
private theorem colCast_apply {α : Type} (v : S4096.Idx → α) (r : Fin 4096) (u : Fin 1) :
    shapeCast S4096x1 v shapeCasts_S4096_S4096x1 (ix2 r u) = v (ix1 r) :=
  shapeCast_apply v shapeCasts_S4096_S4096x1 _ _ (by
    have hu : u.val = 0 := by omega
    rw [Shape.rowMajor_val_two, Shape.rowMajor_val_one]
    show r.val = r.val * 1 + u.val
    rw [hu, Nat.mul_one, Nat.add_zero])

/-- A column broadcast along the lanes reads the column's entry of the row. -/
private theorem colBcast_apply {α : Type} (v : S4096x1.Idx → α) (r : Fin 4096) (k : Fin 128) :
    broadcastTo S4096x128 v broadcasts_S4096x1_S4096x128 (ix2 r k) = v (ix2 r (0 : Fin 1)) := by
  refine broadcastTo_apply v broadcasts_S4096x1_S4096x128 (ix2 r k) (ix2 r (0 : Fin 1)) fun ax => ?_
  match ax with
  | ⟨0, _⟩ => rfl
  | ⟨1, _⟩ => rfl

/-- A row broadcast down the rows reads the row's entry of the lane. -/
private theorem rowBcast_apply {α : Type} (v : S1x128.Idx → α) (r : Fin 4096) (k : Fin 128) :
    broadcastTo S4096x128 v broadcasts_S1x128_S4096x128 (ix2 r k) = v (ix2 (0 : Fin 1) k) :=
  broadcastTo_1b_ab_apply v broadcasts_S1x128_S4096x128 r k

private theorem mm_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem mm_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem mm_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem mm_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The block product into the zero accumulator at (r, k): row r of the left factor against column k of the right. -/
private theorem mm_apply {φ₁ φ₂ : FTy} (a : FVec Ideal S4096x128 φ₁) (w : FVec Ideal S128x128 φ₂) (r : Fin 4096) (k : Fin 128) :
    matmul (F := Ideal) dot_S4096x128_S128x128_S4096x128_1_0_0_1_n_n none a w (constant (F := Ideal) S4096x128 .f32 0x00000000#32) (ix2 r k)
      = ∑ c : Fin 128, a (ix2 r c) * w (ix2 c k) := by
  refine (Ideal.matmul_constant_zero_apply dot_S4096x128_S128x128_S4096x128_1_0_0_1_n_n none a w (ix2 r k)).trans ?_
  rw [← Equiv.sum_comp (ValueIdx.contrEquiv1 dot_S4096x128_S128x128_S4096x128_1_0_0_1_n_n 128 rfl rfl).symm]
  refine Finset.sum_congr rfl fun c _ => ?_
  have hk := ValueIdx.contrEquiv1_symm_val dot_S4096x128_S128x128_S4096x128_1_0_0_1_n_n 128 rfl rfl c
  have el : dot_S4096x128_S128x128_S4096x128_1_0_0_1_n_n.lhsIdx (ix2 r k) ((ValueIdx.contrEquiv1 dot_S4096x128_S128x128_S4096x128_1_0_0_1_n_n 128 rfl rfl).symm c) = ix2 r c := funext fun ax => Fin.ext (by
    match ax with
    | ⟨0, _⟩ => exact mm_lhs_0 _ _
    | ⟨1, _⟩ => exact (mm_lhs_1 _ _).trans hk)
  have er : dot_S4096x128_S128x128_S4096x128_1_0_0_1_n_n.rhsIdx (ix2 r k) ((ValueIdx.contrEquiv1 dot_S4096x128_S128x128_S4096x128_1_0_0_1_n_n 128 rfl rfl).symm c) = ix2 c k := funext fun ax => Fin.ext (by
    match ax with
    | ⟨0, _⟩ => exact (mm_rhs_0 _ _).trans hk
    | ⟨1, _⟩ => exact mm_rhs_1 _ _)
  rw [el, er]

/-- The column of row means of a block: lane sum, as a column, over 128. -/
private def meanCol (y : FVec Ideal S4096x128 .f32) : FVec Ideal S4096x1 .f32 :=
  divf (shapeCast S4096x1 (multiReduction (F := Ideal) .add [1] S4096 y 0x00000000#32 reduces_S4096x128_S4096 (.inl rfl) rfl) shapeCasts_S4096_S4096x1)
    (broadcast S4096x1 (Scalar.ofBits (F := Ideal) .f32 0x43000000#32))

/-- The block with each row's mean taken off. -/
private def centred (y : FVec Ideal S4096x128 .f32) : FVec Ideal S4096x128 .f32 :=
  subf y (broadcastTo S4096x128 (meanCol y) broadcasts_S4096x1_S4096x128)

/-- The column of row variances of a block. -/
private def varCol (y : FVec Ideal S4096x128 .f32) : FVec Ideal S4096x1 .f32 :=
  divf (shapeCast S4096x1 (multiReduction (F := Ideal) .add [1] S4096 (mulf (centred y) (centred y)) 0x00000000#32 reduces_S4096x128_S4096 (.inl rfl) rfl) shapeCasts_S4096_S4096x1)
    (broadcast S4096x1 (Scalar.ofBits (F := Ideal) .f32 0x43000000#32))

/-- The block group norm: centre, scale by the reciprocal root of variance plus ε, then the affine rows. -/
private def gnBlk (y : FVec Ideal S4096x128 .f32) (w b : FVec Ideal S1x128 .f32) : FVec Ideal S4096x128 .f32 :=
  addf (mulf (mulf (centred y)
      (broadcastTo S4096x128 (rsqrt (addf (varCol y) (broadcast S4096x1 (Scalar.ofBits (F := Ideal) .f32 0x3727C5AC#32)))) broadcasts_S4096x1_S4096x128))
      (broadcastTo S4096x128 w broadcasts_S1x128_S4096x128))
    (broadcastTo S4096x128 b broadcasts_S1x128_S4096x128)

private theorem meanCol_apply (y : FVec Ideal S4096x128 .f32) (r : Fin 4096) (u : Fin 1) :
    meanCol y (ix2 r u) = mean (rowOf y r) := by
  unfold meanCol
  rw [divf_apply, colCast_apply, laneSum_apply]
  rfl

private theorem centred_apply (y : FVec Ideal S4096x128 .f32) (r : Fin 4096) (k : Fin 128) :
    centred y (ix2 r k) = y (ix2 r k) - mean (rowOf y r) := by
  unfold centred
  rw [subf_apply, colBcast_apply, meanCol_apply]

private theorem varCol_apply (y : FVec Ideal S4096x128 .f32) (r : Fin 4096) (u : Fin 1) :
    varCol y (ix2 r u) = var (rowOf y r) := by
  unfold varCol
  rw [divf_apply, colCast_apply, laneSum_apply]
  unfold var
  refine congrArg (fun s => Ideal.div s _) (Finset.sum_congr rfl fun c _ => ?_)
  rw [mulf_apply, centred_apply]

private theorem gnBlk_apply (y : FVec Ideal S4096x128 .f32) (w b : FVec Ideal S1x128 .f32) (r : Fin 4096) (k : Fin 128) :
    gnBlk y w b (ix2 r k) = gn (rowOf y r) (vecOf1 w) (vecOf1 b) k := by
  unfold gnBlk
  rw [addf_apply, mulf_apply, mulf_apply, centred_apply, colBcast_apply, rowBcast_apply, rowBcast_apply]
  show (y (ix2 r k) - mean (rowOf y r)) * Ideal.rsqrt (varCol y (ix2 r (0 : Fin 1)) + Ideal.ofBits .f32 0x3727C5AC#32) * w (ix2 (0 : Fin 1) k) + b (ix2 (0 : Fin 1) k) = _
  rw [varCol_apply]
  rfl

/-- The relu of the block group norm at (r, k). -/
private theorem relu_gnBlk_apply (y : FVec Ideal S4096x128 .f32) (w b : FVec Ideal S1x128 .f32) (r : Fin 4096) (k : Fin 128) :
    maximumf (gnBlk y w b) (broadcast S4096x128 (Scalar.ofBits (F := Ideal) .f32 0x00000000#32)) (ix2 r k)
      = relu (gn (rowOf y r) (vecOf1 w) (vecOf1 b)) k := by
  rw [maximumf_apply, gnBlk_apply]
  rfl

/-- Row r of a block product into the zero accumulator is the row times the matrix. -/
private theorem mm_row {φ₁ φ₂ : FTy} (a : FVec Ideal S4096x128 φ₁) (w : FVec Ideal S128x128 φ₂) (r : Fin 4096) :
    rowOf (matmul (F := Ideal) dot_S4096x128_S128x128_S4096x128_1_0_0_1_n_n none a w (constant (F := Ideal) S4096x128 .f32 0x00000000#32)) r
      = lin (fun c => a (ix2 r c)) (fun c k => w (ix2 c k)) :=
  funext fun k => mm_apply a w r k

/-- The first stage at (r, k): relu of the group norm of the row times the agent weights plus the summed messages. -/
private theorem pay3_apply (v0 : Vec Ideal S4096x128 .f32) (v1 : Vec Ideal S128x128 .f32) (v5 : Vec Ideal S4096x128 .f32)
    (v8 v10 : Vec Ideal S1x128 .f32) (r : Fin 4096) (k : Fin 128) :
    k1_pay3 (F := Ideal) v0 v1 v5 v8 v10 (ix2 r k)
      = relu (gn (fun c' => lin (rowOf v0 r) (matOf v1) c' + rowOf v5 r c') (vecOf1 v8) (vecOf1 v10)) k := by
  have hrow : rowOf (addf (matmul (F := Ideal) dot_S4096x128_S128x128_S4096x128_1_0_0_1_n_n none
        (truncf .bf16 v0 bitsLt_bf16_f32 : FVec Ideal S4096x128 .bf16) (truncf .bf16 v1 bitsLt_bf16_f32 : FVec Ideal S128x128 .bf16)
        (constant (F := Ideal) S4096x128 .f32 0x00000000#32)) v5) r
      = fun c' => lin (rowOf v0 r) (matOf v1) c' + rowOf v5 r c' := funext fun c' => by
    show matmul (F := Ideal) dot_S4096x128_S128x128_S4096x128_1_0_0_1_n_n none _ _ _ (ix2 r c') + v5 (ix2 r c') = _
    rw [mm_apply]
    rfl
  refine Eq.trans ?_ (congrArg (fun row => relu (gn row (vecOf1 v8) (vecOf1 v10)) k) hrow)
  refine Eq.trans ?_ (relu_gnBlk_apply _ v8 v10 r k)
  unfold k1_pay3
  rw [shapeCast_self, shapeCast_self, shapeCast_self]
  rfl

/-- The second stage at (r, k): relu of the group norm of the first stage's row times the weights, plus the agent row. -/
private theorem pay1_apply (v0 : Vec Ideal S4096x128 .f32) (v37 : FVec Ideal S128x128 .bf16) (v38 : FVec Ideal S4096x128 .bf16)
    (v40 v42 : Vec Ideal S1x128 .f32) (r : Fin 4096) (k : Fin 128) :
    k1_pay1 (F := Ideal) v0 v37 v38 (constant (F := Ideal) S4096x128 .f32 0x00000000#32) v40 v42 (ix2 r k)
      = relu (fun c => gn (lin (fun j => v38 (ix2 r j)) (fun j c' => v37 (ix2 j c'))) (vecOf1 v40) (vecOf1 v42) c + rowOf v0 r c) k := by
  refine Eq.trans ?_ (congrArg (fun row => relu (fun c => gn row (vecOf1 v40) (vecOf1 v42) c + rowOf v0 r c) k) (mm_row v38 v37 r))
  refine Eq.trans ?_ (congrArg (fun g => max (g + v0 (ix2 r k)) zerov)
    (gnBlk_apply (matmul (F := Ideal) dot_S4096x128_S128x128_S4096x128_1_0_0_1_n_n none v38 v37 (constant (F := Ideal) S4096x128 .f32 0x00000000#32)) v40 v42 r k))
  unfold k1_pay1
  rw [shapeCast_self, shapeCast_self]
  rfl

theorem out1_8_apply (x0 x1 : Vec Ideal S4096x128 .f32) (x2 : Vec Ideal S128x128 .f32) (x3 x4 : Vec Ideal S1x128 .f32)
    (x5 : Vec Ideal S128x128 .f32) (x6 x7 : Vec Ideal S1x128 .f32) (r : Fin 4096) (k : Fin 128) :
    out1_8 (F := Ideal) x0 x1 x2 x3 x4 x5 x6 x7 (ix2 r k)
      = nodeOut (rowOf x0 r) (rowOf x1 r) (matOf x2) (vecOf1 x3) (vecOf1 x4) (matOf x5) (vecOf1 x6) (vecOf1 x7) k := by
  unfold out1_8
  rw [View.canon_unit_zero hz]
  simp only [View.ld_unit_zero (S := S4096x128) hz, View.ld_unit_zero (S := S128x128) hz, View.ld_unit_zero (S := S1x128) hz]
  rw [pay1_apply]
  have hrow : (fun j => k1_pay3 (F := Ideal) x0 x2 x1 x3 x4 (ix2 r j))
      = relu (gn (fun c' => lin (rowOf x0 r) (matOf x2) c' + rowOf x1 r c') (vecOf1 x3) (vecOf1 x4)) :=
    funext fun j => pay3_apply x0 x2 x1 x3 x4 r j
  rw [hrow]
  rfl

end Cert.KernelIdeal.KBody1

end
-- ==== Proof.KReg1.lean ====
import proofs.«430932_j23313082483285_1_alg».proof.Proof.Gen.KernelIdeal.Frame
import proofs.«430932_j23313082483285_1_alg».proof.Proof.Spec
import proofs.«430932_j23313082483285_1_alg».proof.Proof.KArr
import proofs.«430932_j23313082483285_1_alg».proof.Proof.KBody1
import Idealize.ShloMosaic.Lib.Pipeline.Value
/-!
# The node kernel's result array

The grid has 16 points; point `t` reads rows `4096 t … 4096 t + 4095` of the agent table and of the summed
messages and the whole of the six weight arrays, and writes back the same rows of the result.  The blocks tile the
result, so after the run it is `KArr.nodeOf` of the arrays the region was entered with.
-/

noncomputable section

namespace Cert.KernelIdeal.KReg1

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- The updated row of a node is a function of its operands: equal operands and channel, equal result. -/
private theorem nodeOut_congr {ag ag' sm sm' : Row} {aw aw' : Fin 128 → Fin 128 → EReal} {nw nw' nb nb' : Row}
    {lw lw' : Fin 128 → Fin 128 → EReal} {lgw lgw' lgb lgb' : Row} {k k' : Fin 128}
    (h0 : ag = ag') (h1 : sm = sm') (h2 : aw = aw') (h3 : nw = nw') (h4 : nb = nb') (h5 : lw = lw')
    (h6 : lgw = lgw') (h7 : lgb = lgb') (hk : k = k') :
    nodeOut ag sm aw nw nb lw lgw lgb k = nodeOut ag' sm' aw' nw' nb' lw' lgw' lgb' k' := by
  subst h0 h1 h2 h3 h4 h5 h6 h7 hk; rfl

/-- The block indices of the row windows at grid point `t`: block `t` of the rows, the one block of the channels. -/
private theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- The weight windows stay on their one block at every grid point. -/
private theorem idx_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `r` of window 0's block at point `t` is row `4096 t + r` of its array. -/
private theorem blk0 (c : Dev nD) (t : Fin cfg1.N) (r : Fin 4096) (k : Fin 128) (R : Fin 65536)
    (hR : R.val = t.val * 4096 + r.val) :
    (iblk1 (F := Ideal) V c 0 t : Vec Ideal S4096x128 .f32) (ix2 r k) = (V c main_arg0 : Vec Ideal S65536x128 .f32) (ix2 R k) := by
  obtain ⟨e0, e1, -⟩ := idx_rows t
  unfold iblk1
  rw [View.read_apply]
  show (V c main_arg0 : Vec Ideal S65536x128 .f32) (((cfg1.win 0).blk t).view.emb (ix2 r k)) = _
  refine congrArg _ (funext fun a => Fin.ext ?_)
  match a with
  | ⟨0, _⟩ => show win1_0.index t (0 : Fin 2) * 4096 + 1 * r.val = R.val; omega
  | ⟨1, _⟩ => show win1_0.index t (1 : Fin 2) * 128 + 1 * k.val = k.val; omega

/-- Row `r` of window 1's block at point `t` is row `4096 t + r` of its array. -/
private theorem blk1 (c : Dev nD) (t : Fin cfg1.N) (r : Fin 4096) (k : Fin 128) (R : Fin 65536)
    (hR : R.val = t.val * 4096 + r.val) :
    (iblk1 (F := Ideal) V c 1 t : Vec Ideal S4096x128 .f32) (ix2 r k) = (V c main_v19 : Vec Ideal S65536x128 .f32) (ix2 R k) := by
  obtain ⟨-, -, e0, e1, -⟩ := idx_rows t
  unfold iblk1
  rw [View.read_apply]
  show (V c main_v19 : Vec Ideal S65536x128 .f32) (((cfg1.win 1).blk t).view.emb (ix2 r k)) = _
  refine congrArg _ (funext fun a => Fin.ext ?_)
  match a with
  | ⟨0, _⟩ => show win1_1.index t (0 : Fin 2) * 4096 + 1 * r.val = R.val; omega
  | ⟨1, _⟩ => show win1_1.index t (1 : Fin 2) * 128 + 1 * k.val = k.val; omega

/-- Window 2's block at any point is its whole array. -/
private theorem blk2 (c : Dev nD) (t : Fin cfg1.N) :
    (iblk1 (F := Ideal) V c 2 t : Vec Ideal S128x128 .f32) = (V c main_arg18 : Vec Ideal S128x128 .f32) := by
  obtain ⟨e0, e1, -⟩ := idx_whole t
  funext j
  unfold iblk1
  rw [View.read_apply]
  show (V c main_arg18 : Vec Ideal S128x128 .f32) (((cfg1.win 2).blk t).view.emb j) = _
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- Window 3's block at any point is its whole array. -/
private theorem blk3 (c : Dev nD) (t : Fin cfg1.N) :
    (iblk1 (F := Ideal) V c 3 t : Vec Ideal S1x128 .f32) = (V c main_v20 : Vec Ideal S1x128 .f32) := by
  obtain ⟨-, -, e0, e1, -⟩ := idx_whole t
  funext j
  unfold iblk1
  rw [View.read_apply]
  show (V c main_v20 : Vec Ideal S1x128 .f32) (((cfg1.win 3).blk t).view.emb j) = _
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4's block at any point is its whole array. -/
private theorem blk4 (c : Dev nD) (t : Fin cfg1.N) :
    (iblk1 (F := Ideal) V c 4 t : Vec Ideal S1x128 .f32) = (V c main_v21 : Vec Ideal S1x128 .f32) := by
  obtain ⟨-, -, -, -, e0, e1, -⟩ := idx_whole t
  funext j
  unfold iblk1
  rw [View.read_apply]
  show (V c main_v21 : Vec Ideal S1x128 .f32) (((cfg1.win 4).blk t).view.emb j) = _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- Window 5's block at any point is its whole array. -/
private theorem blk5 (c : Dev nD) (t : Fin cfg1.N) :
    (iblk1 (F := Ideal) V c 5 t : Vec Ideal S128x128 .f32) = (V c main_arg21 : Vec Ideal S128x128 .f32) := by
  obtain ⟨-, -, -, -, -, -, e0, e1, -⟩ := idx_whole t
  funext j
  unfold iblk1
  rw [View.read_apply]
  show (V c main_arg21 : Vec Ideal S128x128 .f32) (((cfg1.win 5).blk t).view.emb j) = _
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- Window 6's block at any point is its whole array. -/
private theorem blk6 (c : Dev nD) (t : Fin cfg1.N) :
    (iblk1 (F := Ideal) V c 6 t : Vec Ideal S1x128 .f32) = (V c main_v22 : Vec Ideal S1x128 .f32) := by
  obtain ⟨-, -, -, -, -, -, -, -, e0, e1, -⟩ := idx_whole t
  funext j
  unfold iblk1
  rw [View.read_apply]
  show (V c main_v22 : Vec Ideal S1x128 .f32) (((cfg1.win 6).blk t).view.emb j) = _
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Window 7's block at any point is its whole array. -/
private theorem blk7 (c : Dev nD) (t : Fin cfg1.N) :
    (iblk1 (F := Ideal) V c 7 t : Vec Ideal S1x128 .f32) = (V c main_v23 : Vec Ideal S1x128 .f32) := by
  obtain ⟨-, -, -, -, -, -, -, -, -, -, e0, e1⟩ := idx_whole t
  funext j
  unfold iblk1
  rw [View.read_apply]
  show (V c main_v23 : Vec Ideal S1x128 .f32) (((cfg1.win 7).blk t).view.emb j) = _
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 128 + 1 * (j 1).val = (j 1).val; omega

/-- What point `t` writes back is block `t` of the node-update array of the operands as the region finds them. -/
private theorem flushed_eq (c : Dev nD) (t : Fin cfg1.N) :
    (dat1 (F := Ideal) V c).flushed 8 t = ((cfg1.win 8).blk t).view.read (Elt Ideal) (KArr.nodeOf V c) := by
  show (cfg1.win 8).cut (grid1.coords t) ((dat1 (F := Ideal) V c).after 8 t) = _
  rw [after1_8]
  funext y
  obtain ⟨r, k, rfl⟩ : ∃ (r : Fin 4096) (k : Fin 128), y = ix2 r k := ⟨y 0, y 1, eq_ix2 y⟩
  refine (KBody1.out1_8_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) r k).trans ?_
  show _ = KArr.nodeOf V c (((cfg1.win 8).blk t).view.emb (ix2 r k))
  obtain ⟨-, -, -, -, e0, e1⟩ := idx_rows t
  have hR : ((((cfg1.win 8).blk t).view.emb (ix2 r k)) 0).val = t.val * 4096 + r.val := by
    show win1_8.index t (0 : Fin 2) * 4096 + 1 * r.val = _; omega
  have hK : ((((cfg1.win 8).blk t).view.emb (ix2 r k)) 1).val = k.val := by
    show win1_8.index t (1 : Fin 2) * 128 + 1 * k.val = _; omega
  unfold KArr.nodeOf
  refine nodeOut_congr (funext fun q => blk0 V c t r q _ hR) (funext fun q => blk1 V c t r q _ hR)
    ?_ ?_ ?_ ?_ ?_ ?_ (Fin.ext hK.symm)
  · rw [blk2 V c t]
  · rw [blk3 V c t]
  · rw [blk4 V c t]
  · rw [blk5 V c t]
  · rw [blk6 V c t]
  · rw [blk7 V c t]

/-- An index of the result array is in point `t`'s block iff each coordinate is in the block's range on its axis. -/
private theorem mem_blk (t : Fin cfg1.N) (i : S65536x128.Idx) :
    i ∈ ((cfg1.win 8).blk t).view.set ↔ ∀ a : Fin 2, win1_8.index t a * S4096x128.size a ≤ (i a).val ∧ (i a).val < win1_8.index t a * S4096x128.size a + S4096x128.size a := by
  show i ∈ ((View.whole main_v24).slice (win1_8.rect t)).set ↔ _
  rw [View.set_slice_whole, Rect.mem_set_unit]
  exact Iff.rfl

/-- Every index of the result array is in the block of the point its row falls in: row `n` in block `n / 4096`. -/
private theorem cover (i : S65536x128.Idx) :
    ∃ t : Fin cfg1.N, (cfg1.win 8).flush t = true ∧ i ∈ ((cfg1.win 8).blk t).view.set := by
  have hi0 : (i 0).val < 65536 := (i 0).isLt
  have hi1 : (i 1).val < 128 := (i 1).isLt
  have hN : cfg1.N = 16 := N_1
  have ht : (i 0).val / 4096 < cfg1.N := by rw [hN]; omega
  refine ⟨⟨(i 0).val / 4096, ht⟩, flush1_8 _, ?_⟩
  rw [mem_blk]
  obtain ⟨-, -, -, -, e0, e1⟩ := idx_rows ⟨(i 0).val / 4096, ht⟩
  intro a
  match a with
  | ⟨0, _⟩ =>
    show win1_8.index ⟨(i 0).val / 4096, ht⟩ (0 : Fin 2) * 4096 ≤ (i 0).val ∧ (i 0).val < win1_8.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_8.index ⟨(i 0).val / 4096, ht⟩ (1 : Fin 2) * 128 ≤ (i 1).val ∧ (i 1).val < win1_8.index ⟨(i 0).val / 4096, ht⟩ (1 : Fin 2) * 128 + 128
    rw [e1]; omega

theorem arr8 (c : Dev nD) :
    ((dat1 (F := Ideal) V c).arrAt 8 cfg1.N : Vec Ideal S65536x128 .f32) = KArr.nodeOf V c :=
  (dat1 (F := Ideal) V c).arrAt_eq_of_cover 8 (KArr.nodeOf V c) (fun t _ => flushed_eq V c t) cover

end Cert.KernelIdeal.KReg1

end
-- ==== Proof.KHost0.lean ====
import proofs.«430932_j23313082483285_1_alg».proof.Proof.Gen.KernelIdeal.Frame
import proofs.«430932_j23313082483285_1_alg».proof.Proof.Spec
import proofs.«430932_j23313082483285_1_alg».proof.Proof.KArr
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.Affine
/-!
# The host operations before the edge kernel

Before the first region @main gathers rows `hi e` of the agent table and of its centres and rows `wi e` of the
context table and of its centres (each gather wraps a negative index once, and fills a row whose index is still out
of range after that), forms the distance features `relu ((agt_ctrs (hi e) - ctx_ctrs (wi e)) · dist_w1 + dist_b1)`
and reshapes six weight vectors to `1 × 128`.  When every index is a row of its table no index is wrapped and no row
is filled, so the arrays the region is entered with are the rows the specification names, and the region's result is
`Spec.msgArr` of the arguments.
-/

noncomputable section

namespace Cert.KernelIdeal.KHost0

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## Words: the range tests of a take on an index that is a row of the table -/

private theorem toInt_zero32 : (0#32 : BitVec 32).toInt = 0 := by decide
private theorem toInt_max32 : (65535#32 : BitVec 32).toInt = 65535 := by decide

/-- A word that reads nonnegative is not below zero. -/
private theorem slt_zero_of_nonneg (w : BitVec 32) (h : 0 ≤ w.toInt) : IntOp.cmpi .slt w 0#32 = 0#1 :=
  eq_zero_of_ne_one fun h1 => by
    have := IntOp.cmpi_slt.mp h1
    rw [toInt_zero32] at this
    omega

/-- A fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The take as one function of the index vector and the table -/

/-- The column of start indices: each index, wrapped once by the table's height when it reads negative. -/
def takeCol (h : IVec S400000 32) : IVec S400000x1 32 :=
  broadcastInDim S400000x1 ![0] bcast_S400000_S400000x1_0
    (select (cmpi .slt h (broadcastInDim S400000 ![] bcast_S_S400000 (constantI S_ 32 0#32)))
      (addi h (broadcastInDim S400000 ![] bcast_S_S400000 (constantI S_ 32 65536#32))) h)

/-- The mask "the wrapped index is a row of the table", one bit per edge. -/
def takeOk (h : IVec S400000 32) : IVec S400000 1 :=
  Host.reduce IntOp.andi
    (andi (cmpi .sge (takeCol h) (broadcastInDim S400000x1 ![] bcast_S_S400000x1 (constantI S_ 32 0#32)))
      (cmpi .sle (takeCol h) (broadcastInDim S400000x1 ![0, 1] bcast_S1x1_S400000x1_0_1
        (broadcastInDim S1x1 ![1] bcast_S1_S1x1_1 (constantI S1 32 65535#32)))))
    (constantI S_ 1 1#1) reducesTo_S400000x1_S400000_d1 h_S_

/-- The take of rows of a 128-wide table: the gathered row where the mask holds, the fill word elsewhere. -/
def take128 (x : Vec Ideal S65536x128 .f32) (h : IVec S400000 32) : Vec Ideal S400000x128 .f32 :=
  select (broadcastInDim S400000x128 ![0] bcast_S400000_S400000x128_0 (takeOk h))
    (Host.gather gather_S65536x128_S400000x1_S400000x128_1_0_n_n_0_1_1128 x (takeCol h))
    (broadcastInDim S400000x128 ![] bcast_S_S400000x128 (constant (F := Ideal) S_ .f32 0x7FC00000#32))

/-- The take of rows of a 2-wide table. -/
def take2 (x : Vec Ideal S65536x2 .f32) (h : IVec S400000 32) : Vec Ideal S400000x2 .f32 :=
  select (broadcastInDim S400000x2 ![0] bcast_S400000_S400000x2_0 (takeOk h))
    (Host.gather gather_S65536x2_S400000x1_S400000x2_1_0_n_n_0_1_12 x (takeCol h))
    (broadcastInDim S400000x2 ![] bcast_S_S400000x2 (constant (F := Ideal) S_ .f32 0x7FC00000#32))

/-- Every index word reads as a row of the table. -/
def AllRows (h : IVec S400000 32) : Prop := ∀ e : Fin 400000, 0 ≤ (h (ix1 e)).toInt ∧ (h (ix1 e)).toInt < 65536

/-- The start index of edge `e`: the index itself when it does not read negative. -/
theorem takeCol_apply (h : IVec S400000 32) (e : Fin 400000) (q : Fin 1) (hn : 0 ≤ (h (ix1 e)).toInt) :
    takeCol h (ix2 e q) = h (ix1 e) := by
  unfold takeCol
  rw [broadcastInDim_apply _ bcast_S400000_S400000x1_0 _ (ix2 e q) (ix1 e) (fun a => match a with
    | ⟨0, _⟩ => by show e.val = if (400000 : Nat) = 1 then 0 else e.val; rw [if_neg (by decide)])]
  show Scalar.select (IntOp.cmpi .slt (h (ix1 e)) 0#32) _ (h (ix1 e)) = _
  rw [slt_zero_of_nonneg _ hn, select_zero]

/-- With every index a row of the table, the mask holds at every edge. -/
theorem takeOk_apply (h : IVec S400000 32) (hh : AllRows h) (e : Fin 400000) : takeOk h (ix1 e) = 1#1 := by
  unfold takeOk
  rw [Host.reduce_eq_foldl]
  refine foldl_andi_one _ _ fun i _ => ?_
  obtain ⟨p, q, rfl⟩ : ∃ (p : Fin 400000) (q : Fin 1), i = ix2 p q := ⟨i 0, i 1, eq_ix2 i⟩
  show IntOp.andi (IntOp.cmpi .sge (takeCol h (ix2 p q)) 0#32) (IntOp.cmpi .sle (takeCol h (ix2 p q)) 65535#32) = 1#1
  rw [takeCol_apply h p q (hh p).1, IntOp.andi_eq_one, IntOp.cmpi_sge, IntOp.cmpi_sle, toInt_zero32, toInt_max32]
  have := hh p
  omega

/-! ## A gather of whole rows, read at an index -/

/-- `table[idx]` over a rank-2 table prints as a gather whose start indices are the [n × 1] column of row numbers, whose
    row axis is collapsed and start-indexed, whose one offset axis is the columns, and whose index vector lies on axis 1.
    Result position `(e, k)` reads the table at the row position `e`'s start index names, read signed and clamped into
    the table, and at column `k`. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (k : Fin C) (hN : 0 < N) :
    Host.gather d x idx (ix2 e k) = x (ix2 ⟨min (idx (ix2 e 0)).toInt.toNat (N - 1), by omega⟩ k) := by
  obtain ⟨od, cd, ob, sb, sm, iv, ss, wf⟩ := d
  dsimp only at hoff hcoll hob hsim hivd
  subst hoff hcoll hob hsim hivd
  unfold Host.gather
  congr 1
  funext a
  refine Fin.ext ?_
  match a with
  | ⟨0, _⟩ =>
    have hsl : ss 0 = 1 := wf.2.2.2.2.2.2.2.2.2.2.2.1 0 (List.mem_singleton.mpr rfl)
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = min (idx (ix2 e 0)).toInt.toNat (N - 1)
    rw [hsl]
    congr 3
    congr 1
    funext b
    refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨(show (1 : Fin 2) ∉ ([0] : List (Fin 2)) by decide), List.not_mem_nil⟩)]
    simp only [Nat.zero_add]
    rfl

/-! ## The take read at an index, every index a row of the table -/

theorem take128_apply (x : Vec Ideal S65536x128 .f32) (h : IVec S400000 32) (hh : AllRows h) (e : Fin 400000) (k : Fin 128) :
    take128 x h (ix2 e k) = x (ix2 (rowIx (h (ix1 e))) k) := by
  unfold take128
  rw [select_apply, broadcastInDim_apply _ bcast_S400000_S400000x128_0 _ (ix2 e k) (ix1 e) (fun a => match a with
    | ⟨0, _⟩ => by show e.val = if (400000 : Nat) = 1 then 0 else e.val; rw [if_neg (by decide)]),
    takeOk_apply h hh e, select_one,
    gather_rows gather_S65536x128_S400000x1_S400000x128_1_0_n_n_0_1_1128 rfl rfl rfl rfl rfl x (takeCol h) e k (by decide)]
  refine congrArg x (congrArg (fun r : Fin 65536 => ix2 r k) (Fin.ext ?_))
  show min (takeCol h (ix2 e 0)).toInt.toNat (65536 - 1) = min (h (ix1 e)).toInt.toNat 65535
  rw [takeCol_apply h e 0 (hh e).1]

theorem take2_apply (x : Vec Ideal S65536x2 .f32) (h : IVec S400000 32) (hh : AllRows h) (e : Fin 400000) (k : Fin 2) :
    take2 x h (ix2 e k) = x (ix2 (rowIx (h (ix1 e))) k) := by
  unfold take2
  rw [select_apply, broadcastInDim_apply _ bcast_S400000_S400000x2_0 _ (ix2 e k) (ix1 e) (fun a => match a with
    | ⟨0, _⟩ => by show e.val = if (400000 : Nat) = 1 then 0 else e.val; rw [if_neg (by decide)]),
    takeOk_apply h hh e, select_one,
    gather_rows gather_S65536x2_S400000x1_S400000x2_1_0_n_n_0_1_12 rfl rfl rfl rfl rfl x (takeCol h) e k (by decide)]
  refine congrArg x (congrArg (fun r : Fin 65536 => ix2 r k) (Fin.ext ?_))
  show min (takeCol h (ix2 e 0)).toInt.toNat (65536 - 1) = min (h (ix1 e)).toInt.toNat 65535
  rw [takeCol_apply h e 0 (hh e).1]

/-! ## The distance features: a 2-wide contraction, a bias row, a relu -/

private theorem dot2_lhs_0 (i : S400000x128.Idx) (q : dot_S400000x2_S2x128_S400000x128_1_0_0_1_n_n.contr.Idx) :
    (dot_S400000x2_S2x128_S400000x128_1_0_0_1_n_n.lhsIdx i q 0).val = (i 0).val := by
  unfold DotDims.lhsIdx
  rw [dif_neg (show ¬(0 : Fin S400000x2.rank) ∈ dot_S400000x2_S2x128_S400000x128_1_0_0_1_n_n.lhsBatch by decide),
    dif_pos (show (0 : Fin S400000x2.rank) ∈ dot_S400000x2_S2x128_S400000x128_1_0_0_1_n_n.lhsNonContracting by decide)]
  rfl
private theorem dot2_lhs_1 (i : S400000x128.Idx) (q : dot_S400000x2_S2x128_S400000x128_1_0_0_1_n_n.contr.Idx) :
    (dot_S400000x2_S2x128_S400000x128_1_0_0_1_n_n.lhsIdx i q 1).val = (q ⟨0, by decide⟩).val :=
  dot_S400000x2_S2x128_S400000x128_1_0_0_1_n_n.lhsIdx_val_of_single rfl i q
private theorem dot2_rhs_0 (i : S400000x128.Idx) (q : dot_S400000x2_S2x128_S400000x128_1_0_0_1_n_n.contr.Idx) :
    (dot_S400000x2_S2x128_S400000x128_1_0_0_1_n_n.rhsIdx i q 0).val = (q ⟨0, by decide⟩).val :=
  dot_S400000x2_S2x128_S400000x128_1_0_0_1_n_n.rhsIdx_val_of_single rfl i q
private theorem dot2_rhs_1 (i : S400000x128.Idx) (q : dot_S400000x2_S2x128_S400000x128_1_0_0_1_n_n.contr.Idx) :
    (dot_S400000x2_S2x128_S400000x128_1_0_0_1_n_n.rhsIdx i q 1).val = (i 1).val := by
  unfold DotDims.rhsIdx
  rw [dif_neg (show ¬(1 : Fin S2x128.rank) ∈ dot_S400000x2_S2x128_S400000x128_1_0_0_1_n_n.rhsBatch by decide),
    dif_pos (show (1 : Fin S2x128.rank) ∈ dot_S400000x2_S2x128_S400000x128_1_0_0_1_n_n.rhsNonContracting by decide)]
  rfl

/-- The product of the [400000 × 2] differences with the [2 × 128] weights at `(e, k)` is the two-term sum. -/
theorem dot2_apply (y : Vec Ideal S400000x2 .f32) (w : Vec Ideal S2x128 .f32) (e : Fin 400000) (k : Fin 128) :
    Host.dotGeneral (F := Ideal) (φ₁ := .f32) (φ₂ := .f32) dot_S400000x2_S2x128_S400000x128_1_0_0_1_n_n none y w (ix2 e k)
      = ∑ j : Fin 2, y (ix2 e j) * w (ix2 j k) := by
  simp only [Host.dotGeneral]
  rw [Ideal.dotGeneral_apply, ← Equiv.sum_comp (contrEquiv1 dot_S400000x2_S2x128_S400000x128_1_0_0_1_n_n 2 rfl rfl).symm]
  refine Finset.sum_congr rfl fun j _ => ?_
  have hk := contrEquiv1_symm_val dot_S400000x2_S2x128_S400000x128_1_0_0_1_n_n 2 rfl rfl j
  have el : dot_S400000x2_S2x128_S400000x128_1_0_0_1_n_n.lhsIdx (ix2 e k)
      ((contrEquiv1 dot_S400000x2_S2x128_S400000x128_1_0_0_1_n_n 2 rfl rfl).symm j) = ix2 e j := funext fun a => Fin.ext (by
    match a with
    | ⟨0, _⟩ => exact dot2_lhs_0 _ _
    | ⟨1, _⟩ => exact (dot2_lhs_1 _ _).trans hk)
  have er : dot_S400000x2_S2x128_S400000x128_1_0_0_1_n_n.rhsIdx (ix2 e k)
      ((contrEquiv1 dot_S400000x2_S2x128_S400000x128_1_0_0_1_n_n 2 rfl rfl).symm j) = ix2 j k := funext fun a => Fin.ext (by
    match a with
    | ⟨0, _⟩ => exact (dot2_rhs_0 _ _).trans hk
    | ⟨1, _⟩ => exact dot2_rhs_1 _ _)
  rw [el, er]

/-- A bias row laid under every edge reads, at `(e, k)`, the bias at `k`. -/
theorem biasRows_apply (b : Vec Ideal S128 .f32) (e : Fin 400000) (k : Fin 128) :
    broadcastInDim S400000x128 ![0, 1] bcast_S1x128_S400000x128_0_1 (broadcastInDim S1x128 ![1] bcast_S128_S1x128_1 b) (ix2 e k)
      = b (ix1 k) := by
  rw [broadcastInDim_apply _ bcast_S1x128_S400000x128_0_1 _ (ix2 e k) (ix2 (0 : Fin 1) k) (fun a => match a with
    | ⟨0, _⟩ => by show 0 = if (1 : Nat) = 1 then 0 else e.val; rw [if_pos rfl]
    | ⟨1, _⟩ => by show k.val = if (128 : Nat) = 1 then 0 else k.val; rw [if_neg (by decide)]),
    broadcastInDim_apply _ bcast_S128_S1x128_1 _ (ix2 (0 : Fin 1) k) (ix1 k) (fun a => match a with
    | ⟨0, _⟩ => by show k.val = if (128 : Nat) = 1 then 0 else k.val; rw [if_neg (by decide)])]

/-- The distance features before the relu: the differences of the two gathered centre arrays times the weights, plus the
    bias row. -/
def preArr (a b : Vec Ideal S400000x2 .f32) (w : Vec Ideal S2x128 .f32) (bias : Vec Ideal S128 .f32) :
    Vec Ideal S400000x128 .f32 :=
  addf (φ := .f32) (Host.dotGeneral (F := Ideal) (φ₁ := .f32) (φ₂ := .f32) dot_S400000x2_S2x128_S400000x128_1_0_0_1_n_n none (subf (φ := .f32) a b) w)
    (broadcastInDim S400000x128 ![0, 1] bcast_S1x128_S400000x128_0_1 (broadcastInDim S1x128 ![1] bcast_S128_S1x128_1 bias))

/-- The relu of an edge array: the maximum with the zero word. -/
def reluArr (x : Vec Ideal S400000x128 .f32) : Vec Ideal S400000x128 .f32 :=
  maximumf (φ := .f32) x (broadcastInDim S400000x128 ![] bcast_S_S400000x128 (constant (F := Ideal) S_ .f32 0x00000000#32))

theorem reluArr_preArr_apply (a b : Vec Ideal S400000x2 .f32) (w : Vec Ideal S2x128 .f32) (bias : Vec Ideal S128 .f32)
    (e : Fin 400000) (k : Fin 128) :
    reluArr (preArr a b w bias) (ix2 e k)
      = max ((∑ j : Fin 2, (a (ix2 e j) - b (ix2 e j)) * w (ix2 j k)) + bias (ix1 k)) zerov := by
  unfold reluArr preArr
  rw [maximumf_apply, addf_apply, dot2_apply, biasRows_apply]
  rfl

/-! ## What each stretch of host operations writes, and that it leaves every other buffer as it was -/

/-- The buffers stretch 0 writes. -/
abbrev writes0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem writes0_sub : (hostOps0 : List (HloOp τ sig (Elt Ideal))).Forall fun op =>
    op.writes ⊆ (writes0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 0 leaves a buffer it does not write as it was. -/
theorem pass0 (V : Valuation τ sig (Elt Ideal)) (r : Ref sig .tc) (h : r ∉ writes0) :
    StableHlo.after hostOps0 V (Proc.devRef .tc r) = V (Proc.devRef .tc r) :=
  StableHlo.after_of_writes_sub hostOps0 V writes0_sub h

/-- The buffers stretch 1 writes. -/
abbrev writes1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem writes1_sub : (hostOps0_1 : List (HloOp τ sig (Elt Ideal))).Forall fun op =>
    op.writes ⊆ (writes1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 1 leaves a buffer it does not write as it was. -/
theorem pass1 (V : Valuation τ sig (Elt Ideal)) (r : Ref sig .tc) (h : r ∉ writes1) :
    StableHlo.after hostOps0_1 V (Proc.devRef .tc r) = V (Proc.devRef .tc r) :=
  StableHlo.after_of_writes_sub hostOps0_1 V writes1_sub h

/-- The buffers stretch 2 writes. -/
abbrev writes2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]
theorem writes2_sub : (hostOps0_2 : List (HloOp τ sig (Elt Ideal))).Forall fun op =>
    op.writes ⊆ (writes2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 2 leaves a buffer it does not write as it was. -/
theorem pass2 (V : Valuation τ sig (Elt Ideal)) (r : Ref sig .tc) (h : r ∉ writes2) :
    StableHlo.after hostOps0_2 V (Proc.devRef .tc r) = V (Proc.devRef .tc r) :=
  StableHlo.after_of_writes_sub hostOps0_2 V writes2_sub h

/-- The buffers stretch 3 writes. -/
abbrev writes3 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v3]
theorem writes3_sub : (hostOps0_3 : List (HloOp τ sig (Elt Ideal))).Forall fun op =>
    op.writes ⊆ (writes3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 3 leaves a buffer it does not write as it was. -/
theorem pass3 (V : Valuation τ sig (Elt Ideal)) (r : Ref sig .tc) (h : r ∉ writes3) :
    StableHlo.after hostOps0_3 V (Proc.devRef .tc r) = V (Proc.devRef .tc r) :=
  StableHlo.after_of_writes_sub hostOps0_3 V writes3_sub h

/-- The buffers stretch 4 writes. -/
abbrev writes4 : List (Ref sig .tc) := [main_v4, main_v5, main_v6, main_v7, main_v8]
theorem writes4_sub : (hostOps0_4 : List (HloOp τ sig (Elt Ideal))).Forall fun op =>
    op.writes ⊆ (writes4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 4 leaves a buffer it does not write as it was. -/
theorem pass4 (V : Valuation τ sig (Elt Ideal)) (r : Ref sig .tc) (h : r ∉ writes4) :
    StableHlo.after hostOps0_4 V (Proc.devRef .tc r) = V (Proc.devRef .tc r) :=
  StableHlo.after_of_writes_sub hostOps0_4 V writes4_sub h

/-- The buffers stretch 5 writes. -/
abbrev writes5 : List (Ref sig .tc) := [main_call4_cst, main_call4_v0, main_v9]
theorem writes5_sub : (hostOps0_5 : List (HloOp τ sig (Elt Ideal))).Forall fun op =>
    op.writes ⊆ (writes5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 5 leaves a buffer it does not write as it was. -/
theorem pass5 (V : Valuation τ sig (Elt Ideal)) (r : Ref sig .tc) (h : r ∉ writes5) :
    StableHlo.after hostOps0_5 V (Proc.devRef .tc r) = V (Proc.devRef .tc r) :=
  StableHlo.after_of_writes_sub hostOps0_5 V writes5_sub h

/-- The buffers stretch 6 writes. -/
abbrev writes6 : List (Ref sig .tc) := [main_v10, main_v11, main_v12, main_v13, main_v14, main_v15]
theorem writes6_sub : (hostOps0_6 : List (HloOp τ sig (Elt Ideal))).Forall fun op =>
    op.writes ⊆ (writes6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 6 leaves a buffer it does not write as it was. -/
theorem pass6 (V : Valuation τ sig (Elt Ideal)) (r : Ref sig .tc) (h : r ∉ writes6) :
    StableHlo.after hostOps0_6 V (Proc.devRef .tc r) = V (Proc.devRef .tc r) :=
  StableHlo.after_of_writes_sub hostOps0_6 V writes6_sub h

/-! ## Typed references: contents written through one and read back through it are unchanged -/

theorem ofBuf_toBuf {T : BufTy} (x : StableHlo.TRef sig T) (v : T.Contents (Elt Ideal)) : x.ofBuf (x.toBuf v) = v := by
  obtain ⟨r, he, _, _⟩ := x
  subst he
  rfl

/-! ## What each stretch leaves in the buffer it is run for, from what it finds in the buffers it reads -/

section Stretches
variable (V : Valuation τ sig (Elt Ideal))

theorem after0_v0 {x : Vec Ideal S65536x128 .f32} {h : IVec S400000 32}
    (hx : V (Proc.devRef .tc main_arg0) = x) (hh : V (Proc.devRef .tc main_arg4) = h) :
    StableHlo.after hostOps0 V (Proc.devRef .tc main_v0) = take128 x h := by
  subst hx hh
  after_results_simp
  have ex : (StableHlo.TRef.of (T := ⟨S65536x128, .f32⟩) main_arg0).ofBuf (V (Proc.devRef .tc main_arg0)) = V (Proc.devRef .tc main_arg0) := rfl
  have eh : (StableHlo.TRef.of (T := ⟨S400000, .i32⟩) main_arg4).ofBuf (V (Proc.devRef .tc main_arg4)) = V (Proc.devRef .tc main_arg4) := rfl
  simp only [ofBuf_toBuf, ex, eh]
  unfold take128 takeOk takeCol
  exact cast_eq _ _
theorem after1_v1 {x : Vec Ideal S65536x128 .f32} {h : IVec S400000 32}
    (hx : V (Proc.devRef .tc main_arg1) = x) (hh : V (Proc.devRef .tc main_arg5) = h) :
    StableHlo.after hostOps0_1 V (Proc.devRef .tc main_v1) = take128 x h := by
  subst hx hh
  after_results_simp
  have ex : (StableHlo.TRef.of (T := ⟨S65536x128, .f32⟩) main_arg1).ofBuf (V (Proc.devRef .tc main_arg1)) = V (Proc.devRef .tc main_arg1) := rfl
  have eh : (StableHlo.TRef.of (T := ⟨S400000, .i32⟩) main_arg5).ofBuf (V (Proc.devRef .tc main_arg5)) = V (Proc.devRef .tc main_arg5) := rfl
  simp only [ofBuf_toBuf, ex, eh]
  unfold take128 takeOk takeCol
  exact cast_eq _ _
theorem after2_v2 {x : Vec Ideal S65536x2 .f32} {h : IVec S400000 32}
    (hx : V (Proc.devRef .tc main_arg2) = x) (hh : V (Proc.devRef .tc main_arg4) = h) :
    StableHlo.after hostOps0_2 V (Proc.devRef .tc main_v2) = take2 x h := by
  subst hx hh
  after_results_simp
  have ex : (StableHlo.TRef.of (T := ⟨S65536x2, .f32⟩) main_arg2).ofBuf (V (Proc.devRef .tc main_arg2)) = V (Proc.devRef .tc main_arg2) := rfl
  have eh : (StableHlo.TRef.of (T := ⟨S400000, .i32⟩) main_arg4).ofBuf (V (Proc.devRef .tc main_arg4)) = V (Proc.devRef .tc main_arg4) := rfl
  simp only [ofBuf_toBuf, ex, eh]
  unfold take2 takeOk takeCol
  exact cast_eq _ _
theorem after3_v3 {x : Vec Ideal S65536x2 .f32} {h : IVec S400000 32}
    (hx : V (Proc.devRef .tc main_arg3) = x) (hh : V (Proc.devRef .tc main_arg5) = h) :
    StableHlo.after hostOps0_3 V (Proc.devRef .tc main_v3) = take2 x h := by
  subst hx hh
  after_results_simp
  have ex : (StableHlo.TRef.of (T := ⟨S65536x2, .f32⟩) main_arg3).ofBuf (V (Proc.devRef .tc main_arg3)) = V (Proc.devRef .tc main_arg3) := rfl
  have eh : (StableHlo.TRef.of (T := ⟨S400000, .i32⟩) main_arg5).ofBuf (V (Proc.devRef .tc main_arg5)) = V (Proc.devRef .tc main_arg5) := rfl
  simp only [ofBuf_toBuf, ex, eh]
  unfold take2 takeOk takeCol
  exact cast_eq _ _
theorem after4_v8 {a b : Vec Ideal S400000x2 .f32} {w : Vec Ideal S2x128 .f32} {bias : Vec Ideal S128 .f32}
    (ha : V (Proc.devRef .tc main_v2) = a) (hb : V (Proc.devRef .tc main_v3) = b) (hw : V (Proc.devRef .tc main_arg6) = w) (hbias : V (Proc.devRef .tc main_arg7) = bias) :
    StableHlo.after hostOps0_4 V (Proc.devRef .tc main_v8) = preArr a b w bias := by
  subst ha hb hw hbias
  after_results_simp
  rfl
theorem after5_v9 {x : Vec Ideal S400000x128 .f32} (hx : V (Proc.devRef .tc main_v8) = x) :
    StableHlo.after hostOps0_5 V (Proc.devRef .tc main_v9) = reluArr x := by
  subst hx
  after_results_simp
  rfl
theorem after6_v10 {x : Vec Ideal S128 .f32} (hx : V (Proc.devRef .tc main_arg9) = x) :
    StableHlo.after hostOps0_6 V (Proc.devRef .tc main_v10) = shapeCast S1x128 x shapeCasts_S128_S1x128 := by
  subst hx
  after_results_simp
  rfl
theorem after6_v11 {x : Vec Ideal S128 .f32} (hx : V (Proc.devRef .tc main_arg10) = x) :
    StableHlo.after hostOps0_6 V (Proc.devRef .tc main_v11) = shapeCast S1x128 x shapeCasts_S128_S1x128 := by
  subst hx
  after_results_simp
  rfl
theorem after6_v12 {x : Vec Ideal S128 .f32} (hx : V (Proc.devRef .tc main_arg12) = x) :
    StableHlo.after hostOps0_6 V (Proc.devRef .tc main_v12) = shapeCast S1x128 x shapeCasts_S128_S1x128 := by
  subst hx
  after_results_simp
  rfl
theorem after6_v13 {x : Vec Ideal S128 .f32} (hx : V (Proc.devRef .tc main_arg13) = x) :
    StableHlo.after hostOps0_6 V (Proc.devRef .tc main_v13) = shapeCast S1x128 x shapeCasts_S128_S1x128 := by
  subst hx
  after_results_simp
  rfl
theorem after6_v14 {x : Vec Ideal S128 .f32} (hx : V (Proc.devRef .tc main_arg15) = x) :
    StableHlo.after hostOps0_6 V (Proc.devRef .tc main_v14) = shapeCast S1x128 x shapeCasts_S128_S1x128 := by
  subst hx
  after_results_simp
  rfl
theorem after6_v15 {x : Vec Ideal S128 .f32} (hx : V (Proc.devRef .tc main_arg16) = x) :
    StableHlo.after hostOps0_6 V (Proc.devRef .tc main_v15) = shapeCast S1x128 x shapeCasts_S128_S1x128 := by
  subst hx
  after_results_simp
  rfl

end Stretches

/-! ## The region's operands, read back through the seven stretches to the launch memory -/

section Walk
variable (c : Dev nD)

/-- A buffer none of the first stretches writes holds after them what the launch memory holds. -/
theorem W1_of (r : Ref sig .tc) (h0 : r ∉ writes0) :
    W1 m ρ c (Proc.devRef .tc r) = W0 m ρ c (Proc.devRef .tc r) := pass0 _ r h0
theorem W2_of (r : Ref sig .tc) (h0 : r ∉ writes0) (h1 : r ∉ writes1) :
    W2 m ρ c (Proc.devRef .tc r) = W0 m ρ c (Proc.devRef .tc r) := (pass1 _ r h1).trans (W1_of m ρ c r h0)
theorem W3_of (r : Ref sig .tc) (h0 : r ∉ writes0) (h1 : r ∉ writes1) (h2 : r ∉ writes2) :
    W3 m ρ c (Proc.devRef .tc r) = W0 m ρ c (Proc.devRef .tc r) := (pass2 _ r h2).trans (W2_of m ρ c r h0 h1)
theorem W4_of (r : Ref sig .tc) (h0 : r ∉ writes0) (h1 : r ∉ writes1) (h2 : r ∉ writes2) (h3 : r ∉ writes3) :
    W4 m ρ c (Proc.devRef .tc r) = W0 m ρ c (Proc.devRef .tc r) := (pass3 _ r h3).trans (W3_of m ρ c r h0 h1 h2)
theorem W5_of (r : Ref sig .tc) (h0 : r ∉ writes0) (h1 : r ∉ writes1) (h2 : r ∉ writes2) (h3 : r ∉ writes3)
    (h4 : r ∉ writes4) :
    W5 m ρ c (Proc.devRef .tc r) = W0 m ρ c (Proc.devRef .tc r) := (pass4 _ r h4).trans (W4_of m ρ c r h0 h1 h2 h3)
theorem W6_of (r : Ref sig .tc) (h0 : r ∉ writes0) (h1 : r ∉ writes1) (h2 : r ∉ writes2) (h3 : r ∉ writes3)
    (h4 : r ∉ writes4) (h5 : r ∉ writes5) :
    W6 m ρ c (Proc.devRef .tc r) = W0 m ρ c (Proc.devRef .tc r) := (pass5 _ r h5).trans (W5_of m ρ c r h0 h1 h2 h3 h4)
theorem W7_of (r : Ref sig .tc) (h0 : r ∉ writes0) (h1 : r ∉ writes1) (h2 : r ∉ writes2) (h3 : r ∉ writes3)
    (h4 : r ∉ writes4) (h5 : r ∉ writes5) (h6 : r ∉ writes6) :
    W7 m ρ c (Proc.devRef .tc r) = W0 m ρ c (Proc.devRef .tc r) := (pass6 _ r h6).trans (W6_of m ρ c r h0 h1 h2 h3 h4 h5)

/-- The gathered agent rows. -/
theorem V7_v0 : (V7 m ρ c main_v0 : Vec Ideal S400000x128 .f32)
    = take128 (m ((c.tc : Thread nD τ).loc main_arg0)) (m ((c.tc : Thread nD τ).loc main_arg4)) :=
  (pass6 (W6 m ρ c) main_v0 (by decide)).trans <| (pass5 (W5 m ρ c) main_v0 (by decide)).trans <|
  (pass4 (W4 m ρ c) main_v0 (by decide)).trans <| (pass3 (W3 m ρ c) main_v0 (by decide)).trans <|
  (pass2 (W2 m ρ c) main_v0 (by decide)).trans <| (pass1 (W1 m ρ c) main_v0 (by decide)).trans <|
  after0_v0 (W0 m ρ c) rfl rfl
/-- The gathered context rows. -/
theorem V7_v1 : (V7 m ρ c main_v1 : Vec Ideal S400000x128 .f32)
    = take128 (m ((c.tc : Thread nD τ).loc main_arg1)) (m ((c.tc : Thread nD τ).loc main_arg5)) :=
  (pass6 (W6 m ρ c) main_v1 (by decide)).trans <| (pass5 (W5 m ρ c) main_v1 (by decide)).trans <|
  (pass4 (W4 m ρ c) main_v1 (by decide)).trans <| (pass3 (W3 m ρ c) main_v1 (by decide)).trans <|
  (pass2 (W2 m ρ c) main_v1 (by decide)).trans <|
  after1_v1 (W1 m ρ c) (W1_of m ρ c main_arg1 (by decide)) (W1_of m ρ c main_arg5 (by decide))
/-- The distance features. -/
theorem V7_v9 : (V7 m ρ c main_v9 : Vec Ideal S400000x128 .f32)
    = reluArr (preArr (take2 (m ((c.tc : Thread nD τ).loc main_arg2)) (m ((c.tc : Thread nD τ).loc main_arg4)))
        (take2 (m ((c.tc : Thread nD τ).loc main_arg3)) (m ((c.tc : Thread nD τ).loc main_arg5)))
        (m ((c.tc : Thread nD τ).loc main_arg6)) (m ((c.tc : Thread nD τ).loc main_arg7))) :=
  (pass6 (W6 m ρ c) main_v9 (by decide)).trans <|
  after5_v9 (W5 m ρ c) <| after4_v8 (W4 m ρ c)
    ((pass3 (W3 m ρ c) main_v2 (by decide)).trans <|
      after2_v2 (W2 m ρ c) (W2_of m ρ c main_arg2 (by decide) (by decide)) (W2_of m ρ c main_arg4 (by decide) (by decide)))
    (after3_v3 (W3 m ρ c) (W3_of m ρ c main_arg3 (by decide) (by decide) (by decide)) (W3_of m ρ c main_arg5 (by decide) (by decide) (by decide)))
    (W4_of m ρ c main_arg6 (by decide) (by decide) (by decide) (by decide)) (W4_of m ρ c main_arg7 (by decide) (by decide) (by decide) (by decide))
theorem V7_arg8 : (V7 m ρ c main_arg8 : Vec Ideal S128x128 .f32) = (m ((c.tc : Thread nD τ).loc main_arg8)) :=
  W7_of m ρ c main_arg8 (by decide) (by decide) (by decide) (by decide) (by decide) (by decide) (by decide)
theorem V7_arg11 : (V7 m ρ c main_arg11 : Vec Ideal S128x128 .f32) = (m ((c.tc : Thread nD τ).loc main_arg11)) :=
  W7_of m ρ c main_arg11 (by decide) (by decide) (by decide) (by decide) (by decide) (by decide) (by decide)
theorem V7_arg14 : (V7 m ρ c main_arg14 : Vec Ideal S384x128 .f32) = (m ((c.tc : Thread nD τ).loc main_arg14)) :=
  W7_of m ρ c main_arg14 (by decide) (by decide) (by decide) (by decide) (by decide) (by decide) (by decide)
theorem V7_arg17 : (V7 m ρ c main_arg17 : Vec Ideal S128x128 .f32) = (m ((c.tc : Thread nD τ).loc main_arg17)) :=
  W7_of m ρ c main_arg17 (by decide) (by decide) (by decide) (by decide) (by decide) (by decide) (by decide)
theorem V7_v10 : (V7 m ρ c main_v10 : Vec Ideal S1x128 .f32)
    = shapeCast S1x128 (m ((c.tc : Thread nD τ).loc main_arg9)) shapeCasts_S128_S1x128 :=
  after6_v10 (W6 m ρ c) (W6_of m ρ c main_arg9 (by decide) (by decide) (by decide) (by decide) (by decide) (by decide))
theorem V7_v11 : (V7 m ρ c main_v11 : Vec Ideal S1x128 .f32)
    = shapeCast S1x128 (m ((c.tc : Thread nD τ).loc main_arg10)) shapeCasts_S128_S1x128 :=
  after6_v11 (W6 m ρ c) (W6_of m ρ c main_arg10 (by decide) (by decide) (by decide) (by decide) (by decide) (by decide))
theorem V7_v12 : (V7 m ρ c main_v12 : Vec Ideal S1x128 .f32)
    = shapeCast S1x128 (m ((c.tc : Thread nD τ).loc main_arg12)) shapeCasts_S128_S1x128 :=
  after6_v12 (W6 m ρ c) (W6_of m ρ c main_arg12 (by decide) (by decide) (by decide) (by decide) (by decide) (by decide))
theorem V7_v13 : (V7 m ρ c main_v13 : Vec Ideal S1x128 .f32)
    = shapeCast S1x128 (m ((c.tc : Thread nD τ).loc main_arg13)) shapeCasts_S128_S1x128 :=
  after6_v13 (W6 m ρ c) (W6_of m ρ c main_arg13 (by decide) (by decide) (by decide) (by decide) (by decide) (by decide))
theorem V7_v14 : (V7 m ρ c main_v14 : Vec Ideal S1x128 .f32)
    = shapeCast S1x128 (m ((c.tc : Thread nD τ).loc main_arg15)) shapeCasts_S128_S1x128 :=
  after6_v14 (W6 m ρ c) (W6_of m ρ c main_arg15 (by decide) (by decide) (by decide) (by decide) (by decide) (by decide))
theorem V7_v15 : (V7 m ρ c main_v15 : Vec Ideal S1x128 .f32)
    = shapeCast S1x128 (m ((c.tc : Thread nD τ).loc main_arg16)) shapeCasts_S128_S1x128 :=
  after6_v15 (W6 m ρ c) (W6_of m ρ c main_arg16 (by decide) (by decide) (by decide) (by decide) (by decide) (by decide))

end Walk

/-! ## Rows, matrices and vectors of those arrays -/

theorem row_take128 (x : Vec Ideal S65536x128 .f32) (h : IVec S400000 32) (hh : AllRows h) (e : Fin 400000) :
    rowOf (take128 x h) e = rowOf x (rowIx (h (ix1 e))) :=
  funext fun k => take128_apply x h hh e k

theorem row_d1 (ac cc : Vec Ideal S65536x2 .f32) (hi wi : IVec S400000 32) (w : Vec Ideal S2x128 .f32)
    (b : Vec Ideal S128 .f32) (hhi : AllRows hi) (hwi : AllRows wi) (e : Fin 400000) :
    rowOf (reluArr (preArr (take2 ac hi) (take2 cc wi) w b)) e
      = d1Row (rowOf ac (rowIx (hi (ix1 e)))) (rowOf cc (rowIx (wi (ix1 e)))) (matOf w) (vecOf b) :=
  funext fun k => by
    show reluArr (preArr (take2 ac hi) (take2 cc wi) w b) (ix2 e k) = _
    rw [reluArr_preArr_apply]
    simp only [take2_apply ac hi hhi, take2_apply cc wi hwi]
    rfl

theorem vec_reshape (v : Vec Ideal S128 .f32) : vecOf1 (shapeCast S1x128 v shapeCasts_S128_S1x128) = vecOf v :=
  funext fun k => shapeCast_a_1a_apply v shapeCasts_S128_S1x128 0 k

/-- The edge message depends on its thirteen operands only. -/
private theorem edgeMsg_congr {d1 d1' ag ag' cx cx' : Row} {w2 w2' : Fin 128 → Fin 128 → EReal} {gw gw' gb gb' : Row}
    {qw qw' : Fin 128 → Fin 128 → EReal} {qgw qgw' qgb qgb' : Row} {c1 c1' : Fin 384 → Fin 128 → EReal}
    {cgw cgw' cgb cgb' : Row} {c2 c2' : Fin 128 → Fin 128 → EReal}
    (h1 : d1 = d1') (h2 : ag = ag') (h3 : cx = cx') (h4 : w2 = w2') (h5 : gw = gw') (h6 : gb = gb') (h7 : qw = qw')
    (h8 : qgw = qgw') (h9 : qgb = qgb') (h10 : c1 = c1') (h11 : cgw = cgw') (h12 : cgb = cgb') (h13 : c2 = c2') :
    edgeMsg d1 ag cx w2 gw gb qw qgw qgb c1 cgw cgb c2 = edgeMsg d1' ag' cx' w2' gw' gb' qw' qgw' qgb' c1' cgw' cgb' c2' := by
  subst h1 h2 h3 h4 h5 h6 h7 h8 h9 h10 h11 h12 h13
  rfl

theorem msgOf_V7 (c : Dev nD) (ha : (KArr.args m c).InRange) :
    KArr.msgOf (V7 m ρ) c = Spec.msgArr (KArr.args m c) := by
  have hhi : AllRows (m ((c.tc : Thread nD τ).loc main_arg4)) := fun e => (ha e).1
  have hwi : AllRows (m ((c.tc : Thread nD τ).loc main_arg5)) := fun e => (ha e).2
  funext i
  obtain ⟨e, k, rfl⟩ : ∃ (e : Fin 400000) (k : Fin 128), i = ix2 e k := ⟨i 0, i 1, eq_ix2 i⟩
  rw [msgArr_apply]
  have h1 : rowOf (V7 m ρ c main_v9 : Vec Ideal S400000x128 .f32) e = (KArr.args m c).d1 e :=
    (congrArg (fun x : Vec Ideal S400000x128 .f32 => rowOf x e) (V7_v9 m ρ c)).trans (row_d1 _ _ _ _ _ _ hhi hwi e)
  have h2 : rowOf (V7 m ρ c main_v0 : Vec Ideal S400000x128 .f32) e
      = rowOf (KArr.args m c).agts (rowIx ((KArr.args m c).hi (ix1 e))) :=
    (congrArg (fun x : Vec Ideal S400000x128 .f32 => rowOf x e) (V7_v0 m ρ c)).trans (row_take128 _ _ hhi e)
  have h3 : rowOf (V7 m ρ c main_v1 : Vec Ideal S400000x128 .f32) e
      = rowOf (KArr.args m c).ctx (rowIx ((KArr.args m c).wi (ix1 e))) :=
    (congrArg (fun x : Vec Ideal S400000x128 .f32 => rowOf x e) (V7_v1 m ρ c)).trans (row_take128 _ _ hwi e)
  have h4 : matOf (V7 m ρ c main_arg8 : Vec Ideal S128x128 .f32) = matOf (KArr.args m c).dist_w2 :=
    congrArg (fun x : Vec Ideal S128x128 .f32 => matOf x) (V7_arg8 m ρ c)
  have h5 : vecOf1 (V7 m ρ c main_v10 : Vec Ideal S1x128 .f32) = vecOf (KArr.args m c).dist_gw :=
    (congrArg (fun x : Vec Ideal S1x128 .f32 => vecOf1 x) (V7_v10 m ρ c)).trans (vec_reshape _)
  have h6 : vecOf1 (V7 m ρ c main_v11 : Vec Ideal S1x128 .f32) = vecOf (KArr.args m c).dist_gb :=
    (congrArg (fun x : Vec Ideal S1x128 .f32 => vecOf1 x) (V7_v11 m ρ c)).trans (vec_reshape _)
  have h7 : matOf (V7 m ρ c main_arg11 : Vec Ideal S128x128 .f32) = matOf (KArr.args m c).q_w :=
    congrArg (fun x : Vec Ideal S128x128 .f32 => matOf x) (V7_arg11 m ρ c)
  have h8 : vecOf1 (V7 m ρ c main_v12 : Vec Ideal S1x128 .f32) = vecOf (KArr.args m c).q_gw :=
    (congrArg (fun x : Vec Ideal S1x128 .f32 => vecOf1 x) (V7_v12 m ρ c)).trans (vec_reshape _)
  have h9 : vecOf1 (V7 m ρ c main_v13 : Vec Ideal S1x128 .f32) = vecOf (KArr.args m c).q_gb :=
    (congrArg (fun x : Vec Ideal S1x128 .f32 => vecOf1 x) (V7_v13 m ρ c)).trans (vec_reshape _)
  have h10 : matOf (V7 m ρ c main_arg14 : Vec Ideal S384x128 .f32) = matOf (KArr.args m c).ctx_w1 :=
    congrArg (fun x : Vec Ideal S384x128 .f32 => matOf x) (V7_arg14 m ρ c)
  have h11 : vecOf1 (V7 m ρ c main_v14 : Vec Ideal S1x128 .f32) = vecOf (KArr.args m c).ctx_gw :=
    (congrArg (fun x : Vec Ideal S1x128 .f32 => vecOf1 x) (V7_v14 m ρ c)).trans (vec_reshape _)
  have h12 : vecOf1 (V7 m ρ c main_v15 : Vec Ideal S1x128 .f32) = vecOf (KArr.args m c).ctx_gb :=
    (congrArg (fun x : Vec Ideal S1x128 .f32 => vecOf1 x) (V7_v15 m ρ c)).trans (vec_reshape _)
  have h13 : matOf (V7 m ρ c main_arg17 : Vec Ideal S128x128 .f32) = matOf (KArr.args m c).ctx_w2 :=
    congrArg (fun x : Vec Ideal S128x128 .f32 => matOf x) (V7_arg17 m ρ c)
  exact congrFun (edgeMsg_congr h1 h2 h3 h4 h5 h6 h7 h8 h9 h10 h11 h12 h13) k

end Cert.KernelIdeal.KHost0

end
-- ==== Proof.KHost1.lean ====
import proofs.«430932_j23313082483285_1_alg».proof.Proof.Gen.KernelIdeal.Frame
import proofs.«430932_j23313082483285_1_alg».proof.Proof.Spec
import proofs.«430932_j23313082483285_1_alg».proof.Proof.KArr
import proofs.«430932_j23313082483285_1_alg».proof.Proof.Seg
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
/-!
# The host operations between the two kernels

Between the regions @main scatter-adds the message array into a zero array at the index vector `hi` and reshapes four
weight vectors to `1 × 128`.  At the extended reals the scatter's value at an element is `0` plus the sum of the
messages whose index lands there, so the second region is entered with the summed messages `Seg.segSum`, and its
result is the layer's result `Seg.G`.
-/

noncomputable section

namespace Cert.KernelIdeal.KHost1

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)
/-! ## A buffer no operation writes keeps its contents

Each step below passes one stretch of host operations (or the first region) at a buffer the stretch does not write. -/

local macro "walk_step" ops:ident b:ident : tactic =>
  `(tactic| refine Eq.trans (StableHlo.after_of_forall_not_mem (b := Proc.devRef .tc $b) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))) ?_)

/-- From the first region's exit back to the launch memory. -/
local macro "walk8" b:ident : tactic =>
  `(tactic| (
      refine Eq.trans (W8_of_ne _ _ _ $b (by decide)) ?_
      walk_step hostOps0_6 $b
      walk_step hostOps0_5 $b
      walk_step hostOps0_4 $b
      walk_step hostOps0_3 $b
      walk_step hostOps0_2 $b
      walk_step hostOps0_1 $b
      walk_step hostOps0 $b
      rfl))

/-- From the second region's entry back to the launch memory. -/
local macro "walk9" b:ident : tactic =>
  `(tactic| (
      walk_step hostOps1 $b
      walk8 $b))

/-! ## The arguments the stretch reads, at the first region's exit -/

private theorem W8_main_arg4 (c : Dev nD) : W8 m ρ c (Proc.devRef .tc main_arg4) = m ((c : Thread nD τ).loc main_arg4) := by
  walk8 main_arg4
private theorem W8_main_arg19 (c : Dev nD) : W8 m ρ c (Proc.devRef .tc main_arg19) = m ((c : Thread nD τ).loc main_arg19) := by
  walk8 main_arg19
private theorem W8_main_arg20 (c : Dev nD) : W8 m ρ c (Proc.devRef .tc main_arg20) = m ((c : Thread nD τ).loc main_arg20) := by
  walk8 main_arg20
private theorem W8_main_arg22 (c : Dev nD) : W8 m ρ c (Proc.devRef .tc main_arg22) = m ((c : Thread nD τ).loc main_arg22) := by
  walk8 main_arg22
private theorem W8_main_arg23 (c : Dev nD) : W8 m ρ c (Proc.devRef .tc main_arg23) = m ((c : Thread nD τ).loc main_arg23) := by
  walk8 main_arg23

/-! ## The arguments the second region reads directly -/

private theorem V9_main_arg0 (c : Dev nD) : V9 m ρ c main_arg0 = m ((c : Thread nD τ).loc main_arg0) := by
  show StableHlo.after hostOps1 (W8 m ρ c) (Proc.devRef .tc main_arg0) = _
  walk9 main_arg0
private theorem V9_main_arg18 (c : Dev nD) : V9 m ρ c main_arg18 = m ((c : Thread nD τ).loc main_arg18) := by
  show StableHlo.after hostOps1 (W8 m ρ c) (Proc.devRef .tc main_arg18) = _
  walk9 main_arg18
private theorem V9_main_arg21 (c : Dev nD) : V9 m ρ c main_arg21 = m ((c : Thread nD τ).loc main_arg21) := by
  show StableHlo.after hostOps1 (W8 m ρ c) (Proc.devRef .tc main_arg21) = _
  walk9 main_arg21

/-! ## The summed messages -/

/-- The scatter's result buffer holds the scatter-add of the first region's result into the zero array at the
    index vector `hi`. -/
private theorem V9_main_v19 (c : Dev nD) :
    (V9 m ρ c main_v19 : Vec Ideal S65536x128 .f32) =
      Host.scatterAdd (F := Ideal) scatter_S65536x128_S400000x1_S400000x128_1_0_0_1
        (broadcastInDim S65536x128 ![] bcast_S_S65536x128 (constant (F := Ideal) S_ .f32 0x00000000#32))
        (Seg.idxOf (m ((c : Thread nD τ).loc main_arg4)))
        (W8 m ρ c (Proc.devRef .tc main_v16) : Vec Ideal S400000x128 .f32) := by
  show StableHlo.after hostOps1 _ (Proc.devRef .tc main_v19) = _
  after_results
  rw [W8_main_arg4]
  rfl

/-- At the extended reals the operand is `0` everywhere, so an element of the result is the sum of the messages whose
    index lands there. -/
private theorem V9_main_v19_seg (c : Dev nD)
    (hM : (W8 m ρ c (Proc.devRef .tc main_v16) : Vec Ideal S400000x128 .f32) = Spec.msgArr (KArr.args m c)) :
    (V9 m ρ c main_v19 : Vec Ideal S65536x128 .f32) = Seg.segSum (KArr.args m c).hi (Spec.msgArr (KArr.args m c)) := by
  rw [V9_main_v19, hM]
  funext i
  show Ideal.ofBits .f32 0x00000000#32 + _ = _
  rw [Ideal.ofBits_zero_f32, zero_add]
  rfl

/-! ## The four weight vectors as `1 × 128` arrays -/

private theorem V9_main_v20 (c : Dev nD) (k : Fin 128) :
    (V9 m ρ c main_v20 : Vec Ideal S1x128 .f32) (ix2 0 k) = (m ((c : Thread nD τ).loc main_arg19) : Vec Ideal S128 .f32) (ix1 k) := by
  show StableHlo.after hostOps1 _ (Proc.devRef .tc main_v20) _ = _
  after_results
  rw [W8_main_arg19]
  exact shapeCast_a_1a_apply (m ((c : Thread nD τ).loc main_arg19) : Vec Ideal S128 .f32) shapeCasts_S128_S1x128 0 k
private theorem V9_main_v21 (c : Dev nD) (k : Fin 128) :
    (V9 m ρ c main_v21 : Vec Ideal S1x128 .f32) (ix2 0 k) = (m ((c : Thread nD τ).loc main_arg20) : Vec Ideal S128 .f32) (ix1 k) := by
  show StableHlo.after hostOps1 _ (Proc.devRef .tc main_v21) _ = _
  after_results
  rw [W8_main_arg20]
  exact shapeCast_a_1a_apply (m ((c : Thread nD τ).loc main_arg20) : Vec Ideal S128 .f32) shapeCasts_S128_S1x128 0 k
private theorem V9_main_v22 (c : Dev nD) (k : Fin 128) :
    (V9 m ρ c main_v22 : Vec Ideal S1x128 .f32) (ix2 0 k) = (m ((c : Thread nD τ).loc main_arg22) : Vec Ideal S128 .f32) (ix1 k) := by
  show StableHlo.after hostOps1 _ (Proc.devRef .tc main_v22) _ = _
  after_results
  rw [W8_main_arg22]
  exact shapeCast_a_1a_apply (m ((c : Thread nD τ).loc main_arg22) : Vec Ideal S128 .f32) shapeCasts_S128_S1x128 0 k
private theorem V9_main_v23 (c : Dev nD) (k : Fin 128) :
    (V9 m ρ c main_v23 : Vec Ideal S1x128 .f32) (ix2 0 k) = (m ((c : Thread nD τ).loc main_arg23) : Vec Ideal S128 .f32) (ix1 k) := by
  show StableHlo.after hostOps1 _ (Proc.devRef .tc main_v23) _ = _
  after_results
  rw [W8_main_arg23]
  exact shapeCast_a_1a_apply (m ((c : Thread nD τ).loc main_arg23) : Vec Ideal S128 .f32) shapeCasts_S128_S1x128 0 k

/-! ## The second region's operands are the layer's -/

theorem nodeOf_V9 (c : Dev nD)
    (hM : (W8 m ρ c (Proc.devRef .tc main_v16) : Vec Ideal S400000x128 .f32) = Spec.msgArr (KArr.args m c)) :
    KArr.nodeOf (V9 m ρ) c = Seg.G (KArr.args m c) := by
  have h0 : (V9 m ρ c main_arg0 : Vec Ideal S65536x128 .f32) = (KArr.args m c).agts := V9_main_arg0 m ρ c
  have h18 : (V9 m ρ c main_arg18 : Vec Ideal S128x128 .f32) = (KArr.args m c).agt_w := V9_main_arg18 m ρ c
  have h21 : (V9 m ρ c main_arg21 : Vec Ideal S128x128 .f32) = (KArr.args m c).lin_w := V9_main_arg21 m ρ c
  have h19 := V9_main_v19_seg m ρ c hM
  have e20 : vecOf1 (V9 m ρ c main_v20 : Vec Ideal S1x128 .f32) = vecOf (KArr.args m c).norm_w :=
    funext fun k => V9_main_v20 m ρ c k
  have e21 : vecOf1 (V9 m ρ c main_v21 : Vec Ideal S1x128 .f32) = vecOf (KArr.args m c).norm_b :=
    funext fun k => V9_main_v21 m ρ c k
  have e22 : vecOf1 (V9 m ρ c main_v22 : Vec Ideal S1x128 .f32) = vecOf (KArr.args m c).lin_gw :=
    funext fun k => V9_main_v22 m ρ c k
  have e23 : vecOf1 (V9 m ρ c main_v23 : Vec Ideal S1x128 .f32) = vecOf (KArr.args m c).lin_gb :=
    funext fun k => V9_main_v23 m ρ c k
  funext i
  unfold KArr.nodeOf Seg.G Spec.outArr
  rw [h0, h18, h21, h19, e20, e21, e22, e23]

end Cert.KernelIdeal.KHost1

end
-- ==== Proof.KVal.lean ====
import proofs.«430932_j23313082483285_1_alg».proof.Proof.Gen.KernelIdeal.Frame
import proofs.«430932_j23313082483285_1_alg».proof.Proof.Spec
import proofs.«430932_j23313082483285_1_alg».proof.Proof.KArr
import proofs.«430932_j23313082483285_1_alg».proof.Proof.Seg
import proofs.«430932_j23313082483285_1_alg».proof.Proof.KReg0
import proofs.«430932_j23313082483285_1_alg».proof.Proof.KReg1
import proofs.«430932_j23313082483285_1_alg».proof.Proof.KHost0
import proofs.«430932_j23313082483285_1_alg».proof.Proof.KHost1
import proofs.«430932_j23313082483285_1_alg».proof.Proof.KRun
/-!
# The idealized kernel's result

The result buffer after the run is the second region's output array; that is `KArr.nodeOf` of the contents the
region was entered with, which the host operations between the regions make `Seg.G` of the arguments once the first
region's output array is known to be the message array.
-/

noncomputable section

namespace Cert.KernelIdeal.KVal

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

theorem result_eq (c : Dev nD) (ha : (KArr.args m c).InRange) :
    (W10 m ρ c (Proc.devRef .tc main_v24) : Vec Ideal S65536x128 .f32) = Seg.G (KArr.args m c) := by
  have h8 : (W8 m ρ c (Proc.devRef .tc main_v16) : Vec Ideal S400000x128 .f32) = Spec.msgArr (KArr.args m c) :=
    ((W8_arr m ρ c 13).trans (KReg0.arr13 (V7 m ρ) c)).trans (KHost0.msgOf_V7 m ρ c ha)
  exact ((W10_arr m ρ c 8).trans (KReg1.arr8 (V9 m ρ) c)).trans (KHost1.nodeOf_V9 m ρ c h8)

end Cert.KernelIdeal.KVal

end
-- ==== Proof.KPre.lean ====
import proofs.«430932_j23313082483285_1_alg».proof.Defs
import proofs.«430932_j23313082483285_1_alg».proof.Proof.KArr
import proofs.«430932_j23313082483285_1_alg».proof.Proof.Gen.Pre_finite_inputs
import Idealize.ShloMosaic.Lib.ReduceAll
import Idealize.ShloMosaic.Lib.StableHlo.Predicate

/-!
# What the precondition says about the index vectors

The precondition is a conjunction of "every entry of this float array is finite", one per float argument, and of
four facts about the two index vectors: every entry of `hi` is `≥ 0`, every entry is `< 65536`, and the same for
`wi`.  Only those four are used: each is an `and`-reduction of a signed word comparison against a broadcast
constant, which holds exactly when the comparison holds at every entry.
-/

noncomputable section

namespace Cert.KernelIdeal.KPre

open Idealize.ShloMosaic Idealize.ShloMosaic.TcCoe Idealize.ShloMosaic.ValueIdx Idealize.SL.Sem
open Cert.KernelIdeal Cert.Spec

section Decode

open Cert.Pre_finite_inputs

/-- The scalar shape has one index. -/
private instance subsingleton_scalar_idx : Subsingleton S_.Idx := ⟨fun a b => funext fun d => d.elim0⟩

variable [Cert.Pre_finite_inputs.Facts]

/-- An `and`-reduction, over the whole index vector, of a word comparison against a broadcast scalar `k`: when it
    is 1, the comparison with `k` holds at every entry. -/
private theorem all_cmp (p : CmpIPredicate) (x : IVec S400000 32) (k : BitVec 32) (init : IVec S_ 1) (j : S_.Idx)
    (h : Host.reduce IntOp.andi
        (cmpi p x (broadcastInDim S400000 ![] Facts.bcast_S_S400000 (constantI S_ 32 k))) init
        Facts.reducesTo_S400000_S_d0 Facts.h_S_ j = 1#1)
    (e : S400000.Idx) : IntOp.cmpi p (x e) k = 1#1 :=
  Host.reduce_andi_all _ init Facts.reducesTo_S400000_S_d0 Facts.h_S_ j h e

/-- The last stretch of the chain: it is the conjunction of what it was handed (`v116`), of "every entry of `v118`
    is 1" and of "every entry of `wi` is `< 65536`". -/
private theorem part7_decode {F : FTy → Type} [FloatOps F] (a5 : IVec S400000 32) (v116 : IVec S_ 1)
    (v118 : IVec S400000 1) (j : S_.Idx) (h : fn_part7 (F := F) a5 v116 v118 j = 1#1) :
    v116 j = 1#1 ∧ (∀ e, v118 e = 1#1) ∧ ∀ e, IntOp.cmpi .slt (a5 e) 65536#32 = 1#1 := by
  dsimp only [fn_part7] at h
  obtain ⟨h1, h2⟩ := IntOp.andi_eq_one.1 h
  obtain ⟨h3, h4⟩ := IntOp.andi_eq_one.1 h1
  exact ⟨h3, fun e => Host.reduce_andi_all _ _ Facts.reducesTo_S400000_S_d0 Facts.h_S_ j h4 e,
    fun e => all_cmp .slt a5 _ _ j h2 e⟩

/-- The stretch before it: whatever the float conjuncts it was handed say, its being 1 gives the four facts about
    the two index vectors. -/
private theorem part6_decode {F : FTy → Type} [FloatOps F] (a4 a5 : IVec S400000 32) (a23 : FVec F S128 .f32)
    (v98 : IVec S_ 1) (v101 : IVec S128 1) (c39 : IVec S_ 1) (j : S_.Idx)
    (h : fn_part6 (F := F) a4 a5 a23 v98 v101 c39 j = 1#1) :
    (∀ e, IntOp.cmpi .sge (a4 e) 0#32 = 1#1) ∧ (∀ e, IntOp.cmpi .slt (a4 e) 65536#32 = 1#1)
      ∧ (∀ e, IntOp.cmpi .sge (a5 e) 0#32 = 1#1) ∧ ∀ e, IntOp.cmpi .slt (a5 e) 65536#32 = 1#1 := by
  dsimp only [fn_part6] at h
  obtain ⟨h116, h118, h5lt⟩ := part7_decode a5 _ _ j h
  obtain ⟨h112, h115⟩ := IntOp.andi_eq_one.1 h116
  obtain ⟨h108, h111⟩ := IntOp.andi_eq_one.1 h112
  exact ⟨fun e => all_cmp .sge a4 _ _ j h111 e, fun e => all_cmp .slt a4 _ _ j h115 e, fun e => h118 e, h5lt⟩

end Decode

theorem inRange_of_pre (m : (ℓ : Loc nD τ sig) → Buf (Elt Ideal) ℓ)
    (h : Cert.Pre_KernelIdeal (hPre_finite_inputs := Cert.Pre_finite_inputs.Gen.facts) m) (c : Dev nD) :
    (KArr.args m c).InRange := by
  have h0 := congrFun (h c) ValueIdx.ix0
  change Cert.Pre_finite_inputs.fn_part6 (F := Ideal) _ _ _ _ _ _ ValueIdx.ix0 = 1#1 at h0
  obtain ⟨h4ge, h4lt, h5ge, h5lt⟩ := part6_decode _ _ _ _ _ _ _ h0
  intro e
  have z0 : (0#32 : BitVec 32).toInt = 0 := by decide
  have z1 : (65536#32 : BitVec 32).toInt = 65536 := by decide
  have a := IntOp.cmpi_sge.1 (h4ge (ix1 e))
  have b := IntOp.cmpi_slt.1 (h4lt (ix1 e))
  have c' := IntOp.cmpi_sge.1 (h5ge (ix1 e))
  have d := IntOp.cmpi_slt.1 (h5lt (ix1 e))
  rw [z0] at a c'
  rw [z1] at b d
  exact ⟨⟨a, b⟩, ⟨c', d⟩⟩

end Cert.KernelIdeal.KPre

end
-- ==== Proof.RefEdge.lean ====
import proofs.«430932_j23313082483285_1_alg».proof.Proof.ReadCopy
import proofs.«430932_j23313082483285_1_alg».proof.Proof.Spec
import Idealize.ShloMosaic.Lib.ValueIdx
import Idealize.ShloMosaic.Lib.Pipeline.Value
import Idealize.ShloMosaic.PureOps.Ideal.Laws
/-!
# The reference's message array

The reference computes, for all 400000 edges at once, the gathers (a negative index wrapped once, then the start index
clamped into the table), the distance features, the two normalised branches, their concatenation with the gathered
context rows, the third group norm and the last linear map.  Read at an element `(e, k)`, with every index a row of
its table, this is channel `k` of `Spec.Args.msg a e`.
-/

noncomputable section

namespace Cert.ReferenceIdeal.RefEdge

open Idealize.ShloMosaic Idealize.ShloMosaic.ValueIdx
open Cert.ReferenceIdeal Cert.ReferenceIdeal.Read Cert.Spec

/-! ## Words: an index that is a row of its table is kept by the wrap -/

/-- A non-negative index word is not below zero, so the select of the wrap returns the word itself. -/
theorem wrap_keep (w : BitVec 32) (h0 : 0 ≤ w.toInt) :
    Scalar.select (IntOp.cmpi .slt w 0#32) (IntOp.addi w 65536#32) w = w := by
  have hc : IntOp.cmpi .slt w 0#32 = 0#1 := by
    unfold IntOp.cmpi
    show BitVec.ofBool (w.slt 0#32) = 0#1
    have hs : w.slt 0#32 = false := by
      simp only [BitVec.slt, BitVec.toInt_zero]
      exact decide_eq_false (by omega)
    rw [hs]; rfl
  rw [hc]; exact select_zero _ _

/-! ## A gather of whole rows: operand `[N, C]`, start indices `[R, 1]`, result `[R, C]` -/

/-- The dimension numbers of `x[idx]` for a table of rows: the row axis collapsed and start-indexed, the channel axis an
    offset axis of full width. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(e, k)`: channel `k` of the row the start index `idx[e, 0]` (the word `wd`) names, read signed
    and clamped into `[0, N − 1]`. -/
theorem gather_row_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C)
    (wd : BitVec w) (hw : idx (ix2 e (0 : Fin 1)) = wd) :
    Host.gather (rowDims N C R wf) x idx (ix2 e k) = x (ix2 ⟨min wd.toInt.toNat (N - 1), by omega⟩ k) := by
  subst hw
  unfold Host.gather
  congr 1
  funext a
  refine Fin.ext ?_
  match a with
  | ⟨0, _⟩ =>
    show (rowDims N C R wf).start (ix2 e k) idx 0 + (rowDims N C R wf).batchCoord (ix2 e k) 0
      + (rowDims N C R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e k) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C R wf).start (ix2 e k) idx 1 + (rowDims N C R wf).batchCoord (ix2 e k) 1
      + (rowDims N C R wf).offCoord (ix2 e k) 1 = k.val
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    unfold GatherDims.offCoord
    rw [dif_pos ((GatherDims.mem_sKept _ _).mpr ⟨(show ¬ (1 : Fin 2) ∈ ([0] : List (Fin 2)) by decide), List.not_mem_nil⟩)]
    rfl

/-! ## The index columns and the four gathers -/

/-- The index words of `a.hi` after the wrap, as the `[400000, 1]` column the gather reads: the words themselves. -/
theorem v5_eq (a : Spec.Args) (ha : a.InRange) (e : Fin 400000) :
    val_main_v5 (F := Ideal) a.hi (ix2 e (0 : Fin 1)) = a.hi (ix1 e) := by
  have hi : idx_main_v5 (ix2 e (0 : Fin 1)) = ix1 e := funext fun b => Fin.ext (by match b with | ⟨0, _⟩ => rfl)
  rw [val_main_v5_apply, hi, val_main_v4_apply, val_main_v1_apply, val_main_v0_apply, val_main_c_apply, val_main_v3_apply, val_main_v2_apply, val_main_c_0_apply]
  exact wrap_keep _ (ha e).1.1

/-- The gathered row: channel `k` of row `rowIx (a.hi e)` of `a.agt_ctrs`. -/
theorem v6_eq (a : Spec.Args) (ha : a.InRange) (e : Fin 400000) (k : Fin 2) :
    val_main_v6 (F := Ideal) a.agt_ctrs a.hi (ix2 e k) = a.agt_ctrs (ix2 (rowIx (a.hi (ix1 e))) k) :=
  gather_row_apply (N := 65536) (C := 2) (R := 400000) (by decide)
    Cert.ReferenceIdeal.Gen.gather_S65536x2_S400000x1_S400000x2_1_0_n_n_0_1_12_wf a.agt_ctrs (val_main_v5 (F := Ideal) a.hi) e k _ (v5_eq a ha e)

/-- The index words of `a.wi` after the wrap, as the `[400000, 1]` column the gather reads: the words themselves. -/
theorem v12_eq (a : Spec.Args) (ha : a.InRange) (e : Fin 400000) :
    val_main_v12 (F := Ideal) a.wi (ix2 e (0 : Fin 1)) = a.wi (ix1 e) := by
  have hi : idx_main_v12 (ix2 e (0 : Fin 1)) = ix1 e := funext fun b => Fin.ext (by match b with | ⟨0, _⟩ => rfl)
  rw [val_main_v12_apply, hi, val_main_v11_apply, val_main_v8_apply, val_main_v7_apply, val_main_c_1_apply, val_main_v10_apply, val_main_v9_apply, val_main_c_2_apply]
  exact wrap_keep _ (ha e).2.1

/-- The gathered row: channel `k` of row `rowIx (a.wi e)` of `a.ctx_ctrs`. -/
theorem v13_eq (a : Spec.Args) (ha : a.InRange) (e : Fin 400000) (k : Fin 2) :
    val_main_v13 (F := Ideal) a.ctx_ctrs a.wi (ix2 e k) = a.ctx_ctrs (ix2 (rowIx (a.wi (ix1 e))) k) :=
  gather_row_apply (N := 65536) (C := 2) (R := 400000) (by decide)
    Cert.ReferenceIdeal.Gen.gather_S65536x2_S400000x1_S400000x2_1_0_n_n_0_1_12_wf a.ctx_ctrs (val_main_v12 (F := Ideal) a.wi) e k _ (v12_eq a ha e)

/-- The index words of `a.hi` after the wrap, as the `[400000, 1]` column the gather reads: the words themselves. -/
theorem v51_eq (a : Spec.Args) (ha : a.InRange) (e : Fin 400000) :
    val_main_v51 (F := Ideal) a.hi (ix2 e (0 : Fin 1)) = a.hi (ix1 e) := by
  have hi : idx_main_v51 (ix2 e (0 : Fin 1)) = ix1 e := funext fun b => Fin.ext (by match b with | ⟨0, _⟩ => rfl)
  rw [val_main_v51_apply, hi, val_main_v50_apply, val_main_v47_apply, val_main_v46_apply, val_main_c_7_apply, val_main_v49_apply, val_main_v48_apply, val_main_c_8_apply]
  exact wrap_keep _ (ha e).1.1

/-- The gathered row: channel `k` of row `rowIx (a.hi e)` of `a.agts`. -/
theorem v52_eq (a : Spec.Args) (ha : a.InRange) (e : Fin 400000) (k : Fin 128) :
    val_main_v52 (F := Ideal) a.agts a.hi (ix2 e k) = a.agts (ix2 (rowIx (a.hi (ix1 e))) k) :=
  gather_row_apply (N := 65536) (C := 128) (R := 400000) (by decide)
    Cert.ReferenceIdeal.Gen.gather_S65536x128_S400000x1_S400000x128_1_0_n_n_0_1_1128_wf a.agts (val_main_v51 (F := Ideal) a.hi) e k _ (v51_eq a ha e)

/-- The index words of `a.wi` after the wrap, as the `[400000, 1]` column the gather reads: the words themselves. -/
theorem v84_eq (a : Spec.Args) (ha : a.InRange) (e : Fin 400000) :
    val_main_v84 (F := Ideal) a.wi (ix2 e (0 : Fin 1)) = a.wi (ix1 e) := by
  have hi : idx_main_v84 (ix2 e (0 : Fin 1)) = ix1 e := funext fun b => Fin.ext (by match b with | ⟨0, _⟩ => rfl)
  rw [val_main_v84_apply, hi, val_main_v83_apply, val_main_v80_apply, val_main_v79_apply, val_main_c_14_apply, val_main_v82_apply, val_main_v81_apply, val_main_c_15_apply]
  exact wrap_keep _ (ha e).2.1

/-- The gathered row: channel `k` of row `rowIx (a.wi e)` of `a.ctx`. -/
theorem v85_eq (a : Spec.Args) (ha : a.InRange) (e : Fin 400000) (k : Fin 128) :
    val_main_v85 (F := Ideal) a.ctx a.wi (ix2 e k) = a.ctx (ix2 (rowIx (a.wi (ix1 e))) k) :=
  gather_row_apply (N := 65536) (C := 128) (R := 400000) (by decide)
    Cert.ReferenceIdeal.Gen.gather_S65536x128_S400000x1_S400000x128_1_0_n_n_0_1_1128_wf a.ctx (val_main_v84 (F := Ideal) a.wi) e k _ (v84_eq a ha e)

/-! ## The distance branch -/

/-- The distance features: the difference of the two gathered centres through the `2 → 128` layer, its bias and a relu. -/
theorem v19_eq (a : Spec.Args) (ha : a.InRange) (e : Fin 400000) (k : Fin 128) :
    val_main_v19 (F := Ideal) a.agt_ctrs a.ctx_ctrs a.hi a.wi a.dist_w1 a.dist_b1 (ix2 e k) = a.d1 e k := by
  have hl : ∀ j : Fin 2, lidx_main_v15 (ix2 e k) j = ix2 e j := fun j => funext fun b => Fin.ext (by match b with | ⟨0, _⟩ => rfl | ⟨1, _⟩ => rfl)
  have hr : ∀ j : Fin 2, ridx_main_v15 (ix2 e k) j = ix2 j k := fun j => funext fun b => Fin.ext (by match b with | ⟨0, _⟩ => rfl | ⟨1, _⟩ => rfl)
  have hb : idx_main_v16 (idx_main_v17 (ix2 e k)) = ix1 k := funext fun b => Fin.ext (by match b with | ⟨0, _⟩ => rfl)
  rw [val_main_v19_apply, val_main_v18_apply, val_main_v15_apply, val_main_v17_apply, val_main_v16_apply, hb, val_main_call0_v0_apply, val_main_call0_cst_apply]
  simp only [hl, hr, val_main_v14_apply, v6_eq a ha, v13_eq a ha, Ideal.addf_def, Ideal.subf_def, Ideal.maximumf_def, Ideal.ofBits_def]
  rfl

/-- The second linear map of the distance branch, a row of 128 sums over the distance features. -/
theorem v20_eq (a : Spec.Args) (ha : a.InRange) (e : Fin 400000) (k : Fin 128) :
    val_main_v20 (F := Ideal) a.agt_ctrs a.ctx_ctrs a.hi a.wi a.dist_w1 a.dist_b1 a.dist_w2 (ix2 e k) = lin (a.d1 e) (matOf a.dist_w2) k := by
  have hl : ∀ j : Fin 128, lidx_main_v20 (ix2 e k) j = ix2 e j := fun j => funext fun b => Fin.ext (by match b with | ⟨0, _⟩ => rfl | ⟨1, _⟩ => rfl)
  have hr : ∀ j : Fin 128, ridx_main_v20 (ix2 e k) j = ix2 j k := fun j => funext fun b => Fin.ext (by match b with | ⟨0, _⟩ => rfl | ⟨1, _⟩ => rfl)
  rw [val_main_v20_apply]
  simp only [hl, hr, v19_eq a ha]
  rfl

/-! ### The group norm of the distance branch -/

/-- The row mean: the sum of the 128 channels from the zero initial value, divided by 128. -/
theorem v24_eq (a : Spec.Args) (e : Fin 400000) :
    val_main_v24 (F := Ideal) a.agt_ctrs a.ctx_ctrs a.hi a.wi a.dist_w1 a.dist_b1 a.dist_w2 (ix2 e (0 : Fin 1)) = Spec.mean (fun k' => val_main_v20 (F := Ideal) a.agt_ctrs a.ctx_ctrs a.hi a.wi a.dist_w1 a.dist_b1 a.dist_w2 (ix2 e k')) := by
  have hc : idx_main_v22 (ix2 e (0 : Fin 1)) = ix1 e := funext fun b => Fin.ext (by match b with | ⟨0, _⟩ => rfl)
  have hr : ∀ k' : Fin 128, idx_main_v21 (ix1 e) k' = ix2 e k' := fun k' => funext fun b => Fin.ext (by match b with | ⟨0, _⟩ => rfl | ⟨1, _⟩ => rfl)
  rw [val_main_v24_apply, val_main_v22_apply, hc, val_main_v21_apply, val_main_v23_apply, val_main_cst_3_apply, val_main_cst_apply]
  simp only [hr, Ideal.hostDivf_def, Ideal.ofBits_def, Ideal.ofBits_zero_f32, zero_add]
  rfl

/-- The row variance: the sum of the squared deviations from the mean, divided by 128. -/
theorem v31_eq (a : Spec.Args) (e : Fin 400000) :
    val_main_v31 (F := Ideal) a.agt_ctrs a.ctx_ctrs a.hi a.wi a.dist_w1 a.dist_b1 a.dist_w2 (ix2 e (0 : Fin 1)) = Spec.var (fun k' => val_main_v20 (F := Ideal) a.agt_ctrs a.ctx_ctrs a.hi a.wi a.dist_w1 a.dist_b1 a.dist_w2 (ix2 e k')) := by
  have hc : idx_main_v29 (ix2 e (0 : Fin 1)) = ix1 e := funext fun b => Fin.ext (by match b with | ⟨0, _⟩ => rfl)
  have hr : ∀ k' : Fin 128, idx_main_v28 (ix1 e) k' = ix2 e k' := fun k' => funext fun b => Fin.ext (by match b with | ⟨0, _⟩ => rfl | ⟨1, _⟩ => rfl)
  have hb : ∀ k' : Fin 128, idx_main_v25 (ix2 e k') = ix2 e (0 : Fin 1) := fun k' => funext fun b => Fin.ext (by match b with | ⟨0, _⟩ => rfl | ⟨1, _⟩ => rfl)
  rw [val_main_v31_apply, val_main_v29_apply, hc, val_main_v28_apply, val_main_v30_apply, val_main_cst_5_apply, val_main_cst_4_apply]
  simp only [hr, val_main_v27_apply, val_main_v26_apply, val_main_v25_apply, hb, v24_eq a e, Ideal.hostDivf_def, Ideal.mulf_def, Ideal.subf_def,
    Ideal.ofBits_def, Ideal.ofBits_zero_f32, zero_add]
  rfl

/-- The normalised row: centred, scaled by the reciprocal square root of variance plus `ε`, then the affine map. -/
theorem v44_eq (a : Spec.Args) (e : Fin 400000) (k : Fin 128) :
    val_main_v44 (F := Ideal) a.agt_ctrs a.ctx_ctrs a.hi a.wi a.dist_w1 a.dist_b1 a.dist_w2 a.dist_gw a.dist_gb (ix2 e k) = Spec.gn (fun k' => val_main_v20 (F := Ideal) a.agt_ctrs a.ctx_ctrs a.hi a.wi a.dist_w1 a.dist_b1 a.dist_w2 (ix2 e k')) (vecOf a.dist_gw) (vecOf a.dist_gb) k := by
  have hb2 : idx_main_v32 (ix2 e k) = ix2 e (0 : Fin 1) := funext fun b => Fin.ext (by match b with | ⟨0, _⟩ => rfl | ⟨1, _⟩ => rfl)
  have hb3 : idx_main_v37 (ix2 e k) = ix2 e (0 : Fin 1) := funext fun b => Fin.ext (by match b with | ⟨0, _⟩ => rfl | ⟨1, _⟩ => rfl)
  have hg : idx_main_v39 (idx_main_v40 (ix2 e k)) = ix1 k := funext fun b => Fin.ext (by match b with | ⟨0, _⟩ => rfl)
  have hh : idx_main_v42 (idx_main_v43 (ix2 e k)) = ix1 k := funext fun b => Fin.ext (by match b with | ⟨0, _⟩ => rfl)
  rw [val_main_v44_apply, val_main_v41_apply, val_main_v38_apply, val_main_v33_apply, val_main_v32_apply, hb2, v24_eq a e, val_main_v37_apply, hb3, val_main_v36_apply, val_main_v35_apply,
    v31_eq a e, val_main_v34_apply, val_main_cst_6_apply, val_main_v40_apply, val_main_v39_apply, hg, val_main_v43_apply, val_main_v42_apply, hh]
  simp only [Ideal.addf_def, Ideal.mulf_def, Ideal.subf_def, Ideal.hostUnary_rsqrt_def, Ideal.ofBits_def]
  rfl

/-- The distance row of edge `e` as the third linear map reads it. -/
def dRow (a : Spec.Args) (e : Fin 400000) : Row :=
  relu (gn (lin (a.d1 e) (matOf a.dist_w2)) (vecOf a.dist_gw) (vecOf a.dist_gb))

theorem v45_eq (a : Spec.Args) (ha : a.InRange) (e : Fin 400000) (k : Fin 128) :
    val_main_v45 (F := Ideal) a.agt_ctrs a.ctx_ctrs a.hi a.wi a.dist_w1 a.dist_b1 a.dist_w2 a.dist_gw a.dist_gb (ix2 e k) = dRow a e k := by
  rw [val_main_v45_apply, v44_eq a e k, val_main_call1_v0_apply, val_main_call1_cst_apply,
    show (fun k' => val_main_v20 (F := Ideal) a.agt_ctrs a.ctx_ctrs a.hi a.wi a.dist_w1 a.dist_b1 a.dist_w2 (ix2 e k')) = lin (a.d1 e) (matOf a.dist_w2) from funext fun k' => v20_eq a ha e k']
  rfl

/-! ## The agent branch -/

/-- The linear map of the agent branch on the gathered agent row. -/
theorem v53_eq (a : Spec.Args) (ha : a.InRange) (e : Fin 400000) (k : Fin 128) :
    val_main_v53 (F := Ideal) a.agts a.hi a.q_w (ix2 e k) = lin (rowOf a.agts (rowIx (a.hi (ix1 e)))) (matOf a.q_w) k := by
  have hl : ∀ j : Fin 128, lidx_main_v53 (ix2 e k) j = ix2 e j := fun j => funext fun b => Fin.ext (by match b with | ⟨0, _⟩ => rfl | ⟨1, _⟩ => rfl)
  have hr : ∀ j : Fin 128, ridx_main_v53 (ix2 e k) j = ix2 j k := fun j => funext fun b => Fin.ext (by match b with | ⟨0, _⟩ => rfl | ⟨1, _⟩ => rfl)
  rw [val_main_v53_apply]
  simp only [hl, hr, v52_eq a ha]
  rfl

/-! ### The group norm of the agent branch -/

/-- The row mean: the sum of the 128 channels from the zero initial value, divided by 128. -/
theorem v57_eq (a : Spec.Args) (e : Fin 400000) :
    val_main_v57 (F := Ideal) a.agts a.hi a.q_w (ix2 e (0 : Fin 1)) = Spec.mean (fun k' => val_main_v53 (F := Ideal) a.agts a.hi a.q_w (ix2 e k')) := by
  have hc : idx_main_v55 (ix2 e (0 : Fin 1)) = ix1 e := funext fun b => Fin.ext (by match b with | ⟨0, _⟩ => rfl)
  have hr : ∀ k' : Fin 128, idx_main_v54 (ix1 e) k' = ix2 e k' := fun k' => funext fun b => Fin.ext (by match b with | ⟨0, _⟩ => rfl | ⟨1, _⟩ => rfl)
  rw [val_main_v57_apply, val_main_v55_apply, hc, val_main_v54_apply, val_main_v56_apply, val_main_cst_10_apply, val_main_cst_9_apply]
  simp only [hr, Ideal.hostDivf_def, Ideal.ofBits_def, Ideal.ofBits_zero_f32, zero_add]
  rfl

/-- The row variance: the sum of the squared deviations from the mean, divided by 128. -/
theorem v64_eq (a : Spec.Args) (e : Fin 400000) :
    val_main_v64 (F := Ideal) a.agts a.hi a.q_w (ix2 e (0 : Fin 1)) = Spec.var (fun k' => val_main_v53 (F := Ideal) a.agts a.hi a.q_w (ix2 e k')) := by
  have hc : idx_main_v62 (ix2 e (0 : Fin 1)) = ix1 e := funext fun b => Fin.ext (by match b with | ⟨0, _⟩ => rfl)
  have hr : ∀ k' : Fin 128, idx_main_v61 (ix1 e) k' = ix2 e k' := fun k' => funext fun b => Fin.ext (by match b with | ⟨0, _⟩ => rfl | ⟨1, _⟩ => rfl)
  have hb : ∀ k' : Fin 128, idx_main_v58 (ix2 e k') = ix2 e (0 : Fin 1) := fun k' => funext fun b => Fin.ext (by match b with | ⟨0, _⟩ => rfl | ⟨1, _⟩ => rfl)
  rw [val_main_v64_apply, val_main_v62_apply, hc, val_main_v61_apply, val_main_v63_apply, val_main_cst_12_apply, val_main_cst_11_apply]
  simp only [hr, val_main_v60_apply, val_main_v59_apply, val_main_v58_apply, hb, v57_eq a e, Ideal.hostDivf_def, Ideal.mulf_def, Ideal.subf_def,
    Ideal.ofBits_def, Ideal.ofBits_zero_f32, zero_add]
  rfl

/-- The normalised row: centred, scaled by the reciprocal square root of variance plus `ε`, then the affine map. -/
theorem v77_eq (a : Spec.Args) (e : Fin 400000) (k : Fin 128) :
    val_main_v77 (F := Ideal) a.agts a.hi a.q_w a.q_gw a.q_gb (ix2 e k) = Spec.gn (fun k' => val_main_v53 (F := Ideal) a.agts a.hi a.q_w (ix2 e k')) (vecOf a.q_gw) (vecOf a.q_gb) k := by
  have hb2 : idx_main_v65 (ix2 e k) = ix2 e (0 : Fin 1) := funext fun b => Fin.ext (by match b with | ⟨0, _⟩ => rfl | ⟨1, _⟩ => rfl)
  have hb3 : idx_main_v70 (ix2 e k) = ix2 e (0 : Fin 1) := funext fun b => Fin.ext (by match b with | ⟨0, _⟩ => rfl | ⟨1, _⟩ => rfl)
  have hg : idx_main_v72 (idx_main_v73 (ix2 e k)) = ix1 k := funext fun b => Fin.ext (by match b with | ⟨0, _⟩ => rfl)
  have hh : idx_main_v75 (idx_main_v76 (ix2 e k)) = ix1 k := funext fun b => Fin.ext (by match b with | ⟨0, _⟩ => rfl)
  rw [val_main_v77_apply, val_main_v74_apply, val_main_v71_apply, val_main_v66_apply, val_main_v65_apply, hb2, v57_eq a e, val_main_v70_apply, hb3, val_main_v69_apply, val_main_v68_apply,
    v64_eq a e, val_main_v67_apply, val_main_cst_13_apply, val_main_v73_apply, val_main_v72_apply, hg, val_main_v76_apply, val_main_v75_apply, hh]
  simp only [Ideal.addf_def, Ideal.mulf_def, Ideal.subf_def, Ideal.hostUnary_rsqrt_def, Ideal.ofBits_def]
  rfl

/-- The agent row of edge `e` as the third linear map reads it. -/
def qRow (a : Spec.Args) (e : Fin 400000) : Row :=
  relu (gn (lin (rowOf a.agts (rowIx (a.hi (ix1 e)))) (matOf a.q_w)) (vecOf a.q_gw) (vecOf a.q_gb))

theorem v78_eq (a : Spec.Args) (ha : a.InRange) (e : Fin 400000) (k : Fin 128) :
    val_main_v78 (F := Ideal) a.agts a.hi a.q_w a.q_gw a.q_gb (ix2 e k) = qRow a e k := by
  rw [val_main_v78_apply, v77_eq a e k, val_main_call2_v0_apply, val_main_call2_cst_apply,
    show (fun k' => val_main_v53 (F := Ideal) a.agts a.hi a.q_w (ix2 e k')) = lin (rowOf a.agts (rowIx (a.hi (ix1 e)))) (matOf a.q_w)
      from funext fun k' => v53_eq a ha e k']
  rfl

/-! ## The concatenation, the third linear map and its group norm, the last linear map -/

/-- The three rows side by side: channel `kk` of the 384 comes from the piece whose span holds it. -/
theorem v86_eq (a : Spec.Args) (ha : a.InRange) (e : Fin 400000) (kk : Fin 384) :
    val_main_v86 (F := Ideal) a.agts a.ctx a.agt_ctrs a.ctx_ctrs a.hi a.wi a.dist_w1 a.dist_b1 a.dist_w2 a.dist_gw a.dist_gb a.q_w a.q_gw a.q_gb (ix2 e kk) = cat3 (dRow a e) (qRow a e) (rowOf a.ctx (rowIx (a.wi (ix1 e)))) kk := by
  unfold val_main_v86 cat3
  by_cases h1 : kk.val < 128
  · rw [dif_pos h1]
    exact (concatenate_apply_piece (t := S400000x384) (1 : Fin S400000x384.rank) _ _ (ix2 e kk) 0 (by simp only [List.length_cons, List.length_nil]; omega) S400000x128 _ rfl rfl 0 rfl
      (ix2 e ⟨kk.val, by omega⟩) (fun b hb => by match b with | ⟨0, _⟩ => rfl | ⟨1, _⟩ => exact absurd (Fin.ext rfl) hb)
      (by show 0 + (kk.val) = kk.val; omega)).trans (v45_eq a ha e ⟨kk.val, by omega⟩)
  · rw [dif_neg h1]
    by_cases h2 : kk.val < 256
    · rw [dif_pos h2]
      exact (concatenate_apply_piece (t := S400000x384) (1 : Fin S400000x384.rank) _ _ (ix2 e kk) 1 (by simp only [List.length_cons, List.length_nil]; omega) S400000x128 _ rfl rfl 128 rfl
      (ix2 e ⟨kk.val - 128, by omega⟩) (fun b hb => by match b with | ⟨0, _⟩ => rfl | ⟨1, _⟩ => exact absurd (Fin.ext rfl) hb)
      (by show 128 + (kk.val - 128) = kk.val; omega)).trans (v78_eq a ha e ⟨kk.val - 128, by omega⟩)
    · rw [dif_neg h2]
      have hk := kk.isLt
      exact (concatenate_apply_piece (t := S400000x384) (1 : Fin S400000x384.rank) _ _ (ix2 e kk) 2 (by simp only [List.length_cons, List.length_nil]; omega) S400000x128 _ rfl rfl 256 rfl
      (ix2 e ⟨kk.val - 256, by omega⟩) (fun b hb => by match b with | ⟨0, _⟩ => rfl | ⟨1, _⟩ => exact absurd (Fin.ext rfl) hb)
      (by show 256 + (kk.val - 256) = kk.val; omega)).trans (v85_eq a ha e ⟨kk.val - 256, by omega⟩)

/-- The third linear map, a row of 128 sums over the 384 concatenated channels. -/
theorem v87_eq (a : Spec.Args) (ha : a.InRange) (e : Fin 400000) (k : Fin 128) :
    val_main_v87 (F := Ideal) a.agts a.ctx a.agt_ctrs a.ctx_ctrs a.hi a.wi a.dist_w1 a.dist_b1 a.dist_w2 a.dist_gw a.dist_gb a.q_w a.q_gw a.q_gb a.ctx_w1 (ix2 e k)
      = lin (cat3 (dRow a e) (qRow a e) (rowOf a.ctx (rowIx (a.wi (ix1 e))))) (matOf a.ctx_w1) k := by
  have hl : ∀ j : Fin 384, lidx_main_v87 (ix2 e k) j = ix2 e j := fun j => funext fun b => Fin.ext (by match b with | ⟨0, _⟩ => rfl | ⟨1, _⟩ => rfl)
  have hr : ∀ j : Fin 384, ridx_main_v87 (ix2 e k) j = ix2 j k := fun j => funext fun b => Fin.ext (by match b with | ⟨0, _⟩ => rfl | ⟨1, _⟩ => rfl)
  rw [val_main_v87_apply]
  simp only [hl, hr, v86_eq a ha]
  rfl

/-! ### The group norm of the concatenated row -/

/-- The row mean: the sum of the 128 channels from the zero initial value, divided by 128. -/
theorem v91_eq (a : Spec.Args) (e : Fin 400000) :
    val_main_v91 (F := Ideal) a.agts a.ctx a.agt_ctrs a.ctx_ctrs a.hi a.wi a.dist_w1 a.dist_b1 a.dist_w2 a.dist_gw a.dist_gb a.q_w a.q_gw a.q_gb a.ctx_w1 (ix2 e (0 : Fin 1)) = Spec.mean (fun k' => val_main_v87 (F := Ideal) a.agts a.ctx a.agt_ctrs a.ctx_ctrs a.hi a.wi a.dist_w1 a.dist_b1 a.dist_w2 a.dist_gw a.dist_gb a.q_w a.q_gw a.q_gb a.ctx_w1 (ix2 e k')) := by
  have hc : idx_main_v89 (ix2 e (0 : Fin 1)) = ix1 e := funext fun b => Fin.ext (by match b with | ⟨0, _⟩ => rfl)
  have hr : ∀ k' : Fin 128, idx_main_v88 (ix1 e) k' = ix2 e k' := fun k' => funext fun b => Fin.ext (by match b with | ⟨0, _⟩ => rfl | ⟨1, _⟩ => rfl)
  rw [val_main_v91_apply, val_main_v89_apply, hc, val_main_v88_apply, val_main_v90_apply, val_main_cst_17_apply, val_main_cst_16_apply]
  simp only [hr, Ideal.hostDivf_def, Ideal.ofBits_def, Ideal.ofBits_zero_f32, zero_add]
  rfl

/-- The row variance: the sum of the squared deviations from the mean, divided by 128. -/
theorem v98_eq (a : Spec.Args) (e : Fin 400000) :
    val_main_v98 (F := Ideal) a.agts a.ctx a.agt_ctrs a.ctx_ctrs a.hi a.wi a.dist_w1 a.dist_b1 a.dist_w2 a.dist_gw a.dist_gb a.q_w a.q_gw a.q_gb a.ctx_w1 (ix2 e (0 : Fin 1)) = Spec.var (fun k' => val_main_v87 (F := Ideal) a.agts a.ctx a.agt_ctrs a.ctx_ctrs a.hi a.wi a.dist_w1 a.dist_b1 a.dist_w2 a.dist_gw a.dist_gb a.q_w a.q_gw a.q_gb a.ctx_w1 (ix2 e k')) := by
  have hc : idx_main_v96 (ix2 e (0 : Fin 1)) = ix1 e := funext fun b => Fin.ext (by match b with | ⟨0, _⟩ => rfl)
  have hr : ∀ k' : Fin 128, idx_main_v95 (ix1 e) k' = ix2 e k' := fun k' => funext fun b => Fin.ext (by match b with | ⟨0, _⟩ => rfl | ⟨1, _⟩ => rfl)
  have hb : ∀ k' : Fin 128, idx_main_v92 (ix2 e k') = ix2 e (0 : Fin 1) := fun k' => funext fun b => Fin.ext (by match b with | ⟨0, _⟩ => rfl | ⟨1, _⟩ => rfl)
  rw [val_main_v98_apply, val_main_v96_apply, hc, val_main_v95_apply, val_main_v97_apply, val_main_cst_19_apply, val_main_cst_18_apply]
  simp only [hr, val_main_v94_apply, val_main_v93_apply, val_main_v92_apply, hb, v91_eq a e, Ideal.hostDivf_def, Ideal.mulf_def, Ideal.subf_def,
    Ideal.ofBits_def, Ideal.ofBits_zero_f32, zero_add]
  rfl

/-- The normalised row: centred, scaled by the reciprocal square root of variance plus `ε`, then the affine map. -/
theorem v111_eq (a : Spec.Args) (e : Fin 400000) (k : Fin 128) :
    val_main_v111 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb (ix2 e k) = Spec.gn (fun k' => val_main_v87 (F := Ideal) a.agts a.ctx a.agt_ctrs a.ctx_ctrs a.hi a.wi a.dist_w1 a.dist_b1 a.dist_w2 a.dist_gw a.dist_gb a.q_w a.q_gw a.q_gb a.ctx_w1 (ix2 e k')) (vecOf a.ctx_gw) (vecOf a.ctx_gb) k := by
  have hb2 : idx_main_v99 (ix2 e k) = ix2 e (0 : Fin 1) := funext fun b => Fin.ext (by match b with | ⟨0, _⟩ => rfl | ⟨1, _⟩ => rfl)
  have hb3 : idx_main_v104 (ix2 e k) = ix2 e (0 : Fin 1) := funext fun b => Fin.ext (by match b with | ⟨0, _⟩ => rfl | ⟨1, _⟩ => rfl)
  have hg : idx_main_v106 (idx_main_v107 (ix2 e k)) = ix1 k := funext fun b => Fin.ext (by match b with | ⟨0, _⟩ => rfl)
  have hh : idx_main_v109 (idx_main_v110 (ix2 e k)) = ix1 k := funext fun b => Fin.ext (by match b with | ⟨0, _⟩ => rfl)
  rw [val_main_v111_apply, val_main_v108_apply, val_main_v105_apply, val_main_v100_apply, val_main_v99_apply, hb2, v91_eq a e, val_main_v104_apply, hb3, val_main_v103_apply, val_main_v102_apply,
    v98_eq a e, val_main_v101_apply, val_main_cst_20_apply, val_main_v107_apply, val_main_v106_apply, hg, val_main_v110_apply, val_main_v109_apply, hh]
  simp only [Ideal.addf_def, Ideal.mulf_def, Ideal.subf_def, Ideal.hostUnary_rsqrt_def, Ideal.ofBits_def]
  rfl

theorem v112_eq (a : Spec.Args) (ha : a.InRange) (e : Fin 400000) (k : Fin 128) :
    val_main_v112 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb (ix2 e k)
      = relu (gn (lin (cat3 (dRow a e) (qRow a e) (rowOf a.ctx (rowIx (a.wi (ix1 e))))) (matOf a.ctx_w1))
          (vecOf a.ctx_gw) (vecOf a.ctx_gb)) k := by
  rw [val_main_v112_apply, v111_eq a e k, val_main_call3_v0_apply, val_main_call3_cst_apply,
    show (fun k' => val_main_v87 (F := Ideal) a.agts a.ctx a.agt_ctrs a.ctx_ctrs a.hi a.wi a.dist_w1 a.dist_b1 a.dist_w2 a.dist_gw a.dist_gb a.q_w a.q_gw a.q_gb a.ctx_w1 (ix2 e k'))
        = lin (cat3 (dRow a e) (qRow a e) (rowOf a.ctx (rowIx (a.wi (ix1 e))))) (matOf a.ctx_w1)
      from funext fun k' => v87_eq a ha e k']
  rfl

/-- The message array at `(e, k)`: channel `k` of the message of edge `e`. -/
theorem v113_apply_eq (a : Spec.Args) (ha : a.InRange) (e : Fin 400000) (k : Fin 128) :
    val_main_v113 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 (ix2 e k) = a.msg e k := by
  have hl : ∀ j : Fin 128, lidx_main_v113 (ix2 e k) j = ix2 e j := fun j => funext fun b => Fin.ext (by match b with | ⟨0, _⟩ => rfl | ⟨1, _⟩ => rfl)
  have hr : ∀ j : Fin 128, ridx_main_v113 (ix2 e k) j = ix2 j k := fun j => funext fun b => Fin.ext (by match b with | ⟨0, _⟩ => rfl | ⟨1, _⟩ => rfl)
  rw [val_main_v113_apply]
  simp only [hl, hr, v112_eq a ha]
  rfl

theorem v113_eq (a : Spec.Args) (ha : a.InRange) :
    val_main_v113 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 = Spec.msgArr a := by
  funext i
  obtain ⟨e, k, rfl⟩ : ∃ (e : Fin 400000) (k : Fin 128), i = ix2 e k := ⟨i 0, i 1, eq_ix2 i⟩
  rw [msgArr_apply]
  exact v113_apply_eq a ha e k

end Cert.ReferenceIdeal.RefEdge

end
-- ==== Proof.RefNode.lean ====
import proofs.«430932_j23313082483285_1_alg».proof.Proof.ReadCopy
import proofs.«430932_j23313082483285_1_alg».proof.Proof.Spec
import proofs.«430932_j23313082483285_1_alg».proof.Proof.Seg
import Idealize.ShloMosaic.Lib.ValueIdx
import Idealize.ShloMosaic.Lib.Pipeline.Value
import Idealize.ShloMosaic.PureOps.Ideal.Laws
/-!
# The reference's result from its message array

The reference scatter-adds the message array into `agts · agt_w` at the index vector `hi` (a negative index wrapped
once), then applies the group norm, the relu, the linear map, the second group norm, the residual and the last relu.
At the extended reals the scatter's value at an element is the operand there plus the sum of the messages whose
index lands on it; with no index negative the wrapped index vector is `hi` itself, and the result is `Seg.G`.
-/

noncomputable section

namespace Cert.ReferenceIdeal.RefNode

open Idealize.ShloMosaic Idealize.ShloMosaic.ValueIdx
open Cert.ReferenceIdeal Cert.ReferenceIdeal.Read Cert.Spec

section Stages

variable (x0 x1 : (⟨S65536x128, .f32⟩ : BufTy).Contents (Elt Ideal)) (x2 x3 : (⟨S65536x2, .f32⟩ : BufTy).Contents (Elt Ideal)) (x4 x5 : (⟨S400000, .i32⟩ : BufTy).Contents (Elt Ideal)) (x6 : (⟨S2x128, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S384x128, .f32⟩ : BufTy).Contents (Elt Ideal)) (x15 x16 : (⟨S128, .f32⟩ : BufTy).Contents (Elt Ideal)) (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (x22 x23 : (⟨S128, .f32⟩ : BufTy).Contents (Elt Ideal))

/-- Row `n` of the scatter's result. -/
local notation "row121" n => (fun c : Fin 128 => val_main_v121 (F := Ideal) x0 x1 x2 x3 x4 x5 x6 x7 x8 x9 x10 x11 x12 x13 x14 x15 x16 x17 x18 (ix2 n c))

/-- Row `n` of the second linear map's result. -/
local notation "row147" n => (fun c : Fin 128 => val_main_v147 (F := Ideal) x0 x1 x2 x3 x4 x5 x6 x7 x8 x9 x10 x11 x12 x13 x14 x15 x16 x17 x18 x19 x20 x21 (ix2 n c))

/-! ## The first group norm, over the rows of the scatter's result -/

/-- The mean of a row: the row's sum (from the zero initial value) over 128. -/
private theorem mean1 (n : Fin 65536) :
    val_main_v125 (F := Ideal) x0 x1 x2 x3 x4 x5 x6 x7 x8 x9 x10 x11 x12 x13 x14 x15 x16 x17 x18 (ix2 n (0 : Fin 1)) = mean (row121 n) := by
  have e1 : idx_main_v123 (ix2 n (0 : Fin 1)) = ix1 n := eq_ix1 _
  have e2 : ∀ j : Fin 128, idx_main_v122 (ix1 n) j = ix2 n j := fun j => eq_ix2 _
  rw [val_main_v125_apply, val_main_v123_apply, e1, val_main_v122_apply, val_main_v124_apply, val_main_cst_24_apply,
    val_main_cst_23_apply]
  simp only [e2, Ideal.hostDivf_def, Ideal.ofBits_def, Ideal.ofBits_zero_f32, zero_add]
  rfl

/-- The variance of a row: the sum of the squared centred entries over 128. -/
private theorem var1 (n : Fin 65536) :
    val_main_v132 (F := Ideal) x0 x1 x2 x3 x4 x5 x6 x7 x8 x9 x10 x11 x12 x13 x14 x15 x16 x17 x18 (ix2 n (0 : Fin 1)) = var (row121 n) := by
  have e1 : idx_main_v130 (ix2 n (0 : Fin 1)) = ix1 n := eq_ix1 _
  have e2 : ∀ j : Fin 128, idx_main_v129 (ix1 n) j = ix2 n j := fun j => eq_ix2 _
  have e3 : ∀ j : Fin 128, idx_main_v126 (ix2 n j) = ix2 n (0 : Fin 1) := fun j => eq_ix2 _
  rw [val_main_v132_apply, val_main_v130_apply, e1, val_main_v129_apply, val_main_v131_apply, val_main_cst_26_apply,
    val_main_cst_25_apply]
  simp only [e2, val_main_v128_apply, val_main_v127_apply, val_main_v126_apply, e3, mean1, Ideal.hostDivf_def,
    Ideal.mulf_def, Ideal.subf_def, Ideal.ofBits_def, Ideal.ofBits_zero_f32, zero_add]
  rfl

/-- The normalised row with its affine map. -/
private theorem gn1 (n : Fin 65536) (k : Fin 128) :
    val_main_v145 (F := Ideal) x0 x1 x2 x3 x4 x5 x6 x7 x8 x9 x10 x11 x12 x13 x14 x15 x16 x17 x18 x19 x20 (ix2 n k) = gn (row121 n) (vecOf x19) (vecOf x20) k := by
  have e3 : idx_main_v133 (ix2 n k) = ix2 n (0 : Fin 1) := eq_ix2 _
  have e4 : idx_main_v138 (ix2 n k) = ix2 n (0 : Fin 1) := eq_ix2 _
  have e5 : idx_main_v140 (idx_main_v141 (ix2 n k)) = ix1 k := eq_ix1 _
  have e6 : idx_main_v143 (idx_main_v144 (ix2 n k)) = ix1 k := eq_ix1 _
  rw [val_main_v145_apply, val_main_v142_apply, val_main_v139_apply, val_main_v134_apply, val_main_v133_apply, e3, mean1,
    val_main_v138_apply, e4, val_main_v137_apply, val_main_v136_apply, var1, val_main_v135_apply, val_main_cst_27_apply,
    val_main_v141_apply, val_main_v140_apply, e5, val_main_v144_apply, val_main_v143_apply, e6]
  rfl

/-- The relu of the normalised row. -/
private theorem relu1 (n : Fin 65536) (k : Fin 128) :
    val_main_v146 (F := Ideal) x0 x1 x2 x3 x4 x5 x6 x7 x8 x9 x10 x11 x12 x13 x14 x15 x16 x17 x18 x19 x20 (ix2 n k) = relu (gn (row121 n) (vecOf x19) (vecOf x20)) k := by
  rw [val_main_v146_apply, gn1, val_main_call4_v0_apply, val_main_call4_cst_apply]
  rfl

/-- The second linear map of that row. -/
private theorem lin2 (n : Fin 65536) (k : Fin 128) :
    val_main_v147 (F := Ideal) x0 x1 x2 x3 x4 x5 x6 x7 x8 x9 x10 x11 x12 x13 x14 x15 x16 x17 x18 x19 x20 x21 (ix2 n k)
      = lin (relu (gn (row121 n) (vecOf x19) (vecOf x20))) (matOf x21) k := by
  have el : ∀ j : Fin 128, lidx_main_v147 (ix2 n k) j = ix2 n j := fun j => eq_ix2 _
  have er : ∀ j : Fin 128, ridx_main_v147 (ix2 n k) j = ix2 j k := fun j => eq_ix2 _
  rw [val_main_v147_apply]
  simp only [el, er, relu1]
  rfl

/-! ## The second group norm, over the rows of the second linear map's result -/

private theorem mean2 (n : Fin 65536) :
    val_main_v151 (F := Ideal) x0 x1 x2 x3 x4 x5 x6 x7 x8 x9 x10 x11 x12 x13 x14 x15 x16 x17 x18 x19 x20 x21 (ix2 n (0 : Fin 1)) = mean (row147 n) := by
  have e1 : idx_main_v149 (ix2 n (0 : Fin 1)) = ix1 n := eq_ix1 _
  have e2 : ∀ j : Fin 128, idx_main_v148 (ix1 n) j = ix2 n j := fun j => eq_ix2 _
  rw [val_main_v151_apply, val_main_v149_apply, e1, val_main_v148_apply, val_main_v150_apply, val_main_cst_29_apply,
    val_main_cst_28_apply]
  simp only [e2, Ideal.hostDivf_def, Ideal.ofBits_def, Ideal.ofBits_zero_f32, zero_add]
  rfl

private theorem var2 (n : Fin 65536) :
    val_main_v158 (F := Ideal) x0 x1 x2 x3 x4 x5 x6 x7 x8 x9 x10 x11 x12 x13 x14 x15 x16 x17 x18 x19 x20 x21 (ix2 n (0 : Fin 1)) = var (row147 n) := by
  have e1 : idx_main_v156 (ix2 n (0 : Fin 1)) = ix1 n := eq_ix1 _
  have e2 : ∀ j : Fin 128, idx_main_v155 (ix1 n) j = ix2 n j := fun j => eq_ix2 _
  have e3 : ∀ j : Fin 128, idx_main_v152 (ix2 n j) = ix2 n (0 : Fin 1) := fun j => eq_ix2 _
  rw [val_main_v158_apply, val_main_v156_apply, e1, val_main_v155_apply, val_main_v157_apply, val_main_cst_31_apply,
    val_main_cst_30_apply]
  simp only [e2, val_main_v154_apply, val_main_v153_apply, val_main_v152_apply, e3, mean2, Ideal.hostDivf_def,
    Ideal.mulf_def, Ideal.subf_def, Ideal.ofBits_def, Ideal.ofBits_zero_f32, zero_add]
  rfl

private theorem gn2 (n : Fin 65536) (k : Fin 128) :
    val_main_v171 (F := Ideal) x0 x1 x2 x3 x4 x5 x6 x7 x8 x9 x10 x11 x12 x13 x14 x15 x16 x17 x18 x19 x20 x21 x22 x23 (ix2 n k) = gn (row147 n) (vecOf x22) (vecOf x23) k := by
  have e3 : idx_main_v159 (ix2 n k) = ix2 n (0 : Fin 1) := eq_ix2 _
  have e4 : idx_main_v164 (ix2 n k) = ix2 n (0 : Fin 1) := eq_ix2 _
  have e5 : idx_main_v166 (idx_main_v167 (ix2 n k)) = ix1 k := eq_ix1 _
  have e6 : idx_main_v169 (idx_main_v170 (ix2 n k)) = ix1 k := eq_ix1 _
  rw [val_main_v171_apply, val_main_v168_apply, val_main_v165_apply, val_main_v160_apply, val_main_v159_apply, e3, mean2,
    val_main_v164_apply, e4, val_main_v163_apply, val_main_v162_apply, var2, val_main_v161_apply, val_main_cst_32_apply,
    val_main_v167_apply, val_main_v166_apply, e5, val_main_v170_apply, val_main_v169_apply, e6]
  rfl

/-- The residual and the last relu. -/
private theorem out173 (n : Fin 65536) (k : Fin 128) :
    val_main_v173 (F := Ideal) x0 x1 x2 x3 x4 x5 x6 x7 x8 x9 x10 x11 x12 x13 x14 x15 x16 x17 x18 x19 x20 x21 x22 x23 (ix2 n k)
      = relu (fun c => gn (row147 n) (vecOf x22) (vecOf x23) c + x0 (ix2 n c)) k := by
  rw [val_main_v173_apply, val_main_v172_apply, gn2, val_main_call5_v0_apply, val_main_call5_cst_apply]
  rfl

/-! ## The scatter -/

/-- With no index negative, the wrapped index vector is the index vector itself. -/
private theorem v119_eq (h : ∀ e : Fin 400000, 0 ≤ (x4 (ix1 e)).toInt) : val_main_v119 (F := Ideal) x4 = x4 := by
  funext e
  obtain ⟨e, rfl⟩ : ∃ e' : Fin 400000, e = ix1 e' := ⟨e 0, eq_ix1 e⟩
  rw [val_main_v119_apply, val_main_v116_apply, val_main_v115_apply, val_main_c_21_apply]
  have h0 : IntOp.cmpi .slt (x4 (ix1 e)) 0#32 = 0#1 := eq_zero_of_ne_one fun h1 => by
    have h2 := IntOp.cmpi_slt.mp h1
    have h3 := h e
    have h4 : (0#32 : BitVec 32).toInt = 0 := by decide
    omega
  rw [h0, select_zero]

/-- The scatter's result at an element: the operand there plus the sum of the update elements whose index lands on it. -/
private theorem v121_apply (i : S65536x128.Idx) :
    val_main_v121 (F := Ideal) x0 x1 x2 x3 x4 x5 x6 x7 x8 x9 x10 x11 x12 x13 x14 x15 x16 x17 x18 i
      = val_main_v114 (F := Ideal) x0 x18 i
        + ∑ j ∈ Finset.univ.filter (fun j => scatter_S65536x128_S400000x1_S400000x128_1_0_0_1.resultIdx? j (val_main_v120 (F := Ideal) x4) = some i),
            val_main_v113 (F := Ideal) x0 x1 x2 x3 x4 x5 x6 x7 x8 x9 x10 x11 x12 x13 x14 x15 x16 x17 j := rfl

end Stages

/-- The wrapped, broadcast index vector is the index vector the sum of messages is taken at. -/
private theorem v120_eq (a : Spec.Args) (ha : a.InRange) :
    val_main_v120 (F := Ideal) a.hi = Cert.KernelIdeal.Seg.idxOf a.hi := by
  unfold val_main_v120
  rw [v119_eq a.hi (fun e => (ha e).1.1)]
  rfl

/-- A row of the scatter's result: the node's row through `agt_w` plus the sum of the messages that reach the node. -/
private theorem v121_eq (a : Spec.Args) (ha : a.InRange)
    (hM : val_main_v113 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 = Spec.msgArr a) (n : Fin 65536) (k : Fin 128) :
    val_main_v121 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w (ix2 n k)
      = lin (rowOf a.agts n) (matOf a.agt_w) k + rowOf (Cert.KernelIdeal.Seg.segSum a.hi (Spec.msgArr a)) n k := by
  have el : ∀ j : Fin 128, lidx_main_v114 (ix2 n k) j = ix2 n j := fun j => eq_ix2 _
  have er : ∀ j : Fin 128, ridx_main_v114 (ix2 n k) j = ix2 j k := fun j => eq_ix2 _
  rw [v121_apply, v120_eq a ha, hM, val_main_v114_apply]
  simp only [el, er]
  rfl

theorem v173_eq (a : Spec.Args) (ha : a.InRange)
    (hM : val_main_v113 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 = Spec.msgArr a) :
    val_main_v173 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w a.norm_w a.norm_b a.lin_w a.lin_gw a.lin_gb = Cert.KernelIdeal.Seg.G a := by
  funext i
  obtain ⟨n, k, rfl⟩ : ∃ (n : Fin 65536) (k : Fin 128), i = ix2 n k := ⟨i 0, i 1, eq_ix2 i⟩
  have h121 : (fun c : Fin 128 => val_main_v121 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w (ix2 n c))
      = fun c => lin (rowOf a.agts n) (matOf a.agt_w) c + rowOf (Cert.KernelIdeal.Seg.segSum a.hi (Spec.msgArr a)) n c :=
    funext fun c => v121_eq a ha hM n c
  have h147 : (fun c : Fin 128 => val_main_v147 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w a.norm_w a.norm_b a.lin_w (ix2 n c))
      = lin (relu (gn (fun c : Fin 128 => val_main_v121 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w (ix2 n c)) (vecOf a.norm_w) (vecOf a.norm_b)))
          (matOf a.lin_w) :=
    funext fun c => lin2 _ _ _ _ _ _ _ _ _ _ _ _ _ _ _ _ _ _ _ _ _ _ n c
  rw [out173, h147, h121]
  rfl

end Cert.ReferenceIdeal.RefNode

end
-- ==== Proof.RefVal.lean ====
import proofs.«430932_j23313082483285_1_alg».proof.Proof.ReadCopy
import proofs.«430932_j23313082483285_1_alg».proof.Proof.Spec
import proofs.«430932_j23313082483285_1_alg».proof.Proof.Seg
import proofs.«430932_j23313082483285_1_alg».proof.Proof.RefEdge
import proofs.«430932_j23313082483285_1_alg».proof.Proof.RefNode
/-!
# The reference's result is the layer's result
-/

noncomputable section

namespace Cert.ReferenceIdeal.RefVal

open Idealize.ShloMosaic Idealize.ShloMosaic.ValueIdx
open Cert.ReferenceIdeal Cert.ReferenceIdeal.Read Cert.Spec

theorem result_eq (a : Spec.Args) (ha : a.InRange) :
    val_main_v173 (F := Ideal) a.agts a.ctx a.agt_ctrs a.ctx_ctrs a.hi a.wi a.dist_w1 a.dist_b1 a.dist_w2 a.dist_gw a.dist_gb a.q_w a.q_gw a.q_gb a.ctx_w1 a.ctx_gw a.ctx_gb a.ctx_w2 a.agt_w a.norm_w a.norm_b a.lin_w a.lin_gw a.lin_gb = Cert.KernelIdeal.Seg.G a :=
  RefNode.v173_eq a ha (RefEdge.v113_eq a ha)

end Cert.ReferenceIdeal.RefVal

end
-- ==== Proof.lean ====
/-
  The certificate of the graph message-passing layer: two kernels (the per-edge MLP on blocks of 4000 edges, the
  per-node update on blocks of 4096 nodes) with the gathers and the scatter-add between them on the host, against the
  jnp reference.

  The claim is stated for index vectors whose entries are rows of their tables (`0 ≤ hi e, wi e < 65536`): there a
  gather's wrap of negative indices, its clamp, and its fill of an out-of-range row all do nothing, and the kernel's
  scatter at the raw indices is the reference's scatter at the wrapped ones.  At the extended reals both programs then
  compute ONE function of the arguments, `Seg.G`: every edge's message `Spec.Args.msg` (three group norms, four
  linear maps, a concatenation), summed over the edges that point at each node, and the node update `Spec.nodeOut`.
  The equalities are structural — the same sums term by term, a matrix unit's product and the host's `dot_general` one
  contraction, a lane reduction and the host's `reduce` one sum, a change of float format the identity — and the one
  arithmetic fact is `0 + x = x` for the zero a sum or a scatter starts from; no finiteness is used.

  The kernels' frames are the generated ones; the reference's frame is its run (the host operations in order, the result
  read as the last stage of the reference's stages) with the result dropped;
  the ideal pass's ledger is empty.
-/
import proofs.«430932_j23313082483285_1_alg».proof.Defs
import proofs.«430932_j23313082483285_1_alg».proof.Proof.Gen.Kernel
import proofs.«430932_j23313082483285_1_alg».proof.Proof.Gen.Kernel.Skeleton
import proofs.«430932_j23313082483285_1_alg».proof.Proof.Gen.Kernel.Launch
import proofs.«430932_j23313082483285_1_alg».proof.Proof.Gen.Kernel.Points
import proofs.«430932_j23313082483285_1_alg».proof.Proof.Gen.Kernel.Frame
import proofs.«430932_j23313082483285_1_alg».proof.Proof.Gen.KernelIdeal
import proofs.«430932_j23313082483285_1_alg».proof.Proof.Gen.KernelIdeal.Skeleton
import proofs.«430932_j23313082483285_1_alg».proof.Proof.Gen.KernelIdeal.Launch
import proofs.«430932_j23313082483285_1_alg».proof.Proof.Gen.KernelIdeal.Points
import proofs.«430932_j23313082483285_1_alg».proof.Proof.Gen.KernelIdeal.Frame
import proofs.«430932_j23313082483285_1_alg».proof.Proof.Gen.ReferenceIdeal
import proofs.«430932_j23313082483285_1_alg».proof.Proof.Gen.Pre_finite_inputs
import proofs.«430932_j23313082483285_1_alg».proof.Proof.RunCopy
import proofs.«430932_j23313082483285_1_alg».proof.Proof.KRun
import proofs.«430932_j23313082483285_1_alg».proof.Proof.KVal
import proofs.«430932_j23313082483285_1_alg».proof.Proof.KPre
import proofs.«430932_j23313082483285_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, run from memories that agree on the arguments, end with the result array at `Seg.G` of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Seg.G (Cert.KernelIdeal.KArr.args m c), ?_, ?_⟩
  · exact (θ_run Cert.KernelIdeal.defs _ _).mono
      (fun r h c => ⟨(h c).1.trans (Cert.KernelIdeal.KVal.result_eq m ρ c (Cert.KernelIdeal.KPre.inRange_of_pre m hpre c)), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23⟩ := hagree c
    rw [h0, h1, h2, h3, h4, h5, h6, h7, h8, h9, h10, h11, h12, h13, h14, h15, h16, h17, h18, h19, h20, h21, h22, h23]
    exact Cert.ReferenceIdeal.RefVal.result_eq (Cert.KernelIdeal.KArr.args m c) (Cert.KernelIdeal.KPre.inRange_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
